-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S4000x256 .f32 .bf16
  ∧ IdealRules.truncf_extf.Statement Cert.KernelIdeal.S4000x256 .f32 .bf16
  ∧ IdealRules.named_const.Statement Cert.KernelIdeal.κ "inv_temperature" .f32 0x41649249#32 ((134217728 / 9395241 : ℝ) : EReal)
  ∧ IdealRules.named_const.Statement Cert.KernelIdeal.κ "neg_fill" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v59)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v41) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000 : Shape := ⟨1, ![200000]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S200000 : S_.BroadcastsInDim S200000 (![] : Fin 0 → Fin S200000.rank)
  reducesTo_S200000_S_d0 : S200000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S200000x256 .f32) (main_arg1 : IVec S200000 32) (main_arg2 : FVec F S200000x256 .f32) (main_arg3 : IVec S200000 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg2
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_c_2 : IVec S_ 32 := constantI S_ 32 0#32
  let main_v9 : IVec S200000 32 := broadcastInDim S200000 ![] bcast_S_S200000 main_c_2
  let main_v10 : IVec S200000 1 := cmpi .sge main_arg1 main_v9
  let main_c_3 : IVec S_ 1 := constantI S_ 1 1#1
  let main_v11 : IVec S_ 1 := (fun x v => Host.reduce IntOp.andi x v reducesTo_S200000_S_d0 h_S_) main_v10 main_c_3
  let main_v12 : IVec S_ 1 := andi main_v8 main_v11
  let main_c_4 : IVec S_ 32 := constantI S_ 32 1000#32
  let main_v13 : IVec S200000 32 := broadcastInDim S200000 ![] bcast_S_S200000 main_c_4
  let main_v14 : IVec S200000 1 := cmpi .slt main_arg1 main_v13
  let main_c_5 : IVec S_ 1 := constantI S_ 1 1#1
  let main_v15 : IVec S_ 1 := (fun x v => Host.reduce IntOp.andi x v reducesTo_S200000_S_d0 h_S_) main_v14 main_c_5
  fn_part1 (F := F) main_v12 main_v15
-- ==== Kernel.lean ====
abbrev S200000x256 : Shape := ⟨2, ![200000, 256]⟩
abbrev S200000 : Shape := ⟨1, ![200000]⟩
abbrev S200000x1 : Shape := ⟨2, ![200000, 1]⟩
abbrev S2x1024x256 : Shape := ⟨3, ![2, 1024, 256]⟩
abbrev S2x1x1024 : Shape := ⟨3, ![2, 1, 1024]⟩
abbrev S4000x256 : Shape := ⟨2, ![4000, 256]⟩
abbrev S4000x1 : Shape := ⟨2, ![4000, 1]⟩
abbrev S1x1024x256 : Shape := ⟨3, ![1, 1024, 256]⟩
abbrev S1x1x1024 : Shape := ⟨3, ![1, 1, 1024]⟩
abbrev S1024x256 : Shape := ⟨2, ![1024, 256]⟩
abbrev S1x1024 : Shape := ⟨2, ![1, 1024]⟩
abbrev S4000x1024 : Shape := ⟨2, ![4000, 1024]⟩
abbrev S1024 : Shape := ⟨1, ![1024]⟩
abbrev S_ : Shape := ⟨0, ![]⟩
abbrev S1000x256 : Shape := ⟨2, ![1000, 256]⟩
abbrev S1000 : Shape := ⟨1, ![1000]⟩
abbrev S1000x1 : Shape := ⟨2, ![1000, 1]⟩
abbrev S256x1000 : Shape := ⟨2, ![256, 1000]⟩
abbrev S1000x1000 : Shape := ⟨2, ![1000, 1000]⟩
abbrev S1024x1 : Shape := ⟨2, ![1024, 1]⟩
abbrev S2x1x1 : Shape := ⟨3, ![2, 1, 1]⟩
abbrev S2000x256 : Shape := ⟨2, ![2000, 256]⟩
abbrev S2000x1 : Shape := ⟨2, ![2000, 1]⟩
abbrev S1x1x1 : Shape := ⟨3, ![1, 1, 1]⟩
abbrev S1x1 : Shape := ⟨2, ![1, 1]⟩
abbrev S2000 : Shape := ⟨1, ![2000]⟩
abbrev S2000x1024 : Shape := ⟨2, ![2000, 1024]⟩
abbrev S1x2000x1 : Shape := ⟨3, ![1, 2000, 1]⟩
abbrev S1 : Shape := ⟨1, ![1]⟩

abbrev nBuf : Space → Nat
  | .hbm => 84
  | .vmem => 23
  | .smem => 0
  | _ => 0

abbrev bufTy : (tb : Table) → Fin (tcTables nBuf tb) → BufTy
  | .hbm, ⟨0, _⟩ => ⟨S200000x256, .f32⟩
  | .hbm, ⟨1, _⟩ => ⟨S200000, .i32⟩
  | .hbm, ⟨2, _⟩ => ⟨S200000x256, .f32⟩
  | .hbm, ⟨3, _⟩ => ⟨S200000, .i32⟩
  | .hbm, ⟨4, _⟩ => ⟨S200000x1, .i32⟩
  | .hbm, ⟨5, _⟩ => ⟨S200000x1, .i32⟩
  | .hbm, ⟨6, _⟩ => ⟨S2x1024x256, .f32⟩
  | .hbm, ⟨7, _⟩ => ⟨S2x1x1024, .f32⟩
  | .hbm, ⟨8, _⟩ => ⟨S_, .f32⟩
  | .hbm, ⟨9, _⟩ => ⟨S1024x256, .f32⟩
  | .hbm, ⟨10, _⟩ => ⟨S_, .f32⟩
  | .hbm, ⟨11, _⟩ => ⟨S1x1024, .f32⟩
  | .hbm, ⟨12, _⟩ => ⟨S1024, .f32⟩
  | .hbm, ⟨13, _⟩ => ⟨S2x1024x256, .f32⟩
  | .hbm, ⟨14, _⟩ => ⟨S2x1x1024, .f32⟩
  | .hbm, ⟨15, _⟩ => ⟨S_, .f32⟩
  | .hbm, ⟨16, _⟩ => ⟨S1024x256, .f32⟩
  | .hbm, ⟨17, _⟩ => ⟨S_, .f32⟩
  | .hbm, ⟨18, _⟩ => ⟨S1x1024, .f32⟩
  | .hbm, ⟨19, _⟩ => ⟨S1024, .f32⟩
  | .hbm, ⟨20, _⟩ => ⟨S1000x256, .f32⟩
  | .hbm, ⟨21, _⟩ => ⟨S1000x256, .f32⟩
  | .hbm, ⟨22, _⟩ => ⟨S1000, .f32⟩
  | .hbm, ⟨23, _⟩ => ⟨S1000, .f32⟩
  | .hbm, ⟨24, _⟩ => ⟨S_, .f32⟩
  | .hbm, ⟨25, _⟩ => ⟨S1000, .f32⟩
  | .hbm, ⟨26, _⟩ => ⟨S1000, .f32⟩
  | .hbm, ⟨27, _⟩ => ⟨S1000x1, .f32⟩
  | .hbm, ⟨28, _⟩ => ⟨S1000x256, .f32⟩
  | .hbm, ⟨29, _⟩ => ⟨S1000x256, .f32⟩
  | .hbm, ⟨30, _⟩ => ⟨S_, .f32⟩
  | .hbm, ⟨31, _⟩ => ⟨S1000, .f32⟩
  | .hbm, ⟨32, _⟩ => ⟨S1000, .f32⟩
  | .hbm, ⟨33, _⟩ => ⟨S1000x1, .f32⟩
  | .hbm, ⟨34, _⟩ => ⟨S1000x256, .f32⟩
  | .hbm, ⟨35, _⟩ => ⟨S1000x256, .f32⟩
  | .hbm, ⟨36, _⟩ => ⟨S1000x256, .f32⟩
  | .hbm, ⟨37, _⟩ => ⟨S_, .f32⟩
  | .hbm, ⟨38, _⟩ => ⟨S1000, .f32⟩
  | .hbm, ⟨39, _⟩ => ⟨S1000x1, .f32⟩
  | .hbm, ⟨40, _⟩ => ⟨S1000x1, .f32⟩
  | .hbm, ⟨41, _⟩ => ⟨S_, .f32⟩
  | .hbm, ⟨42, _⟩ => ⟨S1000x1, .f32⟩
  | .hbm, ⟨43, _⟩ => ⟨S1000x1, .f32⟩
  | .hbm, ⟨44, _⟩ => ⟨S1000x256, .f32⟩
  | .hbm, ⟨45, _⟩ => ⟨S1000x256, .f32⟩
  | .hbm, ⟨46, _⟩ => ⟨S1000x256, .f32⟩
  | .hbm, ⟨47, _⟩ => ⟨S_, .f32⟩
  | .hbm, ⟨48, _⟩ => ⟨S1000, .f32⟩
  | .hbm, ⟨49, _⟩ => ⟨S1000x1, .f32⟩
  | .hbm, ⟨50, _⟩ => ⟨S1000x1, .f32⟩
  | .hbm, ⟨51, _⟩ => ⟨S_, .f32⟩
  | .hbm, ⟨52, _⟩ => ⟨S1000x1, .f32⟩
  | .hbm, ⟨53, _⟩ => ⟨S1000x1, .f32⟩
  | .hbm, ⟨54, _⟩ => ⟨S1000x256, .f32⟩
  | .hbm, ⟨55, _⟩ => ⟨S1000x256, .f32⟩
  | .hbm, ⟨56, _⟩ => ⟨S256x1000, .f32⟩
  | .hbm, ⟨57, _⟩ => ⟨S1000x1000, .f32⟩
  | .hbm, ⟨58, _⟩ => ⟨S256x1000, .f32⟩
  | .hbm, ⟨59, _⟩ => ⟨S1000x1000, .f32⟩
  | .hbm, ⟨60, _⟩ => ⟨S1000x1000, .f32⟩
  | .hbm, ⟨61, _⟩ => ⟨S1000x1000, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .i32⟩
  | .hbm, ⟨67, _⟩ => ⟨S_, .f32⟩
  | .hbm, ⟨68, _⟩ => ⟨S1024x256, .f32⟩
  | .hbm, ⟨69, _⟩ => ⟨S1024x256, .f32⟩
  | .hbm, ⟨70, _⟩ => ⟨S_, .f32⟩
  | .hbm, ⟨71, _⟩ => ⟨S1024, .f32⟩
  | .hbm, ⟨72, _⟩ => ⟨S1024x1, .f32⟩
  | .hbm, ⟨73, _⟩ => ⟨S1024x1, .f32⟩
  | .hbm, ⟨74, _⟩ => ⟨S_, .f32⟩
  | .hbm, ⟨75, _⟩ => ⟨S1024x1, .f32⟩
  | .hbm, ⟨76, _⟩ => ⟨S1024x1, .f32⟩
  | .hbm, ⟨77, _⟩ => ⟨S1024x256, .f32⟩
  | .hbm, ⟨78, _⟩ => ⟨S1024x256, .f32⟩
  | .hbm, ⟨79, _⟩ => ⟨S2x1x1, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .local _ .vmem, ⟨0, _⟩ => ⟨S4000x256, .f32⟩
  | .local _ .vmem, ⟨1, _⟩ => ⟨S4000x256, .f32⟩
  | .local _ .vmem, ⟨2, _⟩ => ⟨S4000x1, .i32⟩
  | .local _ .vmem, ⟨3, _⟩ => ⟨S4000x1, .i32⟩
  | .local _ .vmem, ⟨4, _⟩ => ⟨S1x1024x256, .f32⟩
  | .local _ .vmem, ⟨5, _⟩ => ⟨S1x1024x256, .f32⟩
  | .local _ .vmem, ⟨6, _⟩ => ⟨S1x1x1024, .f32⟩
  | .local _ .vmem, ⟨7, _⟩ => ⟨S1x1x1024, .f32⟩
  | .local _ .vmem, ⟨8, _⟩ => ⟨S4000x256, .f32⟩
  | .local _ .vmem, ⟨9, _⟩ => ⟨S4000x256, .f32⟩
  | .local _ .vmem, ⟨10, _⟩ => ⟨S4000x1, .i32⟩
  | .local _ .vmem, ⟨11, _⟩ => ⟨S4000x1, .i32⟩
  | .local _ .vmem, ⟨12, _⟩ => ⟨S1x1024x256, .f32⟩
  | .local _ .vmem, ⟨13, _⟩ => ⟨S1x1024x256, .f32⟩
  | .local _ .vmem, ⟨14, _⟩ => ⟨S1x1x1024, .f32⟩
  | .local _ .vmem, ⟨15, _⟩ => ⟨S1x1x1024, .f32⟩
  | .local _ .vmem, ⟨16, _⟩ => ⟨S2000x256, .f32⟩
  | .local _ .vmem, ⟨17, _⟩ => ⟨S2000x256, .f32⟩
  | .local _ .vmem, ⟨18, _⟩ => ⟨S2000x1, .i32⟩
  | .local _ .vmem, ⟨19, _⟩ => ⟨S2000x1, .i32⟩
  | .local _ .vmem, ⟨20, _⟩ => ⟨S1024x256, .f32⟩
  | .local _ .vmem, ⟨21, _⟩ => ⟨S1x1x1, .f32⟩
  | .local _ .vmem, ⟨22, _⟩ => ⟨S1x1x1, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_c : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 50], ![false, false]⟩

def cc2_transform_0 (i : grid2.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1024x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x1x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  shapeCasts_S200000_S200000x1 : S200000.ShapeCasts S200000x1
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x1024_d1_w32 : S4000x1024.Iotas .tc 32 [1]
  broadcasts_S4000x1_S4000x1024 : S4000x1.Broadcasts S4000x1024
  natLt_1_32 : 1 < 32
  reduces_S4000x1024_S1024 : S4000x1024.Reduces [0] S1024
  shapeCasts_S1024_S1x1024 : S1024.ShapeCasts S1x1024
  bitsLt_bf16_f32 : FTy.bits .bf16 < FTy.bits .f32
  inb_S4000x256_S4000x256_0_0 : ∀ a, (![0, 0] : Fin 2 → Nat) a + S4000x256.size a ≤ S4000x256.size a
  h_S4000x256 : 0 < S4000x256.numel
  reducesTo_S2x1024x256_S1024x256_d0 : S2x1024x256.ReducesTo [0] S1024x256
  h_S_ : 0 < S_.numel
  reducesTo_S2x1x1024_S1x1024_d0 : S2x1x1024.ReducesTo [0] S1x1024
  shapeCasts_S1x1024_S1024 : S1x1024.ShapeCasts S1024
  slices_S1024x256_S1000x256_0_0 : S1024x256.Slices ![0, 0] S1000x256
  slices_S1024_S1000_0 : S1024.Slices ![0] S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  reducesTo_S1000x256_S1000_d1 : S1000x256.ReducesTo [1] S1000
  bcast_S_S1000x1 : S_.BroadcastsInDim S1000x1 (![] : Fin 0 → Fin S1000x1.rank)
  transposes_S1000x256_S256x1000_1_0 : S1000x256.Transposes [1, 0] S256x1000
  reducesTo_S1000x1000_S_d0_1 : S1000x1000.ReducesTo [0, 1] S_
  pads_S1000x256_S1024x256_0240_000 : S1000x256.Pads (![0, 0] : Fin 2 → Nat) ![24, 0] ![0, 0] S1024x256
  reducesTo_S1024x256_S1024_d1 : S1024x256.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S2000x256_S2000x256_0_0 : ∀ a, (![0, 0] : Fin 2 → Nat) a + S2000x256.size a ≤ S2000x256.size a
  h_S2000x256 : 0 < S2000x256.numel
  reduces_S2000x256_S2000 : S2000x256.Reduces [1] S2000
  shapeCasts_S2000_S2000x1 : S2000.ShapeCasts S2000x1
  broadcasts_S2000x1_S2000x256 : S2000x1.Broadcasts S2000x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S2000x1024_d1_w32 : S2000x1024.Iotas .tc 32 [1]
  reduces_S2000x1024_S2000 : S2000x1024.Reduces [1] S2000
  broadcasts_S2000x1_S2000x1024 : S2000x1.Broadcasts S2000x1024
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x1_S1x2000x1 : S2000x1.ShapeCasts S1x2000x1
  reduces_S1x2000x1_S1 : S1x2000x1.Reduces [1, 2] S1
  shapeCasts_S1_S1x1x1 : S1.ShapeCasts S1x1x1
  inpos_S1x1x1_p0_0_0 : ∀ a, (![0, 0, 0] : Fin 3 → Nat) a < S1x1x1.size a
  reducesTo_S2x1x1_S_d0_1_2 : S2x1x1.ReducesTo [0, 1, 2] S_
  dot_S4000x1024_S4000x256_S1024x256_0_0_1_1_n_n_wf : DotDims.WF S4000x1024 S4000x256 S1024x256 [0] [0] [1] [1] [] []
  dot_S1000x256_S256x1000_S1000x1000_1_0_0_1_n_n_wf : DotDims.WF S1000x256 S256x1000 S1000x1000 [1] [0] [0] [1] [] []
  dot_S2000x256_S1024x256_S2000x1024_1_1_0_0_n_n_wf : DotDims.WF S2000x256 S1024x256 S2000x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S200000x256.size a
  hwx0_0 : ∀ i : grid0.Coords, EltTy.bits .f32 = 32 ∨ (Rect.block (s := S200000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S200000x1.size a
  hwx0_1 : ∀ i : grid0.Coords, EltTy.bits .i32 = 32 ∨ (Rect.block (s := S200000x1) S4000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S2x1024x256.size a
  hwx0_2 : ∀ i : grid0.Coords, EltTy.bits .f32 = 32 ∨ (Rect.block (s := S2x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S2x1x1024.size a
  hwx0_3 : ∀ i : grid0.Coords, EltTy.bits .f32 = 32 ∨ (Rect.block (s := S2x1x1024) S1x1x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S200000x256.size a
  hwx1_0 : ∀ i : grid1.Coords, EltTy.bits .f32 = 32 ∨ (Rect.block (s := S200000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S200000x1.size a
  hwx1_1 : ∀ i : grid1.Coords, EltTy.bits .i32 = 32 ∨ (Rect.block (s := S200000x1) S4000x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x256.size a ≤ S2x1024x256.size a
  hwx1_2 : ∀ i : grid1.Coords, EltTy.bits .f32 = 32 ∨ (Rect.block (s := S2x1024x256) S1x1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S2x1x1024.size a
  hwx1_3 : ∀ i : grid1.Coords, EltTy.bits .f32 = 32 ∨ (Rect.block (s := S2x1x1024) S1x1x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S200000x256.size a
  hwx2_0 : ∀ i : grid2.Coords, EltTy.bits .f32 = 32 ∨ (Rect.block (s := S200000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S200000x1.size a
  hwx2_1 : ∀ i : grid2.Coords, EltTy.bits .i32 = 32 ∨ (Rect.block (s := S200000x1) S2000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S1024x256.size a
  hwx2_2 : ∀ i : grid2.Coords, EltTy.bits .f32 = 32 ∨ (Rect.block (s := S1024x256) S1024x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x1.size a ≤ S2x1x1.size a
  hwx2_3 : ∀ i : grid2.Coords, EltTy.bits .f32 = 32 ∨ (Rect.block (s := S2x1x1) S1x1x1.size (cc2_transform_3 i) (hinb2_3 i)).WholeWords (EltTy.packing .f32)

variable [Facts₀]

def dot_S4000x1024_S4000x256_S1024x256_0_0_1_1_n_n : DotDims S4000x1024 S4000x256 S1024x256 where
  lhsContracting := [0]
  rhsContracting := [0]
  lhsNonContracting := [1]
  rhsNonContracting := [1]
  lhsBatch := []
  rhsBatch := []
  wf := dot_S4000x1024_S4000x256_S1024x256_0_0_1_1_n_n_wf
def dot_S1000x256_S256x1000_S1000x1000_1_0_0_1_n_n : DotDims S1000x256 S256x1000 S1000x1000 where
  lhsContracting := [1]
  rhsContracting := [0]
  lhsNonContracting := [0]
  rhsNonContracting := [1]
  lhsBatch := []
  rhsBatch := []
  wf := dot_S1000x256_S256x1000_S1000x1000_1_0_0_1_n_n_wf
def dot_S2000x256_S1024x256_S2000x1024_1_1_0_0_n_n : DotDims S2000x256 S1024x256 S2000x1024 where
  lhsContracting := [1]
  rhsContracting := [1]
  lhsNonContracting := [0]
  rhsNonContracting := [0]
  lhsBatch := []
  rhsBatch := []
  wf := dot_S2000x256_S1024x256_S2000x1024_1_1_0_0_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_0) S1x1024x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_1) S1x1x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1024x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x1x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S200000x256 : Shape := ⟨2, ![200000, 256]⟩
abbrev S200000 : Shape := ⟨1, ![200000]⟩
abbrev S_ : Shape := ⟨0, ![]⟩
abbrev S1000x256 : Shape := ⟨2, ![1000, 256]⟩
abbrev S200000x1 : Shape := ⟨2, ![200000, 1]⟩
abbrev S1000 : Shape := ⟨1, ![1000]⟩
abbrev S1000x1 : Shape := ⟨2, ![1000, 1]⟩
abbrev S256x1000 : Shape := ⟨2, ![256, 1000]⟩
abbrev S1000x1000 : Shape := ⟨2, ![1000, 1000]⟩
abbrev S200000x1000 : Shape := ⟨2, ![200000, 1000]⟩
abbrev S200000x1x1 : Shape := ⟨3, ![200000, 1, 1]⟩
abbrev S1 : Shape := ⟨1, ![1]⟩
abbrev S1x1x1 : Shape := ⟨3, ![1, 1, 1]⟩

abbrev nBuf : Space → Nat
  | .hbm => 134
  | .vmem => 0
  | .smem => 0
  | _ => 0

abbrev hbmTy0_0 (i : Nat) : BufTy := match i % 128 with
  | 0 => ⟨S200000x256, .f32⟩
  | 1 => ⟨S200000, .i32⟩
  | 2 => ⟨S200000x256, .f32⟩
  | 3 => ⟨S200000, .i32⟩
  | 4 => ⟨S_, .f32⟩
  | 5 => ⟨S1000x256, .f32⟩
  | 6 => ⟨S200000x1, .i32⟩
  | 7 => ⟨S1000x256, .f32⟩
  | 8 => ⟨S_, .f32⟩
  | 9 => ⟨S200000, .f32⟩
  | 10 => ⟨S_, .f32⟩
  | 11 => ⟨S1000, .f32⟩
  | 12 => ⟨S200000x1, .i32⟩
  | 13 => ⟨S1000, .f32⟩
  | 14 => ⟨S_, .f32⟩
  | 15 => ⟨S1000, .f32⟩
  | 16 => ⟨S1000, .f32⟩
  | 17 => ⟨S1000x1, .f32⟩
  | 18 => ⟨S1000x256, .f32⟩
  | 19 => ⟨S1000x256, .f32⟩
  | 20 => ⟨S_, .f32⟩
  | 21 => ⟨S1000x256, .f32⟩
  | 22 => ⟨S200000x1, .i32⟩
  | 23 => ⟨S1000x256, .f32⟩
  | 24 => ⟨S_, .f32⟩
  | 25 => ⟨S200000, .f32⟩
  | 26 => ⟨S_, .f32⟩
  | 27 => ⟨S1000, .f32⟩
  | 28 => ⟨S200000x1, .i32⟩
  | 29 => ⟨S1000, .f32⟩
  | 30 => ⟨S_, .f32⟩
  | 31 => ⟨S1000, .f32⟩
  | 32 => ⟨S1000, .f32⟩
  | 33 => ⟨S1000x1, .f32⟩
  | 34 => ⟨S1000x256, .f32⟩
  | 35 => ⟨S1000x256, .f32⟩
  | 36 => ⟨S1000x256, .f32⟩
  | 37 => ⟨S_, .f32⟩
  | 38 => ⟨S1000, .f32⟩
  | 39 => ⟨S1000x1, .f32⟩
  | 40 => ⟨S1000x1, .f32⟩
  | 41 => ⟨S_, .f32⟩
  | 42 => ⟨S1000x1, .f32⟩
  | 43 => ⟨S1000x1, .f32⟩
  | 44 => ⟨S1000x256, .f32⟩
  | 45 => ⟨S1000x256, .f32⟩
  | 46 => ⟨S256x1000, .f32⟩
  | 47 => ⟨S1000x1000, .f32⟩
  | 48 => ⟨S1000x256, .f32⟩
  | 49 => ⟨S_, .f32⟩
  | 50 => ⟨S1000, .f32⟩
  | 51 => ⟨S1000x1, .f32⟩
  | 52 => ⟨S1000x1, .f32⟩
  | 53 => ⟨S_, .f32⟩
  | 54 => ⟨S1000x1, .f32⟩
  | 55 => ⟨S1000x1, .f32⟩
  | 56 => ⟨S1000x256, .f32⟩
  | 57 => ⟨S1000x256, .f32⟩
  | 58 => ⟨S256x1000, .f32⟩
  | 59 => ⟨S1000x1000, .f32⟩
  | 60 => ⟨S1000x1000, .f32⟩
  | 61 => ⟨S1000x1000, .f32⟩
  | 62 => ⟨S_, .f32⟩
  | 63 => ⟨S_, .f32⟩
  | 64 => ⟨S_, .f32⟩
  | 65 => ⟨S_, .f32⟩
  | 66 => ⟨S200000x256, .f32⟩
  | 67 => ⟨S_, .f32⟩
  | 68 => ⟨S200000, .f32⟩
  | 69 => ⟨S200000x1, .f32⟩
  | 70 => ⟨S200000x1, .f32⟩
  | 71 => ⟨S_, .f32⟩
  | 72 => ⟨S200000x1, .f32⟩
  | 73 => ⟨S200000x1, .f32⟩
  | 74 => ⟨S200000x256, .f32⟩
  | 75 => ⟨S200000x256, .f32⟩
  | 76 => ⟨S1000x256, .f32⟩
  | 77 => ⟨S_, .f32⟩
  | 78 => ⟨S1000, .f32⟩
  | 79 => ⟨S1000x1, .f32⟩
  | 80 => ⟨S1000x1, .f32⟩
  | 81 => ⟨S_, .f32⟩
  | 82 => ⟨S1000x1, .f32⟩
  | 83 => ⟨S1000x1, .f32⟩
  | 84 => ⟨S1000x256, .f32⟩
  | 85 => ⟨S1000x256, .f32⟩
  | 86 => ⟨S256x1000, .f32⟩
  | 87 => ⟨S200000x1000, .f32⟩
  | 88 => ⟨S_, .f32⟩
  | 89 => ⟨S200000x1000, .f32⟩
  | 90 => ⟨S200000x1000, .f32⟩
  | 91 => ⟨S_, .f32⟩
  | 92 => ⟨S200000, .f32⟩
  | 93 => ⟨S_, .f32⟩
  | 94 => ⟨S200000, .f32⟩
  | 95 => ⟨S200000, .f32⟩
  | 96 => ⟨S200000x1, .f32⟩
  | 97 => ⟨S200000x1000, .f32⟩
  | 98 => ⟨S200000x1000, .f32⟩
  | 99 => ⟨S200000x1000, .f32⟩
  | 100 => ⟨S_, .f32⟩
  | 101 => ⟨S200000, .f32⟩
  | 102 => ⟨S200000x1, .f32⟩
  | 103 => ⟨S200000x1, .f32⟩
  | 104 => ⟨S200000x1000, .f32⟩
  | 105 => ⟨S200000x1000, .f32⟩
  | 106 => ⟨S200000x1, .i32⟩
  | 107 => ⟨S_, .i32⟩
  | 108 => ⟨S200000x1, .i32⟩
  | 109 => ⟨S200000x1, .i1⟩
  | 110 => ⟨S_, .i32⟩
  | 111 => ⟨S200000x1, .i32⟩
  | 112 => ⟨S200000x1, .i32⟩
  | 113 => ⟨S200000x1, .i32⟩
  | 114 => ⟨S200000x1x1, .i32⟩
  | 115 => ⟨S1, .i32⟩
  | 116 => ⟨S_, .i32⟩
  | 117 => ⟨S200000x1x1, .i32⟩
  | 118 => ⟨S200000x1x1, .i1⟩
  | 119 => ⟨S1x1x1, .i32⟩
  | 120 => ⟨S200000x1x1, .i32⟩
  | 121 => ⟨S200000x1x1, .i1⟩
  | 122 => ⟨S200000x1x1, .i1⟩
  | 123 => ⟨S_, .i1⟩
  | 124 => ⟨S200000x1, .i1⟩
  | 125 => ⟨S200000x1, .f32⟩
  | 126 => ⟨S_, .f32⟩
  | 127 => ⟨S200000x1, .f32⟩
  | _ => ⟨S200000x256, .f32⟩

abbrev hbmTy0_1 (i : Nat) : BufTy := match i % 128 with
  | 0 => ⟨S200000x1, .f32⟩
  | 1 => ⟨S_, .f32⟩
  | 2 => ⟨S_, .f32⟩
  | 3 => ⟨S_, .f32⟩
  | 4 => ⟨S_, .f32⟩
  | 5 => ⟨S_, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_cst_13 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_17 : Ref sig .tc := ⟨.hbm, 88, rfl⟩
abbrev main_v66 : Ref sig .tc := ⟨.hbm, 89, rfl⟩
abbrev main_v67 : Ref sig .tc := ⟨.hbm, 90, rfl⟩
abbrev main_call0_cst : Ref sig .tc := ⟨.hbm, 91, rfl⟩
abbrev main_call0_v0 : Ref sig .tc := ⟨.hbm, 92, rfl⟩
abbrev main_call0_cst_0 : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_v5 : Ref sig .tc := ⟨.hbm, 98, rfl⟩
abbrev main_call0_v6 : Ref sig .tc := ⟨.hbm, 99, rfl⟩
abbrev main_call0_cst_1 : Ref sig .tc := ⟨.hbm, 100, rfl⟩
abbrev main_call0_v7 : Ref sig .tc := ⟨.hbm, 101, rfl⟩
abbrev main_call0_v8 : Ref sig .tc := ⟨.hbm, 102, rfl⟩
abbrev main_call0_v9 : Ref sig .tc := ⟨.hbm, 103, rfl⟩
abbrev main_call0_v10 : Ref sig .tc := ⟨.hbm, 104, rfl⟩
abbrev main_v68 : Ref sig .tc := ⟨.hbm, 105, rfl⟩
abbrev main_v69 : Ref sig .tc := ⟨.hbm, 106, rfl⟩
abbrev main_call1_c : Ref sig .tc := ⟨.hbm, 107, rfl⟩
abbrev main_call1_v0 : Ref sig .tc := ⟨.hbm, 108, rfl⟩
abbrev main_call1_v1 : Ref sig .tc := ⟨.hbm, 109, rfl⟩
abbrev main_call1_c_0 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_call1_v5 : Ref sig .tc := ⟨.hbm, 114, rfl⟩
abbrev main_call1_c_1 : Ref sig .tc := ⟨.hbm, 115, rfl⟩
abbrev main_call1_c_2 : Ref sig .tc := ⟨.hbm, 116, rfl⟩
abbrev main_call1_v6 : Ref sig .tc := ⟨.hbm, 117, rfl⟩
abbrev main_call1_v7 : Ref sig .tc := ⟨.hbm, 118, rfl⟩
abbrev main_call1_v8 : Ref sig .tc := ⟨.hbm, 119, rfl⟩
abbrev main_call1_v9 : Ref sig .tc := ⟨.hbm, 120, rfl⟩
abbrev main_call1_v10 : Ref sig .tc := ⟨.hbm, 121, rfl⟩
abbrev main_call1_v11 : Ref sig .tc := ⟨.hbm, 122, rfl⟩
abbrev main_call1_c_3 : Ref sig .tc := ⟨.hbm, 123, rfl⟩
abbrev main_call1_v12 : Ref sig .tc := ⟨.hbm, 124, rfl⟩
abbrev main_call1_v13 : Ref sig .tc := ⟨.hbm, 125, rfl⟩
abbrev main_call1_cst : Ref sig .tc := ⟨.hbm, 126, rfl⟩
abbrev main_call1_v14 : Ref sig .tc := ⟨.hbm, 127, rfl⟩
abbrev main_v70 : Ref sig .tc := ⟨.hbm, 128, rfl⟩
abbrev main_cst_18 : Ref sig .tc := ⟨.hbm, 129, rfl⟩
abbrev main_v71 : Ref sig .tc := ⟨.hbm, 130, rfl⟩
abbrev main_cst_19 : Ref sig .tc := ⟨.hbm, 131, rfl⟩
abbrev main_v72 : Ref sig .tc := ⟨.hbm, 132, rfl⟩
abbrev main_v73 : Ref sig .tc := ⟨.hbm, 133, rfl⟩

abbrev nD : Nat := 1
abbrev τ : Topo := Topo.v7x

variable {F : FTy → Type} [FloatOps F]

class Facts₀ : Prop where
  bcast_S_S1000x256 : S_.BroadcastsInDim S1000x256 (![] : Fin 0 → Fin S1000x256.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  reducesTo_S1000x256_S1000_d1 : S1000x256.ReducesTo [1] S1000
  h_S_ : 0 < S_.numel
  bcast_S_S1000x1 : S_.BroadcastsInDim S1000x1 (![] : Fin 0 → Fin S1000x1.rank)
  transposes_S1000x256_S256x1000_1_0 : S1000x256.Transposes [1, 0] S256x1000
  reducesTo_S1000x1000_S_d0_1 : S1000x1000.ReducesTo [0, 1] S_
  reducesTo_S200000x256_S200000_d1 : S200000x256.ReducesTo [1] S200000
  bcast_S_S200000x1 : S_.BroadcastsInDim S200000x1 (![] : Fin 0 → Fin S200000x1.rank)
  bcast_S200000x1_S200000x256_0_1 : S200000x1.BroadcastsInDim S200000x256 (![0, 1] : Fin 2 → Fin S200000x256.rank)
  bcast_S_S200000x1000 : S_.BroadcastsInDim S200000x1000 (![] : Fin 0 → Fin S200000x1000.rank)
  reducesTo_S200000x1000_S200000_d1 : S200000x1000.ReducesTo [1] S200000
  bcast_S200000x1_S200000x1000_0_1 : S200000x1.BroadcastsInDim S200000x1000 (![0, 1] : Fin 2 → Fin S200000x1000.rank)
  shapeCasts_S200000x1_S200000x1x1 : S200000x1.ShapeCasts S200000x1x1
  bcast_S_S200000x1x1 : S_.BroadcastsInDim S200000x1x1 (![] : Fin 0 → Fin S200000x1x1.rank)
  bcast_S1_S1x1x1_2 : S1.BroadcastsInDim S1x1x1 (![2] : Fin 1 → Fin S1x1x1.rank)
  bcast_S1x1x1_S200000x1x1_0_1_2 : S1x1x1.BroadcastsInDim S200000x1x1 (![0, 1, 2] : Fin 3 → Fin S200000x1x1.rank)
  reducesTo_S200000x1x1_S200000x1_d2 : S200000x1x1.ReducesTo [2] S200000x1
  reducesTo_S200000x1_S_d0_1 : S200000x1.ReducesTo [0, 1] S_
  scatter_S1000x256_S200000x1_S200000x256_1_0_0_1_wf : ScatterDims.WF S1000x256 S200000x1 S200000x256 [1] [0] [0] 1
  scatter_S1000_S200000x1_S200000_n_0_0_1_wf : ScatterDims.WF S1000 S200000x1 S200000 [] [0] [0] 1
  dot_S1000x256_S256x1000_S1000x1000_1_0_0_1_n_n_wf : DotDims.WF S1000x256 S256x1000 S1000x1000 [1] [0] [0] [1] [] []
  dot_S200000x256_S256x1000_S200000x1000_1_0_0_1_n_n_wf : DotDims.WF S200000x256 S256x1000 S200000x1000 [1] [0] [0] [1] [] []
  gather_S200000x1000_S200000x1x1_S200000x1_n_1_0_0_1_2_11_wf : GatherDims.WF S200000x1000 S200000x1x1 S200000x1 [] [1] [0] [1] [0] 2 ![1, 1]

variable [Facts₀]

def scatter_S1000x256_S200000x1_S200000x256_1_0_0_1 : ScatterDims S1000x256 S200000x1 S200000x256 where
  updateWindowDims := [1]
  insertedWindowDims := [0]
  scatterDimsToOperandDims := [0]
  indexVectorDim := 1
  wf := scatter_S1000x256_S200000x1_S200000x256_1_0_0_1_wf
def scatter_S1000_S200000x1_S200000_n_0_0_1 : ScatterDims S1000 S200000x1 S200000 where
  updateWindowDims := []
  insertedWindowDims := [0]
  scatterDimsToOperandDims := [0]
  indexVectorDim := 1
  wf := scatter_S1000_S200000x1_S200000_n_0_0_1_wf
def dot_S1000x256_S256x1000_S1000x1000_1_0_0_1_n_n : DotDims S1000x256 S256x1000 S1000x1000 where
  lhsContracting := [1]
  rhsContracting := [0]
  lhsNonContracting := [0]
  rhsNonContracting := [1]
  lhsBatch := []
  rhsBatch := []
  wf := dot_S1000x256_S256x1000_S1000x1000_1_0_0_1_n_n_wf
def dot_S200000x256_S256x1000_S200000x1000_1_0_0_1_n_n : DotDims S200000x256 S256x1000 S200000x1000 where
  lhsContracting := [1]
  rhsContracting := [0]
  lhsNonContracting := [0]
  rhsNonContracting := [1]
  lhsBatch := []
  rhsBatch := []
  wf := dot_S200000x256_S256x1000_S200000x1000_1_0_0_1_n_n_wf
def gather_S200000x1000_S200000x1x1_S200000x1_n_1_0_0_1_2_11 : GatherDims S200000x1000 S200000x1x1 S200000x1 where
  offsetDims := []
  collapsedSliceDims := [1]
  operandBatchingDims := [0]
  startIndicesBatchingDims := [0]
  startIndexMap := [1]
  indexVectorDim := 2
  sliceSizes := ![1, 1]
  wf := gather_S200000x1000_S200000x1x1_S200000x1_n_1_0_0_1_2_11_wf

class Facts : Prop extends Facts₀ where

variable [Facts]
-- ==== Proof.Spec.lean ====
/-
  The mathematics both programs compute, over the extended reals, in plain indices.

  * Class sums and counts: entry (k, d) of the sums adds feature d of every row whose label is k; entry k of the
    counts adds a one for each such row. A label outside 0 … 999 names no class and adds nothing.
  * A row over its length (the length floored at eps), the cosine of two rows, a row's logits against the class
    rows — the cosine times the reciprocal temperature on one side, over the temperature on the other —, and a row's
    loss in its two spellings: log-sum-exp minus the labelled logit, and minus the labelled log-probability.
-/
import Idealize.ShloMosaic.PureOps.Ideal
import Idealize.ShloMosaic.Lib.ValueIdx

noncomputable section

namespace Cert.Spec

open Idealize.ShloMosaic

/-- The floor of a row's length (the f32 nearest 1e-12; the same word in both programs). -/
def eps : EReal := Ideal.ofBits .f32 0x2B8CBCCC#32
/-- The reciprocal temperature: one over the temperature's own value. -/
def invT : EReal := ((134217728 / 9395241 : ℝ) : EReal)
/-- The temperature (the f32 nearest 0.07, which is 9395241 / 2^27). -/
def tempT : EReal := Ideal.ofBits .f32 0x3D8F5C29#32
/-- The number of rows, 200000, as the float both programs divide by. -/
def rowsF : EReal := Ideal.ofBits .f32 0x48435000#32
/-- The float one. -/
def oneF : EReal := Ideal.ofBits .f32 0x3F800000#32

/-- Class sums: feature `d` of every row labelled `k`, added up. -/
def segSum (x : Fin 200000 → Fin 256 → EReal) (lab : Fin 200000 → BitVec 32) (k : Fin 1000) (d : Fin 256) : EReal :=
  ∑ n : Fin 200000, if (lab n).toInt = (k.val : ℤ) then x n d else 0

/-- Class counts: one for every row labelled `k`. -/
def segCnt (lab : Fin 200000 → BitVec 32) (k : Fin 1000) : EReal :=
  ∑ n : Fin 200000, if (lab n).toInt = (k.val : ℤ) then 1 else 0

/-- A row's length, floored at eps. -/
def len {n : ℕ} (x : Fin n → EReal) : EReal := max (Ideal.sqrt (∑ e, x e * x e)) eps

/-- The row over its floored length. -/
def unit {n : ℕ} (x : Fin n → EReal) (d : Fin n) : EReal := Ideal.div (x d) (len x)

/-- The cosine of two rows. -/
def cosine (x p : Fin 256 → EReal) : EReal := ∑ d, unit x d * unit p d

/-- A row's logits against the class rows, the cosine TIMES the reciprocal temperature. -/
def logitsK (x : Fin 256 → EReal) (P : Fin 1000 → Fin 256 → EReal) (k : Fin 1000) : EReal := cosine x (P k) * invT

/-- A row's logits against the class rows, the cosine OVER the temperature. -/
def logitsR (x : Fin 256 → EReal) (P : Fin 1000 → Fin 256 → EReal) (k : Fin 1000) : EReal := Ideal.div (cosine x (P k)) tempT

/-- The labelled logit: the entry whose index the label names (zero when it names none). -/
def pick (l : Fin 1000 → EReal) (b : BitVec 32) : EReal := ∑ k : Fin 1000, if b.toInt = (k.val : ℤ) then l k else 0

/-- The greatest logit. -/
def top (l : Fin 1000 → EReal) : EReal := Finset.univ.sup l

/-- The sum of the exponentials of the logits below their maximum. -/
def sumExp (l : Fin 1000 → EReal) : EReal := ∑ k, Ideal.exp (l k - top l)

/-- One row's loss as log-sum-exp minus the labelled logit. -/
def rowLossK (l : Fin 1000 → EReal) (b : BitVec 32) : EReal := (top l + Ideal.log (sumExp l)) - pick l b

/-- One row's labelled log-probability. -/
def rowLogpR (l : Fin 1000 → EReal) (b : BitVec 32) : EReal := (pick l b - top l) - Ideal.log (sumExp l)

/-- The mean row loss, log-sum-exp spelling. -/
def lossK (x : Fin 200000 → Fin 256 → EReal) (lab : Fin 200000 → BitVec 32) (P : Fin 1000 → Fin 256 → EReal) : EReal :=
  Ideal.div (∑ n, rowLossK (logitsK (x n) P) (lab n)) rowsF

/-- Minus the mean labelled log-probability. -/
def lossR (x : Fin 200000 → Fin 256 → EReal) (lab : Fin 200000 → BitVec 32) (P : Fin 1000 → Fin 256 → EReal) : EReal :=
  -(Ideal.div (∑ n, rowLogpR (logitsR (x n) P) (lab n)) rowsF)

/-- Finite: a real number. -/
def Fin' (x : EReal) : Prop := x ≠ ⊤ ∧ x ≠ ⊥

end Cert.Spec

end
-- ==== Proof.KDefs.lean ====
/-
  The idealized kernel program's pieces, named: the host operations between and after its three regions as
  functions of what they read, a row block of an array as a region's window cuts it, and what a region's
  accumulating outputs hold after a run of consecutive grid points, as a fold of the body's stored values.
-/
import proofs.«413966_j50491635532083_2_alg».proof.Proof.Gen.KernelIdeal.Skeleton
import Idealize.ShloMosaic.Lib.ValueIdx

noncomputable section

namespace Cert.KernelIdeal.ValueK

open Cert.KernelIdeal Cert.KernelIdeal.Gen Idealize.ShloMosaic Idealize.ShloMosaic.TcCoe Idealize.SL.Sem

variable {F : FTy → Type} [FloatOps F] [Named F]

/-! ## Host operations, as functions -/

/-- The two cores' partial class sums added, the 24 padded classes cut off. -/
def sumsOf (a : FVec F S2x1024x256 .f32) : FVec F S1000x256 .f32 :=
  extractStridedSlice S1000x256 ![0, 0]
    (Host.reduceAdd a (constant S_ .f32 0x00000000#32) reducesTo_S2x1024x256_S1024x256_d0 h_S_) slices_S1024x256_S1000x256_0_0

/-- The two cores' partial class counts added, laid out as a vector, the padded classes cut off. -/
def cntsOf (a : FVec F S2x1x1024 .f32) : FVec F S1000 .f32 :=
  extractStridedSlice S1000 ![0]
    (shapeCast S1024 (Host.reduceAdd a (constant S_ .f32 0x00000000#32) reducesTo_S2x1x1024_S1x1024_d0 h_S_) shapeCasts_S1x1024_S1024)
    slices_S1024_S1000_0

/-- Class means: sums over counts, a count floored at one. -/
def protoOf (s : FVec F S1000x256 .f32) (n : FVec F S1000 .f32) : FVec F S1000x256 .f32 :=
  Host.divf s (broadcastInDim S1000x256 ![0, 1] bcast_S1000x1_S1000x256_0_1 (broadcastInDim S1000x1 ![0] bcast_S1000_S1000x1_0
    (maximumf n (broadcastInDim S1000 ![] bcast_S_S1000 (constant S_ .f32 0x3F800000#32)))))

/-- Each class row over its length, the length floored at eps. -/
def unitRows (p : FVec F S1000x256 .f32) : FVec F S1000x256 .f32 :=
  Host.divf p (broadcastInDim S1000x256 ![0, 1] bcast_S1000x1_S1000x256_0_1
    (maximumf (Host.sqrt (broadcastInDim S1000x1 ![0] bcast_S1000_S1000x1_0
        (Host.reduceAdd (mulf p p) (constant S_ .f32 0x00000000#32) reducesTo_S1000x256_S1000_d1 h_S_)))
      (broadcastInDim S1000x1 ![] bcast_S_S1000x1 (constant S_ .f32 0x2B8CBCCC#32))))

/-- The classes' cosines with one another. -/
def structOf (p : FVec F S1000x256 .f32) : FVec F S1000x1000 .f32 :=
  Host.dotGeneral dot_S1000x256_S256x1000_S1000x1000_1_0_0_1_n_n none (unitRows p)
    (transpose S256x1000 [1, 0] (unitRows p) transposes_S1000x256_S256x1000_1_0)

/-- The mean squared difference of two structure matrices. -/
def structLoss (p q : FVec F S1000x256 .f32) : FVec F S_ .f32 :=
  Host.divf
    (Host.reduceAdd (mulf (subf (structOf p) (structOf q)) (subf (structOf p) (structOf q)))
      (constant S_ .f32 0x00000000#32) reducesTo_S1000x1000_S_d0_1 h_S_)
    (constant S_ .f32 0x49742400#32)

/-- The class means padded with 24 zero rows. -/
def padOf (p : FVec F S1000x256 .f32) : FVec F S1024x256 .f32 :=
  pad S1024x256 ![0, 0] ![24, 0] ![0, 0] p (sitofp .f32 (constantI S_ 32 0#32)) pads_S1000x256_S1024x256_0240_000 h_S_

/-- Each padded class row over its floored length. -/
def unitRowsPad (p : FVec F S1024x256 .f32) : FVec F S1024x256 .f32 :=
  Host.divf p (broadcastInDim S1024x256 ![0, 1] bcast_S1024x1_S1024x256_0_1
    (maximumf (Host.sqrt (broadcastInDim S1024x1 ![0] bcast_S1024_S1024x1_0
        (Host.reduceAdd (mulf p p) (constant S_ .f32 0x00000000#32) reducesTo_S1024x256_S1024_d1 h_S_)))
      (broadcastInDim S1024x1 ![] bcast_S_S1024x1 (constant S_ .f32 0x2B8CBCCC#32))))

/-- The two cores' partial loss sums added, over the number of rows. -/
def lossOf (a : FVec F S2x1x1 .f32) : FVec F S_ .f32 :=
  Host.divf (Host.reduceAdd a (constant S_ .f32 0x00000000#32) reducesTo_S2x1x1_S_d0_1_2 h_S_) (constant S_ .f32 0x48435000#32)

/-! ## Row blocks -/

/-- Rows `4000·n … 4000·n + 3999` of the features (block `n` of 50; `n` read modulo 50). -/
def rows4X (X : Vec F S200000x256 .f32) (n : ℕ) : Vec F S4000x256 .f32 := fun j =>
  X (ValueIdx.ix2 (⟨4000 * (n % 50) + (j 0).val, by
      have h0 : (j 0).val < 4000 := (j 0).isLt
      have := Nat.mod_lt n (by decide : 0 < 50); omega⟩ : Fin 200000) (⟨(j 1).val, (j 1).isLt⟩ : Fin 256))

/-- The same rows of the label column. -/
def rows4L (L : Vec F S200000x1 .i32) (n : ℕ) : Vec F S4000x1 .i32 := fun j =>
  L (ValueIdx.ix2 (⟨4000 * (n % 50) + (j 0).val, by
      have h0 : (j 0).val < 4000 := (j 0).isLt
      have := Nat.mod_lt n (by decide : 0 < 50); omega⟩ : Fin 200000) (⟨(j 1).val, (j 1).isLt⟩ : Fin 1))

/-- Rows `2000·n … 2000·n + 1999` of the features (block `n` of 100; `n` read modulo 100). -/
def rows2X (X : Vec F S200000x256 .f32) (n : ℕ) : Vec F S2000x256 .f32 := fun j =>
  X (ValueIdx.ix2 (⟨2000 * (n % 100) + (j 0).val, by
      have h0 : (j 0).val < 2000 := (j 0).isLt
      have := Nat.mod_lt n (by decide : 0 < 100); omega⟩ : Fin 200000) (⟨(j 1).val, (j 1).isLt⟩ : Fin 256))

/-- The same rows of the label column. -/
def rows2L (L : Vec F S200000x1 .i32) (n : ℕ) : Vec F S2000x1 .i32 := fun j =>
  L (ValueIdx.ix2 (⟨2000 * (n % 100) + (j 0).val, by
      have h0 : (j 0).val < 2000 := (j 0).isLt
      have := Nat.mod_lt n (by decide : 0 < 100); omega⟩ : Fin 200000) (⟨(j 1).val, (j 1).isLt⟩ : Fin 1))

/-! ## The accumulations -/

/-- The segment-sum body's two outputs after row blocks `b, b+1, …, b+j` have been added, in this order, to the
    zero the first of them stores: the class sums' block and the class counts' block. -/
def segAcc (xs : ℕ → Vec F S4000x256 .f32) (ls : ℕ → Vec F S4000x1 .i32) (b : ℕ) :
    ℕ → Vec F S1x1024x256 .f32 × Vec F S1x1x1024 .f32
  | 0 => (k0_pay5 (ls b) (xs b) k0_pay1, k0_pay4 (ls b) k0_pay2)
  | j + 1 => (k0_pay5 (ls (b + (j + 1))) (xs (b + (j + 1))) (segAcc xs ls b j).1, k0_pay4 (ls (b + (j + 1))) (segAcc xs ls b j).2)

/-- The contrastive body's output after row blocks `b, …, b+j`: the loss sum so far. -/
def conAcc (xs : ℕ → Vec F S2000x256 .f32) (ls : ℕ → Vec F S2000x1 .i32) (P : Vec F S1024x256 .f32) (b : ℕ) :
    ℕ → Vec F S1x1x1 .f32
  | 0 => k2_pay1 (k2_pay4 (xs b) P) (k2_pay5 (xs b) P (ls b)) k2_pay2
  | j + 1 => k2_pay1 (k2_pay4 (xs (b + (j + 1))) P) (k2_pay5 (xs (b + (j + 1))) P (ls (b + (j + 1)))) (conAcc xs ls P b j)

end Cert.KernelIdeal.ValueK

end
-- ==== Proof.RefDefs.lean ====
/-
  The reference program's host operations, grouped and named: the two scatter-adds (class sums, class counts), the
  class means, the rows over their lengths, the structure matrix and its loss, and the contrastive chain — the unit
  features, the logits over the temperature, the log-softmax, the gather at the labels, and minus its mean.
-/
import proofs.«413966_j50491635532083_2_alg».proof.Proof.Gen.ReferenceIdeal
import Idealize.ShloMosaic.Lib.ValueIdx

noncomputable section

namespace Cert.ReferenceIdeal.ValueR

open Cert.ReferenceIdeal Cert.ReferenceIdeal.Gen Idealize.ShloMosaic Idealize.ShloMosaic.TcCoe Idealize.SL.Sem

variable {F : FTy → Type} [FloatOps F]

/-- The label vector as the column the scatters and the gather index with. -/
def labCol (L1 : IVec S200000 32) : IVec S200000x1 32 := broadcastInDim S200000x1 ![0] bcast_S200000_S200000x1_0 L1

/-- Class sums: every row scattered onto its label's row, added. -/
def scatS (X : FVec F S200000x256 .f32) (L1 : IVec S200000 32) : FVec F S1000x256 .f32 :=
  Host.scatterAdd scatter_S1000x256_S200000x1_S200000x256_1_0_0_1
    (broadcastInDim S1000x256 ![] bcast_S_S1000x256 (constant S_ .f32 0x00000000#32)) (labCol L1) X

/-- Class counts: a one scattered onto each row's label, added. -/
def scatC (L1 : IVec S200000 32) : FVec F S1000 .f32 :=
  Host.scatterAdd scatter_S1000_S200000x1_S200000_n_0_0_1
    (broadcastInDim S1000 ![] bcast_S_S1000 (constant S_ .f32 0x00000000#32)) (labCol L1)
    (broadcastInDim S200000 ![] bcast_S_S200000 (constant S_ .f32 0x3F800000#32))

/-- Class means: sums over counts, a count floored at one. -/
def protoOf (s : FVec F S1000x256 .f32) (n : FVec F S1000 .f32) : FVec F S1000x256 .f32 :=
  Host.divf s (broadcastInDim S1000x256 ![0, 1] bcast_S1000x1_S1000x256_0_1 (broadcastInDim S1000x1 ![0] bcast_S1000_S1000x1_0
    (maximumf n (broadcastInDim S1000 ![] bcast_S_S1000 (constant S_ .f32 0x3F800000#32)))))

/-- Each class row over its length, the length floored at eps. -/
def unitRows (p : FVec F S1000x256 .f32) : FVec F S1000x256 .f32 :=
  Host.divf p (broadcastInDim S1000x256 ![0, 1] bcast_S1000x1_S1000x256_0_1
    (maximumf (Host.sqrt (broadcastInDim S1000x1 ![0] bcast_S1000_S1000x1_0
        (Host.reduceAdd (mulf p p) (constant S_ .f32 0x00000000#32) reducesTo_S1000x256_S1000_d1 h_S_)))
      (broadcastInDim S1000x1 ![] bcast_S_S1000x1 (constant S_ .f32 0x2B8CBCCC#32))))

/-- The classes' cosines with one another. -/
def structOf (p : FVec F S1000x256 .f32) : FVec F S1000x1000 .f32 :=
  Host.dotGeneral dot_S1000x256_S256x1000_S1000x1000_1_0_0_1_n_n none (unitRows p)
    (transpose S256x1000 [1, 0] (unitRows p) transposes_S1000x256_S256x1000_1_0)

/-- The mean squared difference of two structure matrices. -/
def structLoss (p q : FVec F S1000x256 .f32) : FVec F S_ .f32 :=
  Host.divf
    (Host.reduceAdd (mulf (subf (structOf p) (structOf q)) (subf (structOf p) (structOf q)))
      (constant S_ .f32 0x00000000#32) reducesTo_S1000x1000_S_d0_1 h_S_)
    (constant S_ .f32 0x49742400#32)

/-- Each feature row over its length, the length floored at eps. -/
def unitFeats (X : FVec F S200000x256 .f32) : FVec F S200000x256 .f32 :=
  Host.divf X (broadcastInDim S200000x256 ![0, 1] bcast_S200000x1_S200000x256_0_1
    (maximumf (Host.sqrt (broadcastInDim S200000x1 ![0] bcast_S200000_S200000x1_0
        (Host.reduceAdd (mulf X X) (constant S_ .f32 0x00000000#32) reducesTo_S200000x256_S200000_d1 h_S_)))
      (broadcastInDim S200000x1 ![] bcast_S_S200000x1 (constant S_ .f32 0x2B8CBCCC#32))))

/-- Every row's cosine with every class row, over the temperature. -/
def logitsOf (X : FVec F S200000x256 .f32) (p : FVec F S1000x256 .f32) : FVec F S200000x1000 .f32 :=
  Host.divf
    (Host.dotGeneral dot_S200000x256_S256x1000_S200000x1000_1_0_0_1_n_n none (unitFeats X)
      (transpose S256x1000 [1, 0] (unitRows p) transposes_S1000x256_S256x1000_1_0))
    (broadcastInDim S200000x1000 ![] bcast_S_S200000x1000 (constant S_ .f32 0x3D8F5C29#32))

/-- Each row's greatest logit (the reduction's, then once more against minus infinity). -/
def rowMax (l : FVec F S200000x1000 .f32) : FVec F S200000 .f32 :=
  maximumf (broadcastInDim S200000 ![] bcast_S_S200000 (constant S_ .f32 0xFF800000#32))
    (Host.reduce FloatOps.maximumf l (constant S_ .f32 0xFF800000#32) reducesTo_S200000x1000_S200000_d1 h_S_)

/-- The logits below their row's greatest. -/
def shifted (l : FVec F S200000x1000 .f32) : FVec F S200000x1000 .f32 :=
  subf l (broadcastInDim S200000x1000 ![0, 1] bcast_S200000x1_S200000x1000_0_1
    (broadcastInDim S200000x1 ![0] bcast_S200000_S200000x1_0 (rowMax l)))

/-- The log-softmax: the shifted logits minus the log of the sum of their exponentials. -/
def logSoftmax (l : FVec F S200000x1000 .f32) : FVec F S200000x1000 .f32 :=
  subf (shifted l) (broadcastInDim S200000x1000 ![0, 1] bcast_S200000x1_S200000x1000_0_1
    (Host.log (broadcastInDim S200000x1 ![0] bcast_S200000_S200000x1_0
      (Host.reduceAdd (Host.exp (shifted l)) (constant S_ .f32 0x00000000#32) reducesTo_S200000x1000_S200000_d1 h_S_))))

/-- The labels as gather indices: a negative one moved up by the class count, laid out as the gather wants them. -/
def gatherIdx (L1 : IVec S200000 32) : IVec S200000x1x1 32 :=
  shapeCast S200000x1x1
    (select (cmpi .slt (labCol L1) (broadcastInDim S200000x1 ![] bcast_S_S200000x1 (constantI S_ 32 0#32)))
      (addi (labCol L1) (broadcastInDim S200000x1 ![] bcast_S_S200000x1 (constantI S_ 32 1000#32))) (labCol L1))
    shapeCasts_S200000x1_S200000x1x1

/-- Which gather indices are in range. -/
def gatherOk (L1 : IVec S200000 32) : IVec S200000x1 1 :=
  Host.reduce IntOp.andi
    (andi (cmpi .sge (gatherIdx L1) (broadcastInDim S200000x1x1 ![] bcast_S_S200000x1x1 (constantI S_ 32 0#32)))
      (cmpi .sle (gatherIdx L1) (broadcastInDim S200000x1x1 ![0, 1, 2] bcast_S1x1x1_S200000x1x1_0_1_2
        (broadcastInDim S1x1x1 ![2] bcast_S1_S1x1x1_2 (constantI S1 32 999#32)))))
    (constantI S_ 1 1#1) reducesTo_S200000x1x1_S200000x1_d2 h_S_

/-- Each row's entry at its label (the fill where the label is out of range). -/
def takeAlong (lp : FVec F S200000x1000 .f32) (L1 : IVec S200000 32) : FVec F S200000x1 .f32 :=
  select (gatherOk L1) (Host.gather gather_S200000x1000_S200000x1x1_S200000x1_n_1_0_0_1_2_11 lp (gatherIdx L1))
    (broadcastInDim S200000x1 ![] bcast_S_S200000x1 (constant S_ .f32 0x7FC00000#32))

/-- Minus the mean labelled log-probability. -/
def refLossOf (X : FVec F S200000x256 .f32) (L1 : IVec S200000 32) (p : FVec F S1000x256 .f32) : FVec F S_ .f32 :=
  Host.negf (Host.divf
    (Host.reduceAdd (takeAlong (logSoftmax (logitsOf X p)) L1) (constant S_ .f32 0x00000000#32) reducesTo_S200000x1_S_d0_1 h_S_)
    (constant S_ .f32 0x48435000#32))

end Cert.ReferenceIdeal.ValueR

end
-- ==== Proof.Chain.lean ====
/-
  The class means, the structure matrix and the structure loss are written once for each of the two programs;
  the two writings are the same functions.
-/
import proofs.«413966_j50491635532083_2_alg».proof.Proof.KDefs
import proofs.«413966_j50491635532083_2_alg».proof.Proof.RefDefs

noncomputable section

namespace Cert.Chain

open Idealize.ShloMosaic

variable {F : FTy → Type} [FloatOps F] [Named F]

/-- Class means (sums over counts floored at one): both programs compute the same function. -/
theorem protoOf_eq (s : FVec F Cert.KernelIdeal.S1000x256 .f32) (n : FVec F Cert.KernelIdeal.S1000 .f32) :
    Cert.KernelIdeal.ValueK.protoOf (F := F) s n = Cert.ReferenceIdeal.ValueR.protoOf s n := rfl

/-- The matrix of the classes' cosines: both programs compute the same function. -/
theorem structOf_eq (p : FVec F Cert.KernelIdeal.S1000x256 .f32) :
    Cert.KernelIdeal.ValueK.structOf (F := F) p = Cert.ReferenceIdeal.ValueR.structOf p := rfl

/-- The mean squared difference of two cosine matrices: both programs compute the same function. -/
theorem structLoss_eq (p q : FVec F Cert.KernelIdeal.S1000x256 .f32) :
    Cert.KernelIdeal.ValueK.structLoss (F := F) p q = Cert.ReferenceIdeal.ValueR.structLoss p q := rfl

end Cert.Chain

end
-- ==== Proof.SegFrame0.lean ====
/-
  The first segment-sum region of the kernel program, read off its generated frame: the two input
  windows' blocks at a grid point are row blocks of the feature array and of the label column; each
  case of the body leaves in each output block the body's stored value (the one-hot product added to the
  running class sums, the one-hot column sums added to the running class counts, both started from zero at
  the first point of a core's run); so along a core's 25 points the blocks hold the fold of those values,
  and after the region the class-sum array and the class-count array hold, in core q's half, the fold over
  row blocks 25·q, …, 25·q + 24.
-/
import proofs.«413966_j50491635532083_2_alg».proof.Proof.KDefs
import proofs.«413966_j50491635532083_2_alg».proof.Proof.Gen.KernelIdeal.Frame
import Idealize.ShloMosaic.Lib.Pipeline.Value
import Idealize.ShloMosaic.Lib.Tactic

noncomputable section

namespace Cert.KernelIdeal.ValueK

open Cert.KernelIdeal Cert.KernelIdeal.Gen Idealize.ShloMosaic Idealize.ShloMosaic.TcCoe Idealize.SL.Sem ValueIdx
open Idealize.ShloMosaic.Pipeline (Dat)

variable {F : FTy → Type} [FloatOps F] [Named F]
variable (V : (c : Dev nD) → (b : Ref sig .tc) → Buf (Elt F) ((c : Thread nD τ).loc b))

namespace SegFrame0
/-- The zero offsets of a rank-3 block, as the constant function. -/
theorem seg0_hz3 : (![0, 0, 0] : Fin 3 → Nat) = fun _ => 0 := funext fun a => by fin_cases a <;> rfl
/-- The zero offsets of a rank-2 block, as the constant function. -/
theorem seg0_hz2 : (![0, 0] : Fin 2 → Nat) = fun _ => 0 := funext fun a => by fin_cases a <;> rfl

end SegFrame0

open SegFrame0

/-! ## What each case of the body leaves in each output block -/

/-- At the first point of a core's run the class-sum block ends as the one-hot product of this point's
    rows added to the zero block the body has just stored. -/
theorem out0_A_2_eq (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x1024x256 .f32) (harg4 : arg4.IsWhole) (arg5 : Memref sig .tc .vmem S1x1x1024 .f32) (harg5 : arg5.IsWhole) (hc0 : cond0_0 i)
    (x0 : Vec F S4000x256 .f32) (x1 : Vec F S4000x1 .i32) :
    out0_A_2 c i arg2 harg2 arg3 harg3 arg4 harg4 arg5 harg5 hc0 x0 x1 = k0_pay5 x1 x0 k0_pay1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x1024x256) seg0_hz3]
  simp only [View.readAt_eq_ld, harg2.read_unread, harg3.read_unread, View.readCov_unit_zero (S := S1x1024x256) _ seg0_hz3,
    View.ld_unit_zero (S := S4000x256) seg0_hz2, View.ld_unit_zero (S := S4000x1) seg0_hz2]

/-- At the first point of a core's run the class-count block ends as this point's one-hot column sums
    added to the zero block the body has just stored. -/
theorem out0_A_3_eq (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x1024x256 .f32) (harg4 : arg4.IsWhole) (arg5 : Memref sig .tc .vmem S1x1x1024 .f32) (harg5 : arg5.IsWhole) (hc0 : cond0_0 i)
    (x0 : Vec F S4000x256 .f32) (x1 : Vec F S4000x1 .i32) :
    out0_A_3 c i arg2 harg2 arg3 harg3 arg4 harg4 arg5 harg5 hc0 x0 x1 = k0_pay4 x1 k0_pay2 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x1024) seg0_hz3]
  simp only [View.readAt_eq_ld, harg3.read_unread, View.readCov_unit_zero (S := S1x1x1024) _ seg0_hz3,
    View.ld_unit_zero (S := S4000x1) seg0_hz2]

/-- At every later point the class-sum block ends as the one-hot product of this point's rows added to
    what the block held. -/
theorem out0_B_2_eq (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x1024x256 .f32) (harg4 : arg4.IsWhole) (arg5 : Memref sig .tc .vmem S1x1x1024 .f32) (harg5 : arg5.IsWhole) (hc0 : ¬cond0_0 i)
    (x0 : Vec F S4000x256 .f32) (x1 : Vec F S4000x1 .i32) (xo2 : Vec F S1x1024x256 .f32) (xo3 : Vec F S1x1x1024 .f32) :
    out0_B_2 c i arg2 harg2 arg3 harg3 arg4 harg4 arg5 harg5 hc0 x0 x1 xo2 xo3 = k0_pay5 x1 x0 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero seg0_hz3]
  simp only [View.readAt_eq_ld, harg2.read_unread, harg3.read_unread, harg4.read_unread,
    View.ld_unit_zero (S := S1x1024x256) seg0_hz3, View.ld_unit_zero (S := S4000x256) seg0_hz2, View.ld_unit_zero (S := S4000x1) seg0_hz2]

/-- At every later point the class-count block ends as this point's one-hot column sums added to what
    the block held. -/
theorem out0_B_3_eq (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x1024x256 .f32) (harg4 : arg4.IsWhole) (arg5 : Memref sig .tc .vmem S1x1x1024 .f32) (harg5 : arg5.IsWhole) (hc0 : ¬cond0_0 i)
    (x0 : Vec F S4000x256 .f32) (x1 : Vec F S4000x1 .i32) (xo2 : Vec F S1x1024x256 .f32) (xo3 : Vec F S1x1x1024 .f32) :
    out0_B_3 c i arg2 harg2 arg3 harg3 arg4 harg4 arg5 harg5 hc0 x0 x1 xo2 xo3 = k0_pay4 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero seg0_hz3]
  simp only [View.readAt_eq_ld, harg3.read_unread, harg5.read_unread,
    View.ld_unit_zero (S := S1x1x1024) seg0_hz3, View.ld_unit_zero (S := S4000x1) seg0_hz2]

/-! ## The input windows' blocks are row blocks of the arrays -/

namespace SegFrame0
/-- The block index of both input windows at grid point t is (t, 0): core · 25 + step along the rows,
    decided over the 50 grid points. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)

end SegFrame0

/-- The feature window's block at point t holds rows 4000·t … 4000·t + 3999 of the feature array. -/
theorem iblk0_0_eq (c : Dev nD) (t : Fin cfg0.N) :
    (iblk0 V c 0 t : Vec F S4000x256 .f32) = rows4X (V c main_arg0) t.val := by
  have hN : t.val < 50 := lt_of_lt_of_eq t.isLt (show cfg0.N = 50 from N_0)
  have hi := idx0_0 t
  funext j
  unfold iblk0 rows4X
  rw [View.read_apply]
  show V c main_arg0 _ = V c main_arg0 _
  congr 1
  funext a
  apply Fin.ext
  match a with
  | ⟨0, _⟩ =>
    show win0_0.index t 0 * 4000 + 1 * (j 0).val = 4000 * (t.val % 50) + (j 0).val
    rw [hi.1, Nat.mod_eq_of_lt hN]; omega
  | ⟨1, _⟩ =>
    show win0_0.index t 1 * 256 + 1 * (j 1).val = (j 1).val
    rw [hi.2]; omega

/-- The label window's block at point t holds the same rows of the label column. -/
theorem iblk0_1_eq (c : Dev nD) (t : Fin cfg0.N) :
    (iblk0 V c 1 t : Vec F S4000x1 .i32) = rows4L (V c main_v0) t.val := by
  have hN : t.val < 50 := lt_of_lt_of_eq t.isLt (show cfg0.N = 50 from N_0)
  have hi := idx0_1 t
  funext j
  unfold iblk0 rows4L
  rw [View.read_apply]
  show V c main_v0 _ = V c main_v0 _
  congr 1
  funext a
  apply Fin.ext
  match a with
  | ⟨0, _⟩ =>
    show win0_1.index t 0 * 4000 + 1 * (j 0).val = 4000 * (t.val % 50) + (j 0).val
    rw [hi.1, Nat.mod_eq_of_lt hN]; omega
  | ⟨1, _⟩ =>
    show win0_1.index t 1 * 1 + 1 * (j 1).val = (j 1).val
    rw [hi.2]; omega

/-! ## The accumulating outputs after every point -/

namespace SegFrame0
/-- Along one core's run (points 25·q … 25·q + 24) the two output blocks after point 25·q + j are the
    fold of the body's stored values over row blocks 25·q, …, 25·q + j, started from the zero blocks. -/
theorem outsAt0_run (c : Dev nD) (q : ℕ) : ∀ (j : ℕ) (_ : j < 25) (h : 25 * q + j < cfg0.N),
    outsAt0 V c (25 * q + j) h = segAcc (rows4X (V c main_arg0)) (rows4L (V c main_v0)) (25 * q) j
  | 0, _, h => by
    have h0 : (⟨25 * q + 0, h⟩ : Fin cfg0.N).val % 25 = 0 := by dsimp only; omega
    rw [outsAt0_A V c ⟨25 * q + 0, h⟩ h0, out0_A_2_eq, out0_A_3_eq, iblk0_0_eq, iblk0_1_eq]
    rfl
  | j + 1, hj, h => by
    have hB : ¬(⟨25 * q + (j + 1), h⟩ : Fin cfg0.N).val % 25 = 0 := by dsimp only; omega
    rw [outsAt0_B V c ⟨25 * q + (j + 1), h⟩ hB, out0_B_2_eq, out0_B_3_eq, iblk0_0_eq, iblk0_1_eq]
    show (k0_pay5 _ _ (outsAt0 V c (25 * q + j) _).1, k0_pay4 _ (outsAt0 V c (25 * q + j) _).2) = _
    rw [outsAt0_run c q j (Nat.lt_of_succ_lt hj)]
    rfl

end SegFrame0

/-- At any grid point t the output blocks hold the fold over the row blocks of t's core up to t. -/
theorem outsAt0_eq (c : Dev nD) (t : Fin cfg0.N) :
    outsAt0 V c t.val t.isLt
      = segAcc (rows4X (V c main_arg0)) (rows4L (V c main_v0)) (25 * (t.val / 25)) (t.val % 25) := by
  have same : ∀ (u : ℕ) (hu : u < cfg0.N), u = t.val → outsAt0 V c u hu = outsAt0 V c t.val t.isLt :=
    fun u hu e => by subst e; rfl
  have h' : 25 * (t.val / 25) + t.val % 25 < cfg0.N := by rw [Nat.div_add_mod]; exact t.isLt
  rw [← same _ h' (Nat.div_add_mod t.val 25)]
  exact outsAt0_run V c (t.val / 25) (t.val % 25) (Nat.mod_lt _ (by decide)) h'

/-! ## The class-sum array after the region -/

namespace SegFrame0
/-- The block index of the class-sum window at grid point t is (t / 25, 0, 0): the core, decided over
    the 50 grid points. -/
theorem idx0_2 : ∀ t : Fin cfg0.N, win0_2.index t 0 = t.val / 25 ∧ win0_2.index t 1 = 0 ∧ win0_2.index t 2 = 0 :=
  (by decide +kernel : ∀ t : Fin grid0.N, win0_2.index t 0 = t.val / 25 ∧ win0_2.index t 1 = 0 ∧ win0_2.index t 2 = 0)

/-- The class-sum array as one function of the inputs: core q's half is the fold over that core's 25
    row blocks. -/
def sums0 (c : Dev nD) : Vec F S2x1024x256 .f32 := fun i =>
  (segAcc (rows4X (V c main_arg0)) (rows4L (V c main_v0)) (25 * (i 0).val) 24).1
    (ix3 (0 : Fin 1) (⟨(i 1).val, (i 1).isLt⟩ : Fin 1024) (⟨(i 2).val, (i 2).isLt⟩ : Fin 256))

/-- Reading the fold at equal starts and equal indices. -/
theorem seg0_fst_congr (xs : ℕ → Vec F S4000x256 .f32) (ls : ℕ → Vec F S4000x1 .i32) {b b' : ℕ} {j j' : ℕ}
    {y y' : S1x1024x256.Idx} (hb : b = b') (hj : j = j') (hy : y = y') :
    (segAcc xs ls b j).1 y = (segAcc xs ls b' j').1 y' := by subst hb; subst hj; subst hy; rfl

/-- What a write-back point (the last point of a core's run) writes is its block of that function. -/
theorem flushed0_2 (c : Dev nD) (t : Fin cfg0.N) (hf : (cfg0.win 2).flush t = true) :
    (dat0 V c).flushed 2 t = ((cfg0.win 2).blk t).view.read (Elt F) (sums0 V c) := by
  have h24 : t.val % 25 = 24 := (flush0_2 t).mp hf
  have hi := idx0_2 t
  show (cfg0.win 2).cut (grid0.coords t) ((dat0 V c).after 2 t) = _
  rw [after0_2, outsAt0_eq]
  funext y
  rw [View.read_apply]
  show (segAcc _ _ _ _).1 _ = (segAcc _ _ _ _).1 _
  have y0 : (y 0).val = 0 := by have := (y 0).isLt; change (y 0).val < 1 at this; omega
  refine seg0_fst_congr _ _ ?_ h24 (funext fun a => Fin.ext ?_)
  · show 25 * (t.val / 25) = 25 * (win0_2.index t 0 * 1 + 1 * (y 0).val)
    rw [hi.1, y0]; omega
  · match a with
    | ⟨0, _⟩ => show (y 0).val = 0; exact y0
    | ⟨1, _⟩ => show (y 1).val = win0_2.index t 1 * 1024 + 1 * (y 1).val; rw [hi.2.1]; omega
    | ⟨2, _⟩ => show (y 2).val = win0_2.index t 2 * 256 + 1 * (y 2).val; rw [hi.2.2]; omega

/-- The two write-back points' blocks (core 0's at point 24, core 1's at point 49) cover the array. -/
theorem cover0_2 (c : Dev nD) (i : S2x1024x256.Idx) :
    ∃ t : Fin cfg0.N, (cfg0.win 2).flush t = true ∧ i ∈ ((cfg0.win 2).blk t).view.set := by
  have hq : (i 0).val < 2 := (i 0).isLt
  have h1 : (i 1).val < 1024 := (i 1).isLt
  have h2 : (i 2).val < 256 := (i 2).isLt
  have hlt : 25 * (i 0).val + 24 < cfg0.N := by rw [show cfg0.N = 50 from N_0]; omega
  refine ⟨⟨25 * (i 0).val + 24, hlt⟩, (flush0_2 _).mpr (by dsimp only; omega), ?_⟩
  have hi := idx0_2 ⟨25 * (i 0).val + 24, hlt⟩
  show i ∈ ((View.whole main_v2_0).slice (win0_2.rect ⟨25 * (i 0).val + 24, hlt⟩)).set
  rw [View.set_slice_whole, Rect.mem_set_unit]
  intro a
  match a with
  | ⟨0, _⟩ =>
    show win0_2.index ⟨25 * (i 0).val + 24, hlt⟩ 0 * 1 ≤ (i 0 : Nat) ∧ (i 0 : Nat) < win0_2.index ⟨25 * (i 0).val + 24, hlt⟩ 0 * 1 + 1
    rw [hi.1]; dsimp only; omega
  | ⟨1, _⟩ =>
    show win0_2.index ⟨25 * (i 0).val + 24, hlt⟩ 1 * 1024 ≤ (i 1 : Nat) ∧ (i 1 : Nat) < win0_2.index ⟨25 * (i 0).val + 24, hlt⟩ 1 * 1024 + 1024
    rw [hi.2.1]; omega
  | ⟨2, _⟩ =>
    show win0_2.index ⟨25 * (i 0).val + 24, hlt⟩ 2 * 256 ≤ (i 2 : Nat) ∧ (i 2 : Nat) < win0_2.index ⟨25 * (i 0).val + 24, hlt⟩ 2 * 256 + 256
    rw [hi.2.2]; omega

end SegFrame0

/-- So after the region the class-sum array holds, in core q's half, the fold over core q's 25 row
    blocks of the one-hot products, started from zero. -/
theorem arr0_2_apply (c : Dev nD) (q : Fin 2) (k : Fin 1024) (d : Fin 256) :
    (dat0 V c).arrAt 2 cfg0.N (ix3 q k d)
      = (segAcc (rows4X (V c main_arg0)) (rows4L (V c main_v0)) (25 * q.val) 24).1 (ix3 (0 : Fin 1) k d) :=
  congrFun ((dat0 V c).arrAt_eq_of_cover 2 (sums0 V c) (flushed0_2 V c) (cover0_2 c)) (ix3 q k d)

/-! ## The class-count array after the region -/

namespace SegFrame0
/-- The block index of the class-count window at grid point t is (t / 25, 0, 0), decided over the 50
    grid points. -/
theorem idx0_3 : ∀ t : Fin cfg0.N, win0_3.index t 0 = t.val / 25 ∧ win0_3.index t 1 = 0 ∧ win0_3.index t 2 = 0 :=
  (by decide +kernel : ∀ t : Fin grid0.N, win0_3.index t 0 = t.val / 25 ∧ win0_3.index t 1 = 0 ∧ win0_3.index t 2 = 0)

/-- The class-count array as one function of the inputs: core q's half is the fold over that core's 25
    row blocks. -/
def cnts0 (c : Dev nD) : Vec F S2x1x1024 .f32 := fun i =>
  (segAcc (rows4X (V c main_arg0)) (rows4L (V c main_v0)) (25 * (i 0).val) 24).2
    (ix3 (0 : Fin 1) (0 : Fin 1) (⟨(i 2).val, (i 2).isLt⟩ : Fin 1024))

/-- Reading the fold's counts at equal starts and equal indices. -/
theorem seg0_snd_congr (xs : ℕ → Vec F S4000x256 .f32) (ls : ℕ → Vec F S4000x1 .i32) {b b' : ℕ} {j j' : ℕ}
    {y y' : S1x1x1024.Idx} (hb : b = b') (hj : j = j') (hy : y = y') :
    (segAcc xs ls b j).2 y = (segAcc xs ls b' j').2 y' := by subst hb; subst hj; subst hy; rfl

/-- What a write-back point (the last point of a core's run) writes is its block of that function. -/
theorem flushed0_3 (c : Dev nD) (t : Fin cfg0.N) (hf : (cfg0.win 3).flush t = true) :
    (dat0 V c).flushed 3 t = ((cfg0.win 3).blk t).view.read (Elt F) (cnts0 V c) := by
  have h24 : t.val % 25 = 24 := (flush0_3 t).mp hf
  have hi := idx0_3 t
  show (cfg0.win 3).cut (grid0.coords t) ((dat0 V c).after 3 t) = _
  rw [after0_3, outsAt0_eq]
  funext y
  rw [View.read_apply]
  show (segAcc _ _ _ _).2 _ = (segAcc _ _ _ _).2 _
  have y0 : (y 0).val = 0 := by have := (y 0).isLt; change (y 0).val < 1 at this; omega
  have y1 : (y 1).val = 0 := by have := (y 1).isLt; change (y 1).val < 1 at this; omega
  refine seg0_snd_congr _ _ ?_ h24 (funext fun a => Fin.ext ?_)
  · show 25 * (t.val / 25) = 25 * (win0_3.index t 0 * 1 + 1 * (y 0).val)
    rw [hi.1, y0]; omega
  · match a with
    | ⟨0, _⟩ => show (y 0).val = 0; exact y0
    | ⟨1, _⟩ => show (y 1).val = 0; exact y1
    | ⟨2, _⟩ => show (y 2).val = win0_3.index t 2 * 1024 + 1 * (y 2).val; rw [hi.2.2]; omega

/-- The two write-back points' blocks (core 0's at point 24, core 1's at point 49) cover the array. -/
theorem cover0_3 (c : Dev nD) (i : S2x1x1024.Idx) :
    ∃ t : Fin cfg0.N, (cfg0.win 3).flush t = true ∧ i ∈ ((cfg0.win 3).blk t).view.set := by
  have hq : (i 0).val < 2 := (i 0).isLt
  have h1 : (i 1).val < 1 := (i 1).isLt
  have h2 : (i 2).val < 1024 := (i 2).isLt
  have hlt : 25 * (i 0).val + 24 < cfg0.N := by rw [show cfg0.N = 50 from N_0]; omega
  refine ⟨⟨25 * (i 0).val + 24, hlt⟩, (flush0_3 _).mpr (by dsimp only; omega), ?_⟩
  have hi := idx0_3 ⟨25 * (i 0).val + 24, hlt⟩
  show i ∈ ((View.whole main_v2_1).slice (win0_3.rect ⟨25 * (i 0).val + 24, hlt⟩)).set
  rw [View.set_slice_whole, Rect.mem_set_unit]
  intro a
  match a with
  | ⟨0, _⟩ =>
    show win0_3.index ⟨25 * (i 0).val + 24, hlt⟩ 0 * 1 ≤ (i 0 : Nat) ∧ (i 0 : Nat) < win0_3.index ⟨25 * (i 0).val + 24, hlt⟩ 0 * 1 + 1
    rw [hi.1]; dsimp only; omega
  | ⟨1, _⟩ =>
    show win0_3.index ⟨25 * (i 0).val + 24, hlt⟩ 1 * 1 ≤ (i 1 : Nat) ∧ (i 1 : Nat) < win0_3.index ⟨25 * (i 0).val + 24, hlt⟩ 1 * 1 + 1
    rw [hi.2.1]; omega
  | ⟨2, _⟩ =>
    show win0_3.index ⟨25 * (i 0).val + 24, hlt⟩ 2 * 1024 ≤ (i 2 : Nat) ∧ (i 2 : Nat) < win0_3.index ⟨25 * (i 0).val + 24, hlt⟩ 2 * 1024 + 1024
    rw [hi.2.2]; omega

end SegFrame0

/-- So after the region the class-count array holds, in core q's half, the fold over core q's 25 row
    blocks of the one-hot column sums, started from zero. -/
theorem arr0_3_apply (c : Dev nD) (q : Fin 2) (k : Fin 1024) :
    (dat0 V c).arrAt 3 cfg0.N (ix3 q (0 : Fin 1) k)
      = (segAcc (rows4X (V c main_arg0)) (rows4L (V c main_v0)) (25 * q.val) 24).2 (ix3 (0 : Fin 1) (0 : Fin 1) k) :=
  congrFun ((dat0 V c).arrAt_eq_of_cover 3 (cnts0 V c) (flushed0_3 V c) (cover0_3 c)) (ix3 q (0 : Fin 1) k)

end Cert.KernelIdeal.ValueK

end
-- ==== Proof.ConFrame.lean ====
/-
  The contrastive-loss region's result array. Each window's block at a grid point is the corresponding row
  block of its array; what the body leaves in the one-element output block in each of its two control cases is
  the body's stored value; after a point the output block holds the fold of those values over the run of points
  since the last multiple of 50; and the two write-backs (points 49 and 99) leave, in element q of the result
  array, the fold over the 50 points of core q.
-/
import proofs.«413966_j50491635532083_2_alg».proof.Proof.KDefs
import proofs.«413966_j50491635532083_2_alg».proof.Proof.Gen.KernelIdeal.Frame
import Idealize.ShloMosaic.Lib.Pipeline.Value
import Idealize.ShloMosaic.Lib.Tactic

noncomputable section

namespace Cert.KernelIdeal.ValueK

open Cert.KernelIdeal Cert.KernelIdeal.Gen Idealize.ShloMosaic Idealize.ShloMosaic.TcCoe Idealize.SL.Sem ValueIdx
open Idealize.ShloMosaic.Pipeline (Dat)

variable {F : FTy → Type} [FloatOps F] [Named F]
variable (V : (c : Dev nD) → (b : Ref sig .tc) → Buf (Elt F) ((c : Thread nD τ).loc b))

/-! ## Zero offsets, however spelt -/

theorem hz3 : (![0, 0, 0] : Fin 3 → Nat) = fun _ => 0 := funext fun a => by fin_cases a <;> rfl
theorem hz2 : (![0, 0] : Fin 2 → Nat) = fun _ => 0 := funext fun a => by fin_cases a <;> rfl

/-! ## What each control case leaves in the output block -/

/-- At a point that is not the first of its core's run the body leaves, in the output block holding `xo3`,
    `xo3` plus the sum over the block's rows of (log-sum-exp of the row's logits minus the logit at the row's
    label): its one covering store's value, every load reading a whole buffer. -/
theorem out2_B_3_eq (c : Dev nD) (i : grid2.Coords) (arg2 : Memref sig .tc .vmem S2000x256 .f32) (harg2 : arg2.IsWhole) (arg3 : Memref sig .tc .vmem S2000x1 .i32) (harg3 : arg3.IsWhole) (arg4 : Memref sig .tc .vmem S1024x256 .f32) (harg4 : arg4.IsWhole) (arg5 : Memref sig .tc .vmem S1x1x1 .f32) (harg5 : arg5.IsWhole) (hc0 : ¬cond2_0 i)
    (x0 : Vec F S2000x256 .f32) (x1 : Vec F S2000x1 .i32) (x2 : Vec F S1024x256 .f32) (xo3 : Vec F S1x1x1 .f32) :
    out2_B_3 c i arg2 harg2 arg3 harg3 arg4 harg4 arg5 harg5 hc0 x0 x1 x2 xo3 = k2_pay1 (k2_pay4 x0 x2) (k2_pay5 x0 x2 x1) xo3 := by
  unfold out2_B_3
  rw [View.read_writes_eq_canon _ _ _ (cover2_B_3 c i arg2 harg2 arg3 harg3 arg4 harg4 arg5 harg5 hc0 x0 x1 x2 xo3)]
  unfold kernelRun2_B
  dsimp only
  sl_unfold_words
  rw [View.canon_unit_zero hz3]
  simp only [View.readAt_eq_ld, harg2.read_unread, harg3.read_unread, harg4.read_unread, harg5.read_unread,
    View.ld_unit_zero (S := S1x1x1) hz3, View.ld_unit_zero (S := S2000x256) hz2, View.ld_unit_zero (S := S2000x1) hz2,
    View.ld_unit_zero (S := S1024x256) hz2]

/-- At the first point of a core's run the body stores zero into the output block, reads it back, and leaves
    zero plus the block's row sum: the later of its two covering stores, whose read-back is the earlier one's value. -/
theorem out2_A_3_eq (c : Dev nD) (i : grid2.Coords) (arg2 : Memref sig .tc .vmem S2000x256 .f32) (harg2 : arg2.IsWhole) (arg3 : Memref sig .tc .vmem S2000x1 .i32) (harg3 : arg3.IsWhole) (arg4 : Memref sig .tc .vmem S1024x256 .f32) (harg4 : arg4.IsWhole) (arg5 : Memref sig .tc .vmem S1x1x1 .f32) (harg5 : arg5.IsWhole) (hc0 : cond2_0 i)
    (x0 : Vec F S2000x256 .f32) (x1 : Vec F S2000x1 .i32) (x2 : Vec F S1024x256 .f32) :
    out2_A_3 c i arg2 harg2 arg3 harg3 arg4 harg4 arg5 harg5 hc0 x0 x1 x2 = k2_pay1 (k2_pay4 x0 x2) (k2_pay5 x0 x2 x1) k2_pay2 := by
  unfold out2_A_3
  rw [View.read_writes_eq_canon _ _ _ (cover2_A_3 c i arg2 harg2 arg3 harg3 arg4 harg4 arg5 harg5 hc0 x0 x1 x2)]
  unfold kernelRun2_A
  dsimp only
  sl_unfold_words
  rw [View.canon_cons_unit_zero (S := S1x1x1) hz3]
  simp only [View.readAt_eq_ld, harg2.read_unread, harg3.read_unread, harg4.read_unread, harg5.read_unread,
    View.readCov_unit_zero (S := S1x1x1) _ hz3,
    View.ld_unit_zero (S := S1x1x1) hz3, View.ld_unit_zero (S := S2000x256) hz2, View.ld_unit_zero (S := S2000x1) hz2,
    View.ld_unit_zero (S := S1024x256) hz2]

/-! ## The windows' block indices over the grid, and their blocks as row blocks -/

/-- Point `t` reads row block `t` of the features, -/
theorem idx2_0 : ∀ t : Fin grid2.N, win2_0.index t 0 = t.val ∧ win2_0.index t 1 = 0 := by decide +kernel
/-- row block `t` of the labels, -/
theorem idx2_1 : ∀ t : Fin grid2.N, win2_1.index t 0 = t.val ∧ win2_1.index t 1 = 0 := by decide +kernel
/-- all of the class-row array, -/
theorem idx2_2 : ∀ t : Fin grid2.N, win2_2.index t 0 = 0 ∧ win2_2.index t 1 = 0 := by decide +kernel
/-- and writes element `t / 50` of the result. -/
theorem idx2_3 : ∀ t : Fin grid2.N, win2_3.index t 0 = t.val / 50 ∧ win2_3.index t 1 = 0 ∧ win2_3.index t 2 = 0 := by decide +kernel

/-- The features' block at point `t` is rows `2000 t … 2000 t + 1999`: a block's element sits at block index
    times block size plus its own coordinate. -/
theorem iblk2_0_eq (c : Dev nD) (t : Fin cfg2.N) :
    (iblk2 V c 0 t : Vec F S2000x256 .f32) = rows2X (V c main_arg0) t.val := by
  have hN : t.val < 100 := lt_of_lt_of_eq t.isLt (show cfg2.N = 100 from N_2)
  have hi := idx2_0 t
  funext j
  unfold iblk2 rows2X
  rw [View.read_apply]
  show V c main_arg0 _ = V c main_arg0 _
  congr 1
  funext a
  apply Fin.ext
  match a with
  | ⟨0, _⟩ => show win2_0.index t 0 * 2000 + 1 * (j 0).val = 2000 * (t.val % 100) + (j 0).val; rw [hi.1, Nat.mod_eq_of_lt hN]; omega
  | ⟨1, _⟩ => show win2_0.index t 1 * 256 + 1 * (j 1).val = (j 1).val; rw [hi.2]; omega

/-- The labels' block at point `t` is the same rows of the label column. -/
theorem iblk2_1_eq (c : Dev nD) (t : Fin cfg2.N) :
    (iblk2 V c 1 t : Vec F S2000x1 .i32) = rows2L (V c main_v0) t.val := by
  have hN : t.val < 100 := lt_of_lt_of_eq t.isLt (show cfg2.N = 100 from N_2)
  have hi := idx2_1 t
  funext j
  unfold iblk2 rows2L
  rw [View.read_apply]
  show V c main_v0 _ = V c main_v0 _
  congr 1
  funext a
  apply Fin.ext
  match a with
  | ⟨0, _⟩ => show win2_1.index t 0 * 2000 + 1 * (j 0).val = 2000 * (t.val % 100) + (j 0).val; rw [hi.1, Nat.mod_eq_of_lt hN]; omega
  | ⟨1, _⟩ => show win2_1.index t 1 * 1 + 1 * (j 1).val = (j 1).val; rw [hi.2]; omega

/-- The class rows' block is the whole array at every point. -/
theorem iblk2_2_eq (c : Dev nD) (t : Fin cfg2.N) :
    (iblk2 V c 2 t : Vec F S1024x256 .f32) = V c main_v56 := by
  have hi := idx2_2 t
  funext j
  unfold iblk2
  rw [View.read_apply]
  show V c main_v56 _ = V c main_v56 j
  congr 1
  funext a
  apply Fin.ext
  match a with
  | ⟨0, _⟩ => show win2_2.index t 0 * 1024 + 1 * (j 0).val = (j 0).val; rw [hi.1]; omega
  | ⟨1, _⟩ => show win2_2.index t 1 * 256 + 1 * (j 1).val = (j 1).val; rw [hi.2]; omega

/-! ## The output block after each point: the fold since the last multiple of 50 -/

/-- After point `n` the output block holds the fold of the body's stored values over points
    `50 (n / 50), …, n`, begun from the zero its first point stores — by induction on the point. -/
theorem outsAt2_eq_nat (c : Dev nD) : ∀ (n : ℕ) (h : n < cfg2.N),
    outsAt2 V c n h = conAcc (rows2X (V c main_arg0)) (rows2L (V c main_v0)) (V c main_v56) (50 * (n / 50)) (n % 50)
  | 0, h => by
    rw [outsAt2_A V c ⟨0, h⟩ rfl, out2_A_3_eq, iblk2_0_eq, iblk2_1_eq, iblk2_2_eq]
    rfl
  | n + 1, h => by
    by_cases h0 : (n + 1) % 50 = 0
    · have hA : (⟨n + 1, h⟩ : Fin cfg2.N).val % 50 = 0 := h0
      rw [outsAt2_A V c ⟨n + 1, h⟩ hA, out2_A_3_eq, iblk2_0_eq, iblk2_1_eq, iblk2_2_eq]
      have e : 50 * ((n + 1) / 50) = n + 1 := by omega
      rw [h0, e]
      rfl
    · have hB : ¬(⟨n + 1, h⟩ : Fin cfg2.N).val % 50 = 0 := h0
      rw [outsAt2_B V c ⟨n + 1, h⟩ hB, out2_B_3_eq, iblk2_0_eq, iblk2_1_eq, iblk2_2_eq]
      have e1 : (n + 1) / 50 = n / 50 := by omega
      have e2 : (n + 1) % 50 = n % 50 + 1 := by omega
      have e3 : 50 * (n / 50) + (n % 50 + 1) = n + 1 := by omega
      rw [e1, e2]
      show _ = k2_pay1 (k2_pay4 (rows2X (V c main_arg0) (50 * (n / 50) + (n % 50 + 1))) (V c main_v56))
        (k2_pay5 (rows2X (V c main_arg0) (50 * (n / 50) + (n % 50 + 1))) (V c main_v56) (rows2L (V c main_v0) (50 * (n / 50) + (n % 50 + 1))))
        (conAcc (rows2X (V c main_arg0)) (rows2L (V c main_v0)) (V c main_v56) (50 * (n / 50)) (n % 50))
      rw [e3]
      show k2_pay1 _ _ (outsAt2 V c n _) = _
      rw [outsAt2_eq_nat c n]

/-- The same at a grid point. -/
theorem outsAt2_eq (c : Dev nD) (t : Fin cfg2.N) :
    outsAt2 V c t.val t.isLt = conAcc (rows2X (V c main_arg0)) (rows2L (V c main_v0)) (V c main_v56) (50 * (t.val / 50)) (t.val % 50) :=
  outsAt2_eq_nat V c t.val t.isLt

/-! ## The result array after the run -/

/-- Core `q`'s loss sum: the fold over its 50 points. -/
def lossAt (c : Dev nD) (q : ℕ) :=
  (conAcc (rows2X (V c main_arg0)) (rows2L (V c main_v0)) (V c main_v56) (50 * q) 49) (ix3 (0 : Fin 1) (0 : Fin 1) (0 : Fin 1))

/-- The result array: element `q` is core `q`'s loss sum. -/
def lossArr (c : Dev nD) : Vec F S2x1x1 .f32 := fun i => lossAt V c (i 0).val

/-- What a write-back writes (points 49 and 99: the last of each core's run) is its block of that array: the
    block is element `t / 50`, and the output block then holds the fold over the whole run. -/
theorem flushed2_3_eq (c : Dev nD) (t : Fin cfg2.N) (hf : (cfg2.win 3).flush t = true) :
    (dat2 V c).flushed 3 t = ((cfg2.win 3).blk t).view.read (Elt F) (lossArr V c) := by
  have h49 : t.val % 50 = 49 := (flush2_3 t).mp hf
  have hi := idx2_3 t
  show (cfg2.win 3).cut (grid2.coords t) ((dat2 V c).after 3 t) = _
  rw [after2_3, outsAt2_eq, h49]
  funext y
  rw [View.read_apply]
  have ey : (y : S1x1x1.Idx) = ix3 (0 : Fin 1) (0 : Fin 1) (0 : Fin 1) := by
    funext a
    apply Fin.ext
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega
  have e0 : ((((cfg2.win 3).blk t).view.emb y) 0).val = t.val / 50 := by
    have h : (y 0).val < 1 := (y 0).isLt
    show win2_3.index t 0 * 1 + 1 * (y 0).val = t.val / 50
    rw [hi.1]; omega
  refine Eq.trans (congrArg (conAcc (rows2X (V c main_arg0)) (rows2L (V c main_v0)) (V c main_v56) (50 * (t.val / 50)) 49) ey) ?_
  exact congrArg (lossAt V c) e0.symm

/-- The two write-backs cover the two elements of the result, so the array ends at `lossArr`. -/
theorem arr2_3_eq (c : Dev nD) : (dat2 V c).arrAt 3 cfg2.N = lossArr V c :=
  (dat2 V c).arrAt_eq_of_cover 3 (lossArr V c) (flushed2_3_eq V c) fun i => by
    have hN : cfg2.N = 100 := N_2
    have h0 : (i 0 : Nat) < 2 := (i 0).isLt
    have h1 : (i 1 : Nat) < 1 := (i 1).isLt
    have h2 : (i 2 : Nat) < 1 := (i 2).isLt
    have key : ∀ t : Fin cfg2.N, t.val % 50 = 49 → t.val / 50 = (i 0 : Nat) →
        i ∈ ((cfg2.win 3).blk t).view.set := fun t _ hq => by
      have hi := idx2_3 t
      show i ∈ ((View.whole main_v57).slice (win2_3.rect t)).set
      rw [View.set_slice_whole, Rect.mem_set_unit]
      intro a
      match a with
      | ⟨0, _⟩ => show win2_3.index t 0 * 1 ≤ (i 0 : Nat) ∧ (i 0 : Nat) < win2_3.index t 0 * 1 + 1
                  rw [hi.1]; omega
      | ⟨1, _⟩ => show win2_3.index t 1 * 1 ≤ (i 1 : Nat) ∧ (i 1 : Nat) < win2_3.index t 1 * 1 + 1
                  rw [hi.2.1]; omega
      | ⟨2, _⟩ => show win2_3.index t 2 * 1 ≤ (i 2 : Nat) ∧ (i 2 : Nat) < win2_3.index t 2 * 1 + 1
                  rw [hi.2.2]; omega
    have hlt : 50 * (i 0 : Nat) + 49 < cfg2.N := by rw [hN]; omega
    exact ⟨⟨50 * (i 0 : Nat) + 49, hlt⟩, (flush2_3 _).mpr (by show (50 * (i 0 : Nat) + 49) % 50 = 49; omega),
      key ⟨50 * (i 0 : Nat) + 49, hlt⟩ (by show (50 * (i 0 : Nat) + 49) % 50 = 49; omega)
        (by show (50 * (i 0 : Nat) + 49) / 50 = (i 0 : Nat); omega)⟩

/-- Element `q` of the result array after the region: the fold of the body's stored values over the 50 points
    of core `q`, begun from zero. -/
theorem arr2_3_apply (c : Dev nD) (q : Fin 2) :
    (dat2 V c).arrAt 3 cfg2.N (ix3 q (0 : Fin 1) (0 : Fin 1))
      = (conAcc (rows2X (V c main_arg0)) (rows2L (V c main_v0)) (V c main_v56) (50 * q.val) 49) (ix3 (0 : Fin 1) (0 : Fin 1) (0 : Fin 1)) := by
  rw [arr2_3_eq]
  rfl

end Cert.KernelIdeal.ValueK

end
-- ==== Proof.KRead.lean ====
/-
  What the idealized kernel program's buffers hold at the boundaries of its three regions and at its end:
  each host stretch's results as the named functions of what the stretch reads, one boundary at a time.
-/
import proofs.«413966_j50491635532083_2_alg».proof.Proof.KDefs
import proofs.«413966_j50491635532083_2_alg».proof.Proof.Gen.KernelIdeal.Frame
import Idealize.ShloMosaic.Lib.StableHlo.Run

set_option maxRecDepth 16384

noncomputable section

namespace Cert.KernelIdeal.ValueK

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ) (ρ : Dev nD → PrngReg)

/-! ## The regions' accumulated outputs -/

/-- The first region's class-sum output, both cores' blocks, after its whole grid. -/
abbrev A02 (c : Dev nD) : FVec F S2x1024x256 .f32 := (dat0 (V1 m ρ) c).arrAt 2 cfg0.N
/-- The first region's class-count output after its whole grid. -/
abbrev A03 (c : Dev nD) : FVec F S2x1x1024 .f32 := (dat0 (V1 m ρ) c).arrAt 3 cfg0.N
/-- The second region's class-sum output after its whole grid. -/
abbrev A12 (c : Dev nD) : FVec F S2x1024x256 .f32 := (dat1 (V3 m ρ) c).arrAt 2 cfg1.N
/-- The second region's class-count output after its whole grid. -/
abbrev A13 (c : Dev nD) : FVec F S2x1x1024 .f32 := (dat1 (V3 m ρ) c).arrAt 3 cfg1.N
/-- The third region's loss-sum output, both cores' cells, after its whole grid. -/
abbrev A23 (c : Dev nD) : FVec F S2x1x1 .f32 := (dat2 (V7 m ρ) c).arrAt 3 cfg2.N

/-! ## Auxiliary facts, one boundary at a time -/

namespace KRead

/-- A stretch of host operations leaves a buffer that none of them writes as it found it. -/
macro "unwritten_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ### Up to the second region's exit -/

/-- The second label column, written by the same stretch, as the second label vector laid out as a column. -/
theorem W1_v1 (c : Dev nD) :
    W1 m ρ c (Proc.devRef .tc main_v1) = shapeCast S200000x1 (m ((c : Thread nD τ).loc main_arg3)) shapeCasts_S200000_S200000x1 := by
  show StableHlo.after hostOps0 (W0 m ρ c) (Proc.devRef .tc main_v1) = _
  dsimp only [hostOps0]
  after_results
  rfl

/-- The two cores' class sums of the first region, added, at the second region's entry. -/
theorem W3_v3 (c : Dev nD) :
    W3 m ρ c (Proc.devRef .tc main_v3)
      = Host.reduceAdd (A02 m ρ c) (constant S_ .f32 0x00000000#32) reducesTo_S2x1024x256_S1024x256_d0 h_S_ := by
  show StableHlo.after hostOps1 (W2 m ρ c) (Proc.devRef .tc main_v3) = _
  dsimp only [hostOps1]
  after_results
  rw [show W2 m ρ c (Proc.devRef .tc main_v2_0) = A02 m ρ c from W2_arr m ρ c 2]

/-- The two cores' class counts of the first region, added and laid out as a vector, at the second region's entry. -/
theorem W3_v5 (c : Dev nD) :
    W3 m ρ c (Proc.devRef .tc main_v5)
      = shapeCast S1024 (Host.reduceAdd (A03 m ρ c) (constant S_ .f32 0x00000000#32) reducesTo_S2x1x1024_S1x1024_d0 h_S_)
          shapeCasts_S1x1024_S1024 := by
  show StableHlo.after hostOps1 (W2 m ρ c) (Proc.devRef .tc main_v5) = _
  dsimp only [hostOps1]
  after_results
  rw [show W2 m ρ c (Proc.devRef .tc main_v2_1) = A03 m ρ c from W2_arr m ρ c 3]
  rfl

/-- The first region's added class sums pass the second region untouched. -/
theorem W4_v3 (c : Dev nD) :
    W4 m ρ c (Proc.devRef .tc main_v3)
      = Host.reduceAdd (A02 m ρ c) (constant S_ .f32 0x00000000#32) reducesTo_S2x1024x256_S1024x256_d0 h_S_ :=
  (W4_of_ne m ρ c main_v3 (by decide)).trans (W3_v3 m ρ c)

/-- The first region's added class counts pass the second region untouched. -/
theorem W4_v5 (c : Dev nD) :
    W4 m ρ c (Proc.devRef .tc main_v5)
      = shapeCast S1024 (Host.reduceAdd (A03 m ρ c) (constant S_ .f32 0x00000000#32) reducesTo_S2x1x1024_S1x1024_d0 h_S_)
          shapeCasts_S1x1024_S1024 :=
  (W4_of_ne m ρ c main_v5 (by decide)).trans (W3_v5 m ρ c)

/-! ### The host stretches after the second region, from any contents at their start

Each result as the named function of the buffers the stretch reads, for every assignment of contents to the
buffers before the stretch. -/

section Stretches

variable (V : Valuation τ sig (Elt F))

/-- The first array's class means: its added sums over its added counts floored at one, the padded classes cut. -/
theorem ops2_v18 :
    StableHlo.after hostOps2 V (Proc.devRef .tc main_v18)
      = protoOf (extractStridedSlice S1000x256 ![0, 0] (V (Proc.devRef .tc main_v3)) slices_S1024x256_S1000x256_0_0)
          (extractStridedSlice S1000 ![0] (V (Proc.devRef .tc main_v5)) slices_S1024_S1000_0) := by
  dsimp only [hostOps2]
  after_results_simp
  rfl

/-- The first array's structure matrix: its class means' cosines with one another. -/
theorem ops2_v41 :
    StableHlo.after hostOps2 V (Proc.devRef .tc main_v41)
      = structOf (protoOf (extractStridedSlice S1000x256 ![0, 0] (V (Proc.devRef .tc main_v3)) slices_S1024x256_S1000x256_0_0)
          (extractStridedSlice S1000 ![0] (V (Proc.devRef .tc main_v5)) slices_S1024_S1000_0)) := by
  dsimp only [hostOps2]
  after_results_simp
  rfl

/-- The structure loss: the mean squared difference of the two arrays' structure matrices, the second array's
    class means taken from the second region's two outputs. -/
theorem ops2_v47 :
    StableHlo.after hostOps2 V (Proc.devRef .tc main_v47)
      = structLoss
          (protoOf (extractStridedSlice S1000x256 ![0, 0] (V (Proc.devRef .tc main_v3)) slices_S1024x256_S1000x256_0_0)
            (extractStridedSlice S1000 ![0] (V (Proc.devRef .tc main_v5)) slices_S1024_S1000_0))
          (protoOf (sumsOf (V (Proc.devRef .tc main_v6_0))) (cntsOf (V (Proc.devRef .tc main_v6_1)))) := by
  dsimp only [hostOps2]
  after_results_simp
  rfl

/-- The integer zero the padding value is made from. -/
theorem ops2_c :
    StableHlo.after hostOps2 V (Proc.devRef .tc main_c) = constantI S_ 32 0#32 := by
  dsimp only [hostOps2]
  after_results_simp

/-- The padding stretch: the class means with 24 rows of its padding value appended. -/
theorem ops2_1_v48 :
    StableHlo.after hostOps2_1 V (Proc.devRef .tc main_v48)
      = pad S1024x256 ![0, 0] ![24, 0] ![0, 0] (V (Proc.devRef .tc main_v18)) (sitofp .f32 (V (Proc.devRef .tc main_c)))
          pads_S1000x256_S1024x256_0240_000 h_S_ := by
  dsimp only [hostOps2_1]
  after_results
  rfl

/-- The stretch before the third region: each padded row over its floored length. -/
theorem ops2_2_v56 :
    StableHlo.after hostOps2_2 V (Proc.devRef .tc main_v56) = unitRowsPad (V (Proc.devRef .tc main_v48)) := by
  dsimp only [hostOps2_2]
  after_results
  rfl

/-- The last stretch: the two cores' loss sums added, over the number of rows. -/
theorem ops3_v59 :
    StableHlo.after hostOps3 V (Proc.devRef .tc main_v59) = lossOf (V (Proc.devRef .tc main_v57)) := by
  dsimp only [hostOps3]
  after_results
  rfl

end Stretches

/-! ### After the second region: the class means, the structure matrix, the structure loss, the padded means -/

/-- The first array's class means, when the long stretch after the second region has run. -/
theorem W5_v18 (c : Dev nD) :
    W5 m ρ c (Proc.devRef .tc main_v18) = protoOf (sumsOf (A02 m ρ c)) (cntsOf (A03 m ρ c)) :=
  (ops2_v18 (W4 m ρ c)).trans (by rw [W4_v3, W4_v5]; rfl)

/-- The first array's structure matrix at the same point. -/
theorem W5_v41 (c : Dev nD) :
    W5 m ρ c (Proc.devRef .tc main_v41) = structOf (protoOf (sumsOf (A02 m ρ c)) (cntsOf (A03 m ρ c))) :=
  (ops2_v41 (W4 m ρ c)).trans (by rw [W4_v3, W4_v5]; rfl)

/-- The structure loss at the same point, of the two arrays' class means. -/
theorem W5_v47 (c : Dev nD) :
    W5 m ρ c (Proc.devRef .tc main_v47)
      = structLoss (protoOf (sumsOf (A02 m ρ c)) (cntsOf (A03 m ρ c))) (protoOf (sumsOf (A12 m ρ c)) (cntsOf (A13 m ρ c))) :=
  (ops2_v47 (W4 m ρ c)).trans (by
    rw [W4_v3, W4_v5, show W4 m ρ c (Proc.devRef .tc main_v6_0) = A12 m ρ c from W4_arr m ρ c 2,
      show W4 m ρ c (Proc.devRef .tc main_v6_1) = A13 m ρ c from W4_arr m ρ c 3]
    rfl)

/-- The integer zero the padding value is made from, at the same point. -/
theorem W5_c (c : Dev nD) : W5 m ρ c (Proc.devRef .tc main_c) = constantI S_ 32 0#32 :=
  ops2_c (W4 m ρ c)

/-- The class means with 24 zero rows appended, when the padding stretch has run. -/
theorem W6_v48 (c : Dev nD) :
    W6 m ρ c (Proc.devRef .tc main_v48) = padOf (protoOf (sumsOf (A02 m ρ c)) (cntsOf (A03 m ρ c))) :=
  (ops2_1_v48 (W5 m ρ c)).trans (by rw [W5_v18, W5_c]; rfl)

end KRead

open KRead

/-! ## The first region's entry -/

/-- The first features array enters the first region as launched. -/
theorem V1_arg0 (c : Dev nD) : V1 m ρ c main_arg0 = m ((c : Thread nD τ).loc main_arg0) :=
  calc W1 m ρ c (Proc.devRef .tc main_arg0)
    _ = W0 m ρ c (Proc.devRef .tc main_arg0) := by unwritten_by hostOps0
    _ = m ((c : Thread nD τ).loc main_arg0) := rfl

/-- The first label column enters the first region as the launched label vector laid out as a column. -/
theorem V1_v0 (c : Dev nD) :
    V1 m ρ c main_v0 = shapeCast S200000x1 (m ((c : Thread nD τ).loc main_arg1)) shapeCasts_S200000_S200000x1 := by
  show StableHlo.after hostOps0 (W0 m ρ c) (Proc.devRef .tc main_v0) = _
  dsimp only [hostOps0]
  after_results
  rfl

/-! ## The second region's entry -/

/-- The second features array enters the second region as launched. -/
theorem V3_arg2 (c : Dev nD) : V3 m ρ c main_arg2 = m ((c : Thread nD τ).loc main_arg2) :=
  calc W3 m ρ c (Proc.devRef .tc main_arg2)
    _ = W2 m ρ c (Proc.devRef .tc main_arg2) := by unwritten_by hostOps1
    _ = W1 m ρ c (Proc.devRef .tc main_arg2) := W2_of_ne m ρ c main_arg2 (by decide)
    _ = W0 m ρ c (Proc.devRef .tc main_arg2) := by unwritten_by hostOps0
    _ = m ((c : Thread nD τ).loc main_arg2) := rfl

/-- The second label column enters the second region as the launched label vector laid out as a column. -/
theorem V3_v1 (c : Dev nD) :
    V3 m ρ c main_v1 = shapeCast S200000x1 (m ((c : Thread nD τ).loc main_arg3)) shapeCasts_S200000_S200000x1 :=
  calc W3 m ρ c (Proc.devRef .tc main_v1)
    _ = W2 m ρ c (Proc.devRef .tc main_v1) := by unwritten_by hostOps1
    _ = W1 m ρ c (Proc.devRef .tc main_v1) := W2_of_ne m ρ c main_v1 (by decide)
    _ = _ := W1_v1 m ρ c

/-! ## The third region's entry -/

/-- The first features array enters the third region as launched: the first region only read it. -/
theorem V7_arg0 (c : Dev nD) : V7 m ρ c main_arg0 = m ((c : Thread nD τ).loc main_arg0) :=
  calc W7 m ρ c (Proc.devRef .tc main_arg0)
    _ = W6 m ρ c (Proc.devRef .tc main_arg0) := by unwritten_by hostOps2_2
    _ = W5 m ρ c (Proc.devRef .tc main_arg0) := by unwritten_by hostOps2_1
    _ = W4 m ρ c (Proc.devRef .tc main_arg0) := by unwritten_by hostOps2
    _ = W3 m ρ c (Proc.devRef .tc main_arg0) := W4_of_ne m ρ c main_arg0 (by decide)
    _ = W2 m ρ c (Proc.devRef .tc main_arg0) := by unwritten_by hostOps1
    _ = W1 m ρ c (Proc.devRef .tc main_arg0) :=
        (W2_arr m ρ c 0).trans (((dat0 (V1 m ρ) c).arrAt_in 0 rfl _).trans (A_eq0 (V1 m ρ) c 0))
    _ = _ := V1_arg0 m ρ c

/-- The first label column enters the third region as it entered the first. -/
theorem V7_v0 (c : Dev nD) :
    V7 m ρ c main_v0 = shapeCast S200000x1 (m ((c : Thread nD τ).loc main_arg1)) shapeCasts_S200000_S200000x1 :=
  calc W7 m ρ c (Proc.devRef .tc main_v0)
    _ = W6 m ρ c (Proc.devRef .tc main_v0) := by unwritten_by hostOps2_2
    _ = W5 m ρ c (Proc.devRef .tc main_v0) := by unwritten_by hostOps2_1
    _ = W4 m ρ c (Proc.devRef .tc main_v0) := by unwritten_by hostOps2
    _ = W3 m ρ c (Proc.devRef .tc main_v0) := W4_of_ne m ρ c main_v0 (by decide)
    _ = W2 m ρ c (Proc.devRef .tc main_v0) := by unwritten_by hostOps1
    _ = W1 m ρ c (Proc.devRef .tc main_v0) :=
        (W2_arr m ρ c 1).trans (((dat0 (V1 m ρ) c).arrAt_in 1 rfl _).trans (A_eq0 (V1 m ρ) c 1))
    _ = _ := V1_v0 m ρ c

/-- The class rows the third region measures against: the first array's class means, padded, each row over its
    floored length. -/
theorem V7_v56 (c : Dev nD) :
    V7 m ρ c main_v56 = unitRowsPad (padOf (protoOf (sumsOf (A02 m ρ c)) (cntsOf (A03 m ρ c)))) :=
  (ops2_2_v56 (W6 m ρ c)).trans (by rw [W6_v48])

/-! ## The end of the program -/

/-- The class means reach the end as computed: nothing after the long stretch writes them. -/
theorem W9_v18 (c : Dev nD) :
    W9 m ρ c (Proc.devRef .tc main_v18) = protoOf (sumsOf (A02 m ρ c)) (cntsOf (A03 m ρ c)) :=
  calc W9 m ρ c (Proc.devRef .tc main_v18)
    _ = W8 m ρ c (Proc.devRef .tc main_v18) := by unwritten_by hostOps3
    _ = W7 m ρ c (Proc.devRef .tc main_v18) := W8_of_ne m ρ c main_v18 (by decide)
    _ = W6 m ρ c (Proc.devRef .tc main_v18) := by unwritten_by hostOps2_2
    _ = W5 m ρ c (Proc.devRef .tc main_v18) := by unwritten_by hostOps2_1
    _ = _ := W5_v18 m ρ c

/-- The structure matrix reaches the end as computed. -/
theorem W9_v41 (c : Dev nD) :
    W9 m ρ c (Proc.devRef .tc main_v41) = structOf (protoOf (sumsOf (A02 m ρ c)) (cntsOf (A03 m ρ c))) :=
  calc W9 m ρ c (Proc.devRef .tc main_v41)
    _ = W8 m ρ c (Proc.devRef .tc main_v41) := by unwritten_by hostOps3
    _ = W7 m ρ c (Proc.devRef .tc main_v41) := W8_of_ne m ρ c main_v41 (by decide)
    _ = W6 m ρ c (Proc.devRef .tc main_v41) := by unwritten_by hostOps2_2
    _ = W5 m ρ c (Proc.devRef .tc main_v41) := by unwritten_by hostOps2_1
    _ = _ := W5_v41 m ρ c

/-- The structure loss reaches the end as computed. -/
theorem W9_v47 (c : Dev nD) :
    W9 m ρ c (Proc.devRef .tc main_v47)
      = structLoss (protoOf (sumsOf (A02 m ρ c)) (cntsOf (A03 m ρ c))) (protoOf (sumsOf (A12 m ρ c)) (cntsOf (A13 m ρ c))) :=
  calc W9 m ρ c (Proc.devRef .tc main_v47)
    _ = W8 m ρ c (Proc.devRef .tc main_v47) := by unwritten_by hostOps3
    _ = W7 m ρ c (Proc.devRef .tc main_v47) := W8_of_ne m ρ c main_v47 (by decide)
    _ = W6 m ρ c (Proc.devRef .tc main_v47) := by unwritten_by hostOps2_2
    _ = W5 m ρ c (Proc.devRef .tc main_v47) := by unwritten_by hostOps2_1
    _ = _ := W5_v47 m ρ c

/-- The contrastive loss: the third region's two loss sums added, over the number of rows. -/
theorem W9_v59 (c : Dev nD) : W9 m ρ c (Proc.devRef .tc main_v59) = lossOf (A23 m ρ c) :=
  (ops3_v59 (W8 m ρ c)).trans (by
    rw [show W8 m ρ c (Proc.devRef .tc main_v57) = A23 m ρ c from W8_arr m ρ c 3])

end Cert.KernelIdeal.ValueK

end
-- ==== Proof.SegPay.lean ====
/-
  What one step of the class-sum accumulation computes, entry by entry, over the extended reals.

  A block of 4000 rows carries a label per row and 256 features per row. The step forms the 4000 × 1024 mask whose
  entry (r, k) is one when row r is labelled k and zero otherwise. The counts' entry k grows by the mask's column sum,
  the number of rows labelled k. The sums' entry (k, d) grows by the mask's column k paired with feature column d, once
  against the features and once against the features minus themselves; the features being finite, that second term is
  zero, so the entry grows by feature d of the rows labelled k. Both accumulators start from zero.
-/
import proofs.«413966_j50491635532083_2_alg».proof.Proof.KDefs
import proofs.«413966_j50491635532083_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.ValueK

open Cert.KernelIdeal Cert.KernelIdeal.Gen Idealize.ShloMosaic ValueIdx

/-- The zero block the class sums start from: every entry is zero. -/
theorem k0_pay1_apply (i : S1x1024x256.Idx) : k0_pay1 (F := Ideal) i = 0 := by
  obtain ⟨u, k, d, rfl⟩ : ∃ (u : Fin 1) (k : Fin 1024) (d : Fin 256), i = ix3 u k d := ⟨i 0, i 1, i 2, eq_ix3 i⟩
  unfold k0_pay1
  rw [shapeCast_ab_1ab_apply]
  exact Ideal.ofBits_zero_f32

/-- The zero row the class counts start from: every entry is zero. -/
theorem k0_pay2_apply (i : S1x1x1024.Idx) : k0_pay2 (F := Ideal) i = 0 := by
  obtain ⟨u, v, k, rfl⟩ : ∃ (u : Fin 1) (v : Fin 1) (k : Fin 1024), i = ix3 u v k := ⟨i 0, i 1, i 2, eq_ix3 i⟩
  unfold k0_pay2
  rw [shapeCast_ab_1ab_apply]
  exact Ideal.ofBits_zero_f32

namespace SegPay

/-- A column repeated along the rows: entry (p, c) of the result is entry (p, 0) of the column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (r, k) of the mask compares row r's label with the word of k. -/
theorem k0_pay3_apply (lab : Vec Ideal S4000x1 .i32) (r : Fin 4000) (k : Fin 1024) :
    k0_pay3 (F := Ideal) lab (ix2 r k) = IntOp.cmpi .eq (lab (ix2 r (0 : Fin 1))) (BitVec.ofNat 32 k.val) := by
  unfold k0_pay3
  show IntOp.cmpi .eq (broadcastTo S4000x1024 (shapeCast S4000x1 lab shapeCasts_S4000x1_S4000x1) broadcasts_S4000x1_S4000x1024 (ix2 r k))
      (iota .tc S4000x1024 32 [1] iota_S4000x1024_d1_w32 (ix2 r k)) = _
  rw [broadcastTo_a1_ab_apply, shapeCast_self, iota_single_apply]

/-- A 32-bit word is the word of a class number k < 1024 exactly when, read signed, it is k. -/
theorem word_eq_ofNat_iff (a : BitVec 32) (k : Fin 1024) : a = BitVec.ofNat 32 k.val ↔ a.toInt = (k.val : ℤ) := by
  have hk := k.isLt
  have ha := a.isLt
  have e := BitVec.toInt_eq_toNat_cond a
  constructor
  · rintro rfl
    rw [BitVec.toNat_ofNat] at e
    omega
  · intro h
    apply BitVec.eq_of_toNat_eq
    rw [BitVec.toNat_ofNat]
    omega

/-- The comparison's bit, widened and read as a signed integer, is one when the words agree and zero otherwise. -/
theorem cmpi_eq_setWidth_toInt (a c : BitVec 32) :
    ((IntOp.cmpi .eq a c).setWidth 32).toInt = if a = c then 1 else 0 := by
  by_cases h : a = c
  · subst h; simp [IntOp.cmpi]
  · have hb : (a == c) = false := beq_eq_false_iff_ne.2 h
    simp [IntOp.cmpi, hb, h]

/-- Entry (r, k) of the mask as a float: one when row r is labelled k, zero otherwise. -/
theorem onehot_apply (lab : Vec Ideal S4000x1 .i32) (r : Fin 4000) (k : Fin 1024) :
    (sitofp .f32 (extui 32 (k0_pay3 (F := Ideal) lab) natLt_1_32) : FVec Ideal S4000x1024 .f32) (ix2 r k)
      = if (lab (ix2 r (0 : Fin 1))).toInt = (k.val : ℤ) then (1 : EReal) else 0 := by
  rw [sitofp_apply, extui_apply, k0_pay3_apply]
  show (((((IntOp.cmpi .eq (lab (ix2 r (0 : Fin 1))) (BitVec.ofNat 32 k.val)).setWidth 32).toInt : ℤ) : ℝ) : EReal) = _
  rw [cmpi_eq_setWidth_toInt]
  by_cases h : lab (ix2 r (0 : Fin 1)) = BitVec.ofNat 32 k.val
  · rw [if_pos h, if_pos ((word_eq_ofNat_iff _ k).1 h)]; norm_num
  · rw [if_neg h, if_neg (fun h' => h ((word_eq_ofNat_iff _ k).2 h'))]; norm_num

/-- A sum down the rows of a 4000 × 1024 block: entry k of the result adds entry (r, k) over the rows r. -/
theorem colSum_apply (v : FVec Ideal S4000x1024 .f32) (h : S4000x1024.Reduces [0] S1024) (hφ : FKind.Formats .f32)
    (hacc : (0x00000000#32 : BitVec 32) = 0x00000000#32) (k : Fin 1024) :
    multiReduction (F := Ideal) .add [0] S1024 v 0x00000000#32 h hφ hacc (ix1 k) = ∑ r : Fin 4000, v (ix2 r k) := by
  refine (Ideal.multiReduction_add_single v 0x00000000#32 h hφ hacc (ix1 k)).trans ?_
  refine Finset.sum_congr rfl fun r _ => congrArg v ?_
  funext a
  match a with
  | ⟨0, _⟩ => rfl
  | ⟨1, _⟩ => rfl

/-- Left operand of the class-sum product, row axis: the contraction coordinate. -/
theorem lhs_seg_0 (i : S1024x256.Idx) (q : dot_S4000x1024_S4000x256_S1024x256_0_0_1_1_n_n.contr.Idx) :
    (dot_S4000x1024_S4000x256_S1024x256_0_0_1_1_n_n.lhsIdx i q 0).val = (q ⟨0, by decide⟩).val :=
  dot_S4000x1024_S4000x256_S1024x256_0_0_1_1_n_n.lhsIdx_val_of_single rfl i q
/-- Left operand, class axis: the result's class coordinate. -/
theorem lhs_seg_1 (i : S1024x256.Idx) (q : dot_S4000x1024_S4000x256_S1024x256_0_0_1_1_n_n.contr.Idx) :
    (dot_S4000x1024_S4000x256_S1024x256_0_0_1_1_n_n.lhsIdx i q 1).val = (i 0).val := by
  unfold DotDims.lhsIdx
  rw [dif_neg (show ¬(1 : Fin S4000x1024.rank) ∈ dot_S4000x1024_S4000x256_S1024x256_0_0_1_1_n_n.lhsBatch by decide), dif_pos (show (1 : Fin S4000x1024.rank) ∈ dot_S4000x1024_S4000x256_S1024x256_0_0_1_1_n_n.lhsNonContracting by decide)]
  rfl
/-- Right operand, row axis: the contraction coordinate. -/
theorem rhs_seg_0 (i : S1024x256.Idx) (q : dot_S4000x1024_S4000x256_S1024x256_0_0_1_1_n_n.contr.Idx) :
    (dot_S4000x1024_S4000x256_S1024x256_0_0_1_1_n_n.rhsIdx i q 0).val = (q ⟨0, by decide⟩).val :=
  dot_S4000x1024_S4000x256_S1024x256_0_0_1_1_n_n.rhsIdx_val_of_single rfl i q
/-- Right operand, feature axis: the result's feature coordinate. -/
theorem rhs_seg_1 (i : S1024x256.Idx) (q : dot_S4000x1024_S4000x256_S1024x256_0_0_1_1_n_n.contr.Idx) :
    (dot_S4000x1024_S4000x256_S1024x256_0_0_1_1_n_n.rhsIdx i q 1).val = (i 1).val := by
  unfold DotDims.rhsIdx
  rw [dif_neg (show ¬(1 : Fin S4000x256.rank) ∈ dot_S4000x1024_S4000x256_S1024x256_0_0_1_1_n_n.rhsBatch by decide), dif_pos (show (1 : Fin S4000x256.rank) ∈ dot_S4000x1024_S4000x256_S1024x256_0_0_1_1_n_n.rhsNonContracting by decide)]
  rfl

/-- The product of a 4000 × 1024 block, transposed, with a 4000 × 256 block, into zero: entry (k, d) adds, over the
    rows r, the first block's entry (r, k) times the second's entry (r, d). -/
theorem segMatmul_apply (m : FVec Ideal S4000x1024 .bf16) (y : FVec Ideal S4000x256 .bf16) (k : Fin 1024) (d : Fin 256) :
    (matmul dot_S4000x1024_S4000x256_S1024x256_0_0_1_1_n_n none m y (constant (F := Ideal) S1024x256 .f32 0x00000000#32) : FVec Ideal S1024x256 .f32) (ix2 k d)
      = ∑ r : Fin 4000, m (ix2 r k) * y (ix2 r d) := by
  simp only [matmul]
  rw [Ideal.matmul_constant_zero_apply, ← Equiv.sum_comp (contrEquiv1 dot_S4000x1024_S4000x256_S1024x256_0_0_1_1_n_n 4000 rfl rfl).symm]
  refine Finset.sum_congr rfl fun r _ => ?_
  have hr := contrEquiv1_symm_val dot_S4000x1024_S4000x256_S1024x256_0_0_1_1_n_n 4000 rfl rfl r
  have el : dot_S4000x1024_S4000x256_S1024x256_0_0_1_1_n_n.lhsIdx (ix2 k d) ((contrEquiv1 dot_S4000x1024_S4000x256_S1024x256_0_0_1_1_n_n 4000 rfl rfl).symm r) = ix2 r k := funext fun a => Fin.ext (by
    match a with
    | ⟨0, _⟩ => exact (lhs_seg_0 _ _).trans hr
    | ⟨1, _⟩ => exact lhs_seg_1 _ _)
  have er : dot_S4000x1024_S4000x256_S1024x256_0_0_1_1_n_n.rhsIdx (ix2 k d) ((contrEquiv1 dot_S4000x1024_S4000x256_S1024x256_0_0_1_1_n_n 4000 rfl rfl).symm r) = ix2 r d := funext fun a => Fin.ext (by
    match a with
    | ⟨0, _⟩ => exact (rhs_seg_0 _ _).trans hr
    | ⟨1, _⟩ => exact rhs_seg_1 _ _)
  rw [el, er]

end SegPay

open SegPay

/-- The counts' update: entry k of the new counts is the old entry plus the number of rows labelled k. -/
theorem k0_pay4_apply (lab : Vec Ideal S4000x1 .i32) (prev : Vec Ideal S1x1x1024 .f32) (k : Fin 1024) :
    k0_pay4 (F := Ideal) lab prev (ix3 (0 : Fin 1) (0 : Fin 1) k)
      = prev (ix3 (0 : Fin 1) (0 : Fin 1) k) + ∑ r : Fin 4000, if (lab (ix2 r (0 : Fin 1))).toInt = (k.val : ℤ) then (1 : EReal) else 0 := by
  unfold k0_pay4
  rw [shapeCast_ab_1ab_apply, addf_apply, shapeCast_1ab_ab_apply, shapeCast_a_1a_apply, colSum_apply]
  exact congrArg (_ + ·) (Finset.sum_congr rfl fun r _ => onehot_apply lab r k)

/-- The sums' update: entry (k, d) of the new sums is the old entry plus feature d of every row labelled k. The features
    are finite, so a feature minus itself is zero and the second product adds nothing. -/
theorem k0_pay5_apply (lab : Vec Ideal S4000x1 .i32) (x : Vec Ideal S4000x256 .f32) (prev : Vec Ideal S1x1024x256 .f32)
    (hx : ∀ i, Cert.Spec.Fin' (x i)) (k : Fin 1024) (d : Fin 256) :
    k0_pay5 (F := Ideal) lab x prev (ix3 (0 : Fin 1) k d)
      = prev (ix3 (0 : Fin 1) k d) + ∑ r : Fin 4000, if (lab (ix2 r (0 : Fin 1))).toInt = (k.val : ℤ) then x (ix2 r d) else 0 := by
  unfold k0_pay5
  rw [shapeCast_ab_1ab_apply, addf_apply, shapeCast_1ab_ab_apply, addf_apply, segMatmul_apply, segMatmul_apply,
    ← Finset.sum_add_distrib]
  refine congrArg (_ + ·) (Finset.sum_congr rfl fun r _ => ?_)
  rw [truncf_apply, truncf_apply, truncf_apply, subf_apply, onehot_apply]
  obtain ⟨hT, hB⟩ := hx (ix2 r d)
  obtain ⟨y, hy⟩ : ∃ y : ℝ, (y : EReal) = x (ix2 r d) := ⟨(x (ix2 r d)).toReal, EReal.coe_toReal hT hB⟩
  rw [← hy, ← EReal.coe_sub, sub_self, EReal.coe_zero]
  split_ifs with hP
  · rw [one_mul, mul_zero, add_zero]
  · rw [zero_mul, zero_mul, add_zero]

end Cert.KernelIdeal.ValueK
-- ==== Proof.SegSum.lean ====
/-
  From the accumulated blocks to the class sums and counts. A core's block after its 25 row blocks holds, at class k,
  the sum over those 100000 rows of the rows labelled k (features, or ones). The host adds the two cores' blocks and
  cuts the 24 padded classes off; the two cores' rows together are all 200000 rows, each once, so the result is the
  class sum (the class count) over every row.
-/
import proofs.«413966_j50491635532083_2_alg».proof.Proof.KDefs
import proofs.«413966_j50491635532083_2_alg».proof.Proof.Spec
import proofs.«413966_j50491635532083_2_alg».proof.Proof.SegPay
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Mathlib.Algebra.BigOperators.Fin
import Mathlib.Logic.Equiv.Fin.Basic

noncomputable section

namespace Cert.KernelIdeal.ValueK

open Cert.KernelIdeal Cert.KernelIdeal.Gen Idealize.ShloMosaic ValueIdx

/-! ## The accumulated blocks in closed form -/

/-- After row blocks b, …, b+j the sums' block holds, at class k and feature d, the sum over those blocks' rows of
    feature d of the rows labelled k. -/
theorem segAcc_1_apply (xs : ℕ → Vec Ideal S4000x256 .f32) (ls : ℕ → Vec Ideal S4000x1 .i32) (b : ℕ)
    (hx : ∀ n i, Cert.Spec.Fin' (xs n i)) (j : ℕ) (k : Fin 1024) (d : Fin 256) :
    (segAcc (F := Ideal) xs ls b j).1 (ix3 (0 : Fin 1) k d)
      = ∑ i ∈ Finset.range (j + 1), ∑ r : Fin 4000,
          if (ls (b + i) (ix2 r (0 : Fin 1))).toInt = (k.val : ℤ) then xs (b + i) (ix2 r d) else 0 := by
  induction j with
  | zero =>
    show k0_pay5 (F := Ideal) (ls b) (xs b) (k0_pay1 (F := Ideal)) (ix3 (0 : Fin 1) k d) = _
    rw [k0_pay5_apply _ _ _ (hx b), k0_pay1_apply, zero_add, Finset.sum_range_one]
    rfl
  | succ j ih =>
    show k0_pay5 (F := Ideal) (ls (b + (j + 1))) (xs (b + (j + 1))) (segAcc xs ls b j).1 (ix3 (0 : Fin 1) k d) = _
    rw [k0_pay5_apply _ _ _ (hx _), ih, Finset.sum_range_succ _ (j + 1)]

/-- After row blocks b, …, b+j the counts' block holds, at class k, the number of those blocks' rows labelled k. -/
theorem segAcc_2_apply (xs : ℕ → Vec Ideal S4000x256 .f32) (ls : ℕ → Vec Ideal S4000x1 .i32) (b : ℕ)
    (j : ℕ) (k : Fin 1024) :
    (segAcc (F := Ideal) xs ls b j).2 (ix3 (0 : Fin 1) (0 : Fin 1) k)
      = ∑ i ∈ Finset.range (j + 1), ∑ r : Fin 4000,
          if (ls (b + i) (ix2 r (0 : Fin 1))).toInt = (k.val : ℤ) then (1 : EReal) else 0 := by
  induction j with
  | zero =>
    show k0_pay4 (F := Ideal) (ls b) (k0_pay2 (F := Ideal)) (ix3 (0 : Fin 1) (0 : Fin 1) k) = _
    rw [k0_pay4_apply, k0_pay2_apply, zero_add, Finset.sum_range_one]
    rfl
  | succ j ih =>
    show k0_pay4 (F := Ideal) (ls (b + (j + 1))) (segAcc xs ls b j).2 (ix3 (0 : Fin 1) (0 : Fin 1) k) = _
    rw [k0_pay4_apply, ih, Finset.sum_range_succ _ (j + 1)]

/-! ## All the rows, block by block -/

/-- A sum over m·n consecutive numbers, taken n at a time. -/
theorem sum_fin_mul {M : Type*} [AddCommMonoid M] (m n : ℕ) (g : ℕ → M) :
    ∑ c : Fin (m * n), g c.val = ∑ a : Fin m, ∑ b : Fin n, g (n * a.val + b.val) := by
  rw [← finProdFinEquiv.sum_comp, Fintype.sum_prod_type]
  refine Fintype.sum_congr _ _ fun a => Fintype.sum_congr _ _ fun b => ?_
  simp [finProdFinEquiv, Nat.add_comm]

/-- The 200000 rows are the two cores' 25 blocks of 4000 rows, each row once. -/
theorem sum_rowBlocks {M : Type*} [AddCommMonoid M] (g : ℕ → M) :
    ∑ q : Fin 2, ∑ i ∈ Finset.range 25, ∑ r : Fin 4000, g (4000 * ((25 * q.val + i) % 50) + r.val)
      = ∑ n : Fin 200000, g n.val := by
  have h1 : ∑ n : Fin 200000, g n.val = ∑ c : Fin 50, ∑ r : Fin 4000, g (4000 * c.val + r.val) :=
    sum_fin_mul 50 4000 g
  have h2 : ∑ c : Fin 50, ∑ r : Fin 4000, g (4000 * c.val + r.val)
      = ∑ q : Fin 2, ∑ i : Fin 25, ∑ r : Fin 4000, g (4000 * (25 * q.val + i.val) + r.val) :=
    sum_fin_mul 2 25 (fun c => ∑ r : Fin 4000, g (4000 * c + r.val))
  rw [h1, h2]
  refine Fintype.sum_congr _ _ fun q => ?_
  rw [Finset.sum_range]
  refine Fintype.sum_congr _ _ fun i => Fintype.sum_congr _ _ fun r => ?_
  have hq := q.isLt
  have hi := i.isLt
  rw [Nat.mod_eq_of_lt (by omega)]

/-! ## The row blocks read at a row -/

/-- Row r of block n of the features is row 4000·(n mod 50) + r. -/
theorem rows4X_apply (X : Vec Ideal S200000x256 .f32) (n : ℕ) (r : Fin 4000) (d : Fin 256)
    (h : 4000 * (n % 50) + r.val < 200000) :
    rows4X X n (ix2 r d) = X (ix2 (⟨4000 * (n % 50) + r.val, h⟩ : Fin 200000) d) := rfl

/-- Row r of block n of the label column is label 4000·(n mod 50) + r. -/
theorem rows4L_apply (L1 : IVec S200000 32) (n : ℕ) (r : Fin 4000) (h : 4000 * (n % 50) + r.val < 200000) :
    rows4L (F := Ideal) (shapeCast S200000x1 L1 shapeCasts_S200000_S200000x1) n (ix2 r (0 : Fin 1))
      = L1 (ix1 (⟨4000 * (n % 50) + r.val, h⟩ : Fin 200000)) := by
  show shapeCast S200000x1 L1 shapeCasts_S200000_S200000x1 _ = _
  refine shapeCast_apply L1 shapeCasts_S200000_S200000x1 _ _ ?_
  rw [Shape.rowMajor_val_two, Shape.rowMajor_val_one]
  show 4000 * (n % 50) + r.val = (4000 * (n % 50) + r.val) * 1 + 0
  omega

/-! ## The host's additions -/

/-- The two cores' blocks of sums added, at class k and feature d. -/
theorem sumsOf_apply (A : FVec Ideal S2x1024x256 .f32) (k : Fin 1000) (d : Fin 256) :
    sumsOf A (ix2 k d) = ∑ q : Fin 2, A (ix3 q (⟨k.val, by omega⟩ : Fin 1024) d) := by
  have hR : S2x1024x256.Reduces [0] S1024x256 := by decide
  unfold sumsOf
  rw [slice2_axis0_apply 0 _ slices_S1024x256_S1000x256_0_0 k d (⟨k.val, by omega⟩ : Fin 1024) (by simp),
    hostReduceAdd_apply, Ideal.hostReduceAdd_single _ hR, constant_apply, Ideal.ofBits_zero_f32, zero_add]
  refine Fintype.sum_congr _ _ fun q => congrArg A ?_
  funext c
  match c with
  | ⟨0, _⟩ => rfl
  | ⟨1, _⟩ => rfl
  | ⟨2, _⟩ => rfl

/-- The two cores' blocks of counts added, at class k. -/
theorem cntsOf_apply (A : FVec Ideal S2x1x1024 .f32) (k : Fin 1000) :
    cntsOf A (ix1 k) = ∑ q : Fin 2, A (ix3 q (0 : Fin 1) (⟨k.val, by omega⟩ : Fin 1024)) := by
  have hR : S2x1x1024.Reduces [0] S1x1024 := by decide
  unfold cntsOf
  rw [extractStridedSlice_apply ![0] _ slices_S1024_S1000_0 (ix1 k) (ix1 (⟨k.val, by omega⟩ : Fin 1024))
      (fun a => by match a with | ⟨0, _⟩ => simp),
    shapeCast_1a_a_apply, hostReduceAdd_apply, Ideal.hostReduceAdd_single _ hR, constant_apply,
    Ideal.ofBits_zero_f32, zero_add]
  refine Fintype.sum_congr _ _ fun q => congrArg A ?_
  funext c
  match c with
  | ⟨0, _⟩ => rfl
  | ⟨1, _⟩ => rfl
  | ⟨2, _⟩ => rfl

/-! ## The class sums and counts -/

/-- The kernel program's class sums are the sums over all rows of the rows labelled k. -/
theorem sumsOf_eq (A : FVec Ideal S2x1024x256 .f32) (X : FVec Ideal S200000x256 .f32) (L1 : IVec S200000 32)
    (hA : ∀ (q : Fin 2) (k : Fin 1024) (d : Fin 256), A (ix3 q k d)
        = (segAcc (F := Ideal) (rows4X X) (rows4L (shapeCast S200000x1 L1 shapeCasts_S200000_S200000x1)) (25 * q.val) 24).1 (ix3 (0 : Fin 1) k d))
    (hX : ∀ i, Cert.Spec.Fin' (X i)) (k : Fin 1000) (d : Fin 256) :
    sumsOf A (ix2 k d) = Cert.Spec.segSum (fun n e => X (ix2 n e)) (fun n => L1 (ix1 n)) k d := by
  rw [sumsOf_apply]
  unfold Cert.Spec.segSum
  let g : ℕ → EReal := fun n => if h : n < 200000 then
    (if (L1 (ix1 (⟨n, h⟩ : Fin 200000))).toInt = (k.val : ℤ) then X (ix2 (⟨n, h⟩ : Fin 200000) d) else 0) else 0
  have hg : ∀ n : Fin 200000, (if (L1 (ix1 n)).toInt = (k.val : ℤ) then X (ix2 n d) else 0) = g n.val := fun n => by
    show _ = dite _ _ _
    rw [dif_pos n.isLt]
  rw [Fintype.sum_congr _ _ hg, ← sum_rowBlocks g]
  refine Fintype.sum_congr _ _ fun q => ?_
  rw [hA, segAcc_1_apply (rows4X X) _ _ (fun n i => hX _)]
  refine Finset.sum_congr rfl fun i hi => Fintype.sum_congr _ _ fun r => ?_
  have hq := q.isLt
  have hi' := Finset.mem_range.1 hi
  have hlt : 4000 * ((25 * q.val + i) % 50) + r.val < 200000 := by
    have := Nat.mod_lt (25 * q.val + i) (by decide : 0 < 50); have := r.isLt; omega
  rw [rows4L_apply L1 _ r hlt, rows4X_apply X _ r d hlt]
  show _ = dite _ _ _
  rw [dif_pos hlt]

/-- The kernel program's class counts are the numbers of rows labelled k. -/
theorem cntsOf_eq (A : FVec Ideal S2x1x1024 .f32) (L1 : IVec S200000 32) (X : FVec Ideal S200000x256 .f32)
    (hA : ∀ (q : Fin 2) (k : Fin 1024), A (ix3 q (0 : Fin 1) k)
        = (segAcc (F := Ideal) (rows4X X) (rows4L (shapeCast S200000x1 L1 shapeCasts_S200000_S200000x1)) (25 * q.val) 24).2 (ix3 (0 : Fin 1) (0 : Fin 1) k))
    (k : Fin 1000) : cntsOf A (ix1 k) = Cert.Spec.segCnt (fun n => L1 (ix1 n)) k := by
  rw [cntsOf_apply]
  unfold Cert.Spec.segCnt
  let g : ℕ → EReal := fun n => if h : n < 200000 then
    (if (L1 (ix1 (⟨n, h⟩ : Fin 200000))).toInt = (k.val : ℤ) then 1 else 0) else 0
  have hg : ∀ n : Fin 200000, (if (L1 (ix1 n)).toInt = (k.val : ℤ) then (1 : EReal) else 0) = g n.val := fun n => by
    show _ = dite _ _ _
    rw [dif_pos n.isLt]
  rw [Fintype.sum_congr _ _ hg, ← sum_rowBlocks g]
  refine Fintype.sum_congr _ _ fun q => ?_
  rw [hA, segAcc_2_apply]
  refine Finset.sum_congr rfl fun i hi => Fintype.sum_congr _ _ fun r => ?_
  have hlt : 4000 * ((25 * q.val + i) % 50) + r.val < 200000 := by
    have := Nat.mod_lt (25 * q.val + i) (by decide : 0 < 50); have := r.isLt; omega
  rw [rows4L_apply L1 _ r hlt]
  show _ = dite _ _ _
  rw [dif_pos hlt]

end Cert.KernelIdeal.ValueK

end
-- ==== Proof.RefSeg.lean ====
/-
  The reference's two scatter-adds are the class sums and the class counts, and the class means read at an index.

  A scatter-add gives each operand element the sum of the updates that land on it. Here the operand is all zeros, the
  scatter indices are the label column, and the window is a whole feature row (the sums) or a single one (the counts):
  update (n, e) lands on (label n, e), update n lands on label n, the label read as a signed integer, and an update
  whose label is outside 0 … 999 lands nowhere. So entry (k, d) of the first result is the sum of feature d over the
  rows labelled k, and entry k of the second is the number of such rows. The class means divide the one by the other,
  the count floored at one.
-/
import proofs.«413966_j50491635532083_2_alg».proof.Proof.RefDefs
import proofs.«413966_j50491635532083_2_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.ValueR

open Cert.ReferenceIdeal Idealize.ShloMosaic ValueIdx
open scoped BigOperators

namespace RefSeg

/-- An update lands on operand index `i` exactly when, on every axis, the window's start plus the window coordinate
    is `i`'s coordinate (the start is read signed, so a negative or too large sum lands nowhere). -/
theorem resultIdx?_eq_some_iff {s si u : Shape} (D : ScatterDims s si u) {w : Nat} (j : u.Idx) (idx : IVec si w) (i : s.Idx) :
    D.resultIdx? j idx = some i ↔ ∀ a, D.start j idx a + (D.window j a : ℤ) = ((i a).val : ℤ) := by
  unfold ScatterDims.resultIdx?
  split_ifs with h
  · constructor
    · intro he a
      have := congrFun (Option.some.inj he) a
      have h2 := congrArg Fin.val this
      simp only at h2
      have := h a
      omega
    · intro he
      congr 1
      funext a
      refine Fin.ext ?_
      have := he a
      simp only
      omega
  · constructor
    · intro he; exact absurd he (by simp)
    · intro he
      exfalso; apply h
      intro a
      have := he a
      have := (i a).isLt
      omega

/-- The label column at row `n` is the label of row `n`. -/
theorem labCol_apply (L1 : IVec S200000 32) (q : S200000x1.Idx) : labCol L1 q = L1 (ix1 (q 0)) := by
  unfold labCol
  refine broadcastInDim_apply _ _ _ _ _ ?_
  intro a
  match a with
  | ⟨0, _⟩ => rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The class sums -/

/-- For the sums' scatter, the window of update `(n, e)` starts at row `label n` (read signed) … -/
theorem sumS_start0 (L1 : IVec S200000 32) (j : S200000x256.Idx) :
    scatter_S1000x256_S200000x1_S200000x256_1_0_0_1.start j (labCol L1) 0 = (L1 (ix1 (j 0))).toInt := by
  unfold ScatterDims.start
  rw [dif_pos (show (0 : Fin 2) ∈ scatter_S1000x256_S200000x1_S200000x256_1_0_0_1.scatterDimsToOperandDims from
    List.mem_singleton.mpr rfl)]
  rw [labCol_apply]
  rfl

/-- … and at column `0`. -/
theorem sumS_start1 (L1 : IVec S200000 32) (j : S200000x256.Idx) :
    scatter_S1000x256_S200000x1_S200000x256_1_0_0_1.start j (labCol L1) 1 = 0 := rfl
/-- The window coordinate of update `(n, e)` on the rows is `0` (the row axis is not a window axis) … -/
theorem sumS_window0 (j : S200000x256.Idx) : scatter_S1000x256_S200000x1_S200000x256_1_0_0_1.window j 0 = 0 := rfl
/-- … and on the columns it is `e`. -/
theorem sumS_window1 (j : S200000x256.Idx) : scatter_S1000x256_S200000x1_S200000x256_1_0_0_1.window j 1 = (j 1).val := rfl

/-- Update `(n, e)` lands on `(k, d)` exactly when row `n` is labelled `k` and `e = d`. -/
theorem sumS_land (L1 : IVec S200000 32) (j : S200000x256.Idx) (k : Fin 1000) (d : Fin 256) :
    scatter_S1000x256_S200000x1_S200000x256_1_0_0_1.resultIdx? j (labCol L1) = some (ix2 k d) ↔
      ((L1 (ix1 (j 0))).toInt = (k.val : ℤ) ∧ j 1 = d) := by
  rw [resultIdx?_eq_some_iff]
  constructor
  · intro h
    have h0 := h 0
    have h1 := h 1
    rw [sumS_start0, sumS_window0] at h0
    rw [sumS_start1, sumS_window1] at h1
    refine ⟨?_, Fin.ext ?_⟩
    · have : ((ix2 k d (0 : Fin 2)).val : ℤ) = (k.val : ℤ) := rfl
      rw [this] at h0
      simpa using h0
    · have : ((ix2 k d (1 : Fin 2)).val : ℤ) = (d.val : ℤ) := rfl
      rw [this] at h1
      have h1' : ((j 1).val : ℤ) = (d.val : ℤ) := by simpa using h1
      exact_mod_cast h1'
  · rintro ⟨h0, h1⟩ a
    have e0 : scatter_S1000x256_S200000x1_S200000x256_1_0_0_1.start j (labCol L1) 0
        + (scatter_S1000x256_S200000x1_S200000x256_1_0_0_1.window j 0 : ℤ) = ((ix2 k d (0 : Fin 2)).val : ℤ) := by
      rw [sumS_start0, sumS_window0, h0]; simp
    have e1 : scatter_S1000x256_S200000x1_S200000x256_1_0_0_1.start j (labCol L1) 1
        + (scatter_S1000x256_S200000x1_S200000x256_1_0_0_1.window j 1 : ℤ) = ((ix2 k d (1 : Fin 2)).val : ℤ) := by
      rw [sumS_start1, sumS_window1, h1]; simp
    match a with
    | ⟨0, _⟩ => exact e0
    | ⟨1, _⟩ => exact e1

end RefSeg

open RefSeg

/-- The reference's first scatter-add is the class sums: entry `(k, d)` adds feature `d` of every row labelled `k`. -/
theorem scatS_eq (X : FVec Ideal S200000x256 .f32) (L1 : IVec S200000 32) (k : Fin 1000) (d : Fin 256) :
    scatS (F := Ideal) X L1 (ix2 k d) = Cert.Spec.segSum (fun n e => X (ix2 n e)) (fun n => L1 (ix1 n)) k d := by
  unfold scatS Host.scatterAdd
  rw [Ideal.hostScatterAdd_def]
  unfold Ideal.hostScatterAdd
  rw [broadcastInDim_scalar_apply, constant_apply, Ideal.ofBits_zero_f32, zero_add]
  unfold Cert.Spec.segSum
  rw [Finset.sum_filter, sum_idx2]
  refine Finset.sum_congr rfl fun n _ => ?_
  have hl : ∀ e : Fin 256, (scatter_S1000x256_S200000x1_S200000x256_1_0_0_1.resultIdx? (ix2 n e) (labCol L1) = some (ix2 k d)) ↔
      ((L1 (ix1 n)).toInt = (k.val : ℤ) ∧ e = d) := fun e => sumS_land L1 (ix2 n e) k d
  simp only [hl]
  by_cases hk : (L1 (ix1 n)).toInt = (k.val : ℤ)
  · simp [hk]
  · simp [hk]

/-! ## The class counts -/

namespace RefSeg

/-- For the counts' scatter, the window of update `n` starts at `label n` (read signed) … -/
theorem cntS_start0 (L1 : IVec S200000 32) (j : S200000.Idx) :
    scatter_S1000_S200000x1_S200000_n_0_0_1.start j (labCol L1) 0 = (L1 (ix1 (j 0))).toInt := by
  unfold ScatterDims.start
  rw [dif_pos (show (0 : Fin 1) ∈ scatter_S1000_S200000x1_S200000_n_0_0_1.scatterDimsToOperandDims from
    List.mem_singleton.mpr rfl)]
  rw [labCol_apply]
  rfl
/-- … and it has no window coordinate. -/
theorem cntS_window0 (j : S200000.Idx) : scatter_S1000_S200000x1_S200000_n_0_0_1.window j 0 = 0 := rfl

/-- Update `n` lands on `k` exactly when row `n` is labelled `k`. -/
theorem cntS_land (L1 : IVec S200000 32) (j : S200000.Idx) (k : Fin 1000) :
    scatter_S1000_S200000x1_S200000_n_0_0_1.resultIdx? j (labCol L1) = some (ix1 k) ↔
      (L1 (ix1 (j 0))).toInt = (k.val : ℤ) := by
  rw [resultIdx?_eq_some_iff]
  constructor
  · intro h
    have h0 := h 0
    rw [cntS_start0, cntS_window0] at h0
    have : ((ix1 k (0 : Fin 1)).val : ℤ) = (k.val : ℤ) := rfl
    rw [this] at h0
    simpa using h0
  · intro h0 a
    have e0 : scatter_S1000_S200000x1_S200000_n_0_0_1.start j (labCol L1) 0
        + (scatter_S1000_S200000x1_S200000_n_0_0_1.window j 0 : ℤ) = ((ix1 k (0 : Fin 1)).val : ℤ) := by
      rw [cntS_start0, cntS_window0, h0]; simp
    match a with
    | ⟨0, _⟩ => exact e0

end RefSeg

/-- The reference's second scatter-add is the class counts: entry `k` adds a one for every row labelled `k`. -/
theorem scatC_eq (L1 : IVec S200000 32) (k : Fin 1000) :
    scatC (F := Ideal) L1 (ix1 k) = Cert.Spec.segCnt (fun n => L1 (ix1 n)) k := by
  unfold scatC Host.scatterAdd
  rw [Ideal.hostScatterAdd_def]
  unfold Ideal.hostScatterAdd
  rw [broadcastInDim_scalar_apply, constant_apply, Ideal.ofBits_zero_f32, zero_add]
  unfold Cert.Spec.segCnt
  rw [Finset.sum_filter, sum_idx1]
  refine Finset.sum_congr rfl fun n _ => ?_
  have hl : (scatter_S1000_S200000x1_S200000_n_0_0_1.resultIdx? (ix1 n) (labCol L1) = some (ix1 k)) ↔
      (L1 (ix1 n)).toInt = (k.val : ℤ) := cntS_land L1 (ix1 n) k
  simp only [hl]
  rw [broadcastInDim_scalar_apply, constant_apply, Ideal.ofBits_one_f32]

/-! ## The class means -/

/-- The class means at `(k, d)`: the sum there over the count of class `k`, the count floored at one. -/
theorem protoOf_apply (s : FVec Ideal S1000x256 .f32) (n : FVec Ideal S1000 .f32) (k : Fin 1000) (d : Fin 256) :
    protoOf (F := Ideal) s n (ix2 k d) = Ideal.div (s (ix2 k d)) (max (n (ix1 k)) Cert.Spec.oneF) := by
  unfold protoOf
  rw [hostDivf_apply]
  congr 1
  rw [broadcastInDim_apply _ _ _ (ix2 k d) (ix2 k (0 : Fin 1)) (by
    intro a
    match a with
    | ⟨0, _⟩ => rfl
    | ⟨1, _⟩ => rfl)]
  rw [broadcastInDim_apply _ _ _ (ix2 k (0 : Fin 1)) (ix1 k) (by
    intro a
    match a with
    | ⟨0, _⟩ => rfl)]
  rw [maximumf_apply, broadcastInDim_scalar_apply, constant_apply]
  rfl

end Cert.ReferenceIdeal.ValueR
end
-- ==== Proof.RefRead.lean ====
/-
  The reference program's run, read back: after its 130 operations the buffers of the two class-mean arrays, of the
  source structure matrix, of the structure loss and of the contrastive loss hold the named functions of the four
  arguments. The list is cut into eleven consecutive stretches; each stretch is read on its own over an arbitrary
  incoming valuation — what it leaves at its one new buffer of interest, and that it leaves alone the few buffers
  later stretches read — and the readings are chained.
-/
import proofs.«413966_j50491635532083_2_alg».proof.Proof.RunP
import proofs.«413966_j50491635532083_2_alg».proof.Proof.RefDefs
import Idealize.ShloMosaic.Lib.StableHlo.Run

noncomputable section

namespace Cert.ReferenceIdeal.ValueR

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

namespace RefRead

/-- A fold over two lists run one after the other is the fold over their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Operations `a, a+1, …, a+n-1` of the reference's list. -/
def seg (a n : Nat) : List (HloOp τ sig (Elt F)) := ((ops (F := F)).drop a).take n

/-- The mean squared difference of two matrices. -/
def sqLoss (a b : FVec F S1000x1000 .f32) : FVec F S_ .f32 :=
  Host.divf (Host.reduceAdd (mulf (subf a b) (subf a b)) (constant S_ .f32 0x00000000#32) reducesTo_S1000x1000_S_d0_1 h_S_)
    (constant S_ .f32 0x49742400#32)

theorem structLoss_eq_sqLoss (p q : FVec F S1000x256 .f32) : structLoss p q = sqLoss (structOf p) (structOf q) := rfl

/-- Minus the mean of a column. -/
def meanNeg (t : FVec F S200000x1 .f32) : FVec F S_ .f32 :=
  Host.negf (Host.divf (Host.reduceAdd t (constant S_ .f32 0x00000000#32) reducesTo_S200000x1_S_d0_1 h_S_) (constant S_ .f32 0x48435000#32))

set_option maxRecDepth 8192 in
/-- The list is its eleven stretches, in order. -/
theorem ops_split : (ops (F := F)) = seg 0 16 ++ (seg 16 16 ++ (seg 32 12 ++ (seg 44 12 ++ (seg 56 6 ++ (seg 62 25 ++ (seg 87 15 ++ (seg 102 8 ++ (seg 110 1 ++ (seg 111 14 ++ seg 125 5))))))))) := rfl

/-- Contents moved to a buffer's own type and back are the contents. -/
theorem ofBuf_toBuf {T : BufTy} (x : TRef sig T) (v : T.Contents (Elt F)) : x.ofBuf (x.toBuf v) = v := by
  obtain ⟨r, h, _, _⟩ := x
  subst h
  rfl

/-! A typed reference at a literal buffer whose type is the value's moves contents by the identity. -/
theorem ofBuf_v67 (h1 h2 h3) (v : main_v67.ty.Contents (Elt F)) :
    (TRef.of (T := ⟨S200000x1000, .f32⟩) main_v67 h1 h2 h3).ofBuf v = v := rfl
theorem ofBuf_v68 (h1 h2 h3) (v : main_v68.ty.Contents (Elt F)) :
    (TRef.of (T := ⟨S200000x1000, .f32⟩) main_v68 h1 h2 h3).ofBuf v = v := rfl
theorem ofBuf_v69 (h1 h2 h3) (v : main_v69.ty.Contents (Elt F)) :
    (TRef.of (T := ⟨S200000x1, .i32⟩) main_v69 h1 h2 h3).ofBuf v = v := rfl
theorem ofBuf_c1v5 (h1 h2 h3) (v : main_call1_v5.ty.Contents (Elt F)) :
    (TRef.of (T := ⟨S200000x1x1, .i32⟩) main_call1_v5 h1 h2 h3).ofBuf v = v := rfl
theorem toBuf_v68 (h1 h2 h3) (v : (⟨S200000x1000, .f32⟩ : BufTy).Contents (Elt F)) :
    (TRef.of (T := ⟨S200000x1000, .f32⟩) main_v68 h1 h2 h3).toBuf v = v := rfl
theorem toBuf_c1v4 (h1 h2 h3) (v : (⟨S200000x1, .i32⟩ : BufTy).Contents (Elt F)) :
    (TRef.of (T := ⟨S200000x1, .i32⟩) main_call1_v4 h1 h2 h3).toBuf v = v := rfl
theorem toBuf_v70 (h1 h2 h3) (v : (⟨S200000x1, .f32⟩ : BufTy).Contents (Elt F)) :
    (TRef.of (T := ⟨S200000x1, .f32⟩) main_v70 h1 h2 h3).toBuf v = v := rfl

/-- The labels with a negative one moved up by the class count, as a column. -/
def selIdx (L1 : IVec S200000 32) : IVec S200000x1 32 :=
  select (cmpi .slt (labCol L1) (broadcastInDim S200000x1 ![] bcast_S_S200000x1 (constantI S_ 32 0#32)))
    (addi (labCol L1) (broadcastInDim S200000x1 ![] bcast_S_S200000x1 (constantI S_ 32 1000#32))) (labCol L1)

/-- Which of the given gather indices are in range. -/
def okOf (idx : IVec S200000x1x1 32) : IVec S200000x1 1 :=
  Host.reduce IntOp.andi
    (andi (cmpi .sge idx (broadcastInDim S200000x1x1 ![] bcast_S_S200000x1x1 (constantI S_ 32 0#32)))
      (cmpi .sle idx (broadcastInDim S200000x1x1 ![0, 1, 2] bcast_S1x1x1_S200000x1x1_0_1_2
        (broadcastInDim S1x1x1 ![2] bcast_S1_S1x1x1_2 (constantI S1 32 999#32)))))
    (constantI S_ 1 1#1) reducesTo_S200000x1x1_S200000x1_d2 h_S_

/-- Each row's entry at the given index (the fill where the index is out of range). -/
def takeIdx (lp : FVec F S200000x1000 .f32) (idx : IVec S200000x1x1 32) : FVec F S200000x1 .f32 :=
  select (okOf idx) (Host.gather gather_S200000x1000_S200000x1x1_S200000x1_n_1_0_0_1_2_11 lp idx)
    (broadcastInDim S200000x1 ![] bcast_S_S200000x1 (constant S_ .f32 0x7FC00000#32))

theorem refLossOf_eq (X : FVec F S200000x256 .f32) (L1 : IVec S200000 32) (p : FVec F S1000x256 .f32) :
    refLossOf X L1 p = meanNeg (takeIdx (logSoftmax (logitsOf X p))
      (shapeCast S200000x1x1 (selIdx L1) shapeCasts_S200000x1_S200000x1x1)) := rfl

set_option maxRecDepth 8192 in
/-- The first sixteen operations leave the source class means, and do not touch the four arguments. -/
theorem stage1 (W : Valuation τ sig (Elt F)) :
    after (seg (F := F) 0 16) W (Proc.devRef .tc main_v11) = protoOf (scatS (W (Proc.devRef .tc main_arg0)) (W (Proc.devRef .tc main_arg1))) (scatC (W (Proc.devRef .tc main_arg1)))
    ∧ after (seg (F := F) 0 16) W (Proc.devRef .tc main_arg0) = W (Proc.devRef .tc main_arg0)
    ∧ after (seg (F := F) 0 16) W (Proc.devRef .tc main_arg1) = W (Proc.devRef .tc main_arg1)
    ∧ after (seg (F := F) 0 16) W (Proc.devRef .tc main_arg2) = W (Proc.devRef .tc main_arg2)
    ∧ after (seg (F := F) 0 16) W (Proc.devRef .tc main_arg3) = W (Proc.devRef .tc main_arg3) := by
  simp only [seg, ops, List.drop_succ_cons, List.drop_zero, List.take_succ_cons, List.take_zero]
  refine ⟨?_, ?_, ?_, ?_, ?_⟩ <;> after_results_simp <;> (try simp only [ofBuf_toBuf]) <;> (try simp only [ofBuf_v67, ofBuf_v68, ofBuf_v69, ofBuf_c1v5, toBuf_v68, toBuf_c1v4, toBuf_v70]) <;> rfl

set_option maxRecDepth 8192 in
/-- The next sixteen leave the target class means. -/
theorem stage2 (W : Valuation τ sig (Elt F)) :
    after (seg (F := F) 16 16) W (Proc.devRef .tc main_v23) = protoOf (scatS (W (Proc.devRef .tc main_arg2)) (W (Proc.devRef .tc main_arg3))) (scatC (W (Proc.devRef .tc main_arg3)))
    ∧ after (seg (F := F) 16 16) W (Proc.devRef .tc main_v11) = W (Proc.devRef .tc main_v11)
    ∧ after (seg (F := F) 16 16) W (Proc.devRef .tc main_arg0) = W (Proc.devRef .tc main_arg0)
    ∧ after (seg (F := F) 16 16) W (Proc.devRef .tc main_arg1) = W (Proc.devRef .tc main_arg1) := by
  simp only [seg, ops, List.drop_succ_cons, List.drop_zero, List.take_succ_cons, List.take_zero]
  refine ⟨?_, ?_, ?_, ?_⟩ <;> after_results_simp <;> (try simp only [ofBuf_toBuf]) <;> (try simp only [ofBuf_v67, ofBuf_v68, ofBuf_v69, ofBuf_c1v5, toBuf_v68, toBuf_c1v4, toBuf_v70]) <;> rfl

set_option maxRecDepth 8192 in
/-- The next twelve leave the source classes' cosine matrix. -/
theorem stage3 (W : Valuation τ sig (Elt F)) :
    after (seg (F := F) 32 12) W (Proc.devRef .tc main_v33) = structOf (W (Proc.devRef .tc main_v11))
    ∧ after (seg (F := F) 32 12) W (Proc.devRef .tc main_v11) = W (Proc.devRef .tc main_v11)
    ∧ after (seg (F := F) 32 12) W (Proc.devRef .tc main_v23) = W (Proc.devRef .tc main_v23)
    ∧ after (seg (F := F) 32 12) W (Proc.devRef .tc main_arg0) = W (Proc.devRef .tc main_arg0)
    ∧ after (seg (F := F) 32 12) W (Proc.devRef .tc main_arg1) = W (Proc.devRef .tc main_arg1) := by
  simp only [seg, ops, List.drop_succ_cons, List.drop_zero, List.take_succ_cons, List.take_zero]
  refine ⟨?_, ?_, ?_, ?_, ?_⟩ <;> after_results_simp <;> (try simp only [ofBuf_toBuf]) <;> (try simp only [ofBuf_v67, ofBuf_v68, ofBuf_v69, ofBuf_c1v5, toBuf_v68, toBuf_c1v4, toBuf_v70]) <;> rfl

set_option maxRecDepth 8192 in
/-- The next twelve leave the target classes' cosine matrix. -/
theorem stage4 (W : Valuation τ sig (Elt F)) :
    after (seg (F := F) 44 12) W (Proc.devRef .tc main_v43) = structOf (W (Proc.devRef .tc main_v23))
    ∧ after (seg (F := F) 44 12) W (Proc.devRef .tc main_v11) = W (Proc.devRef .tc main_v11)
    ∧ after (seg (F := F) 44 12) W (Proc.devRef .tc main_v23) = W (Proc.devRef .tc main_v23)
    ∧ after (seg (F := F) 44 12) W (Proc.devRef .tc main_v33) = W (Proc.devRef .tc main_v33)
    ∧ after (seg (F := F) 44 12) W (Proc.devRef .tc main_arg0) = W (Proc.devRef .tc main_arg0)
    ∧ after (seg (F := F) 44 12) W (Proc.devRef .tc main_arg1) = W (Proc.devRef .tc main_arg1) := by
  simp only [seg, ops, List.drop_succ_cons, List.drop_zero, List.take_succ_cons, List.take_zero]
  refine ⟨?_, ?_, ?_, ?_, ?_, ?_⟩ <;> after_results_simp <;> (try simp only [ofBuf_toBuf]) <;> (try simp only [ofBuf_v67, ofBuf_v68, ofBuf_v69, ofBuf_c1v5, toBuf_v68, toBuf_c1v4, toBuf_v70]) <;> rfl

set_option maxRecDepth 8192 in
/-- The next six leave the mean squared difference of the two cosine matrices. -/
theorem stage5 (W : Valuation τ sig (Elt F)) :
    after (seg (F := F) 56 6) W (Proc.devRef .tc main_v47) = sqLoss (W (Proc.devRef .tc main_v33)) (W (Proc.devRef .tc main_v43))
    ∧ after (seg (F := F) 56 6) W (Proc.devRef .tc main_v11) = W (Proc.devRef .tc main_v11)
    ∧ after (seg (F := F) 56 6) W (Proc.devRef .tc main_v23) = W (Proc.devRef .tc main_v23)
    ∧ after (seg (F := F) 56 6) W (Proc.devRef .tc main_v33) = W (Proc.devRef .tc main_v33)
    ∧ after (seg (F := F) 56 6) W (Proc.devRef .tc main_arg0) = W (Proc.devRef .tc main_arg0)
    ∧ after (seg (F := F) 56 6) W (Proc.devRef .tc main_arg1) = W (Proc.devRef .tc main_arg1) := by
  simp only [seg, ops, List.drop_succ_cons, List.drop_zero, List.take_succ_cons, List.take_zero]
  refine ⟨?_, ?_, ?_, ?_, ?_, ?_⟩ <;> after_results_simp <;> (try simp only [ofBuf_toBuf]) <;> (try simp only [ofBuf_v67, ofBuf_v68, ofBuf_v69, ofBuf_c1v5, toBuf_v68, toBuf_c1v4, toBuf_v70]) <;> rfl

set_option maxRecDepth 8192 in
/-- The next twenty-five leave the logits: unit feature rows against unit class rows, over the temperature. -/
theorem stage6 (W : Valuation τ sig (Elt F)) :
    after (seg (F := F) 62 25) W (Proc.devRef .tc main_v67) = logitsOf (W (Proc.devRef .tc main_arg0)) (W (Proc.devRef .tc main_v11))
    ∧ after (seg (F := F) 62 25) W (Proc.devRef .tc main_v11) = W (Proc.devRef .tc main_v11)
    ∧ after (seg (F := F) 62 25) W (Proc.devRef .tc main_v23) = W (Proc.devRef .tc main_v23)
    ∧ after (seg (F := F) 62 25) W (Proc.devRef .tc main_v33) = W (Proc.devRef .tc main_v33)
    ∧ after (seg (F := F) 62 25) W (Proc.devRef .tc main_v47) = W (Proc.devRef .tc main_v47)
    ∧ after (seg (F := F) 62 25) W (Proc.devRef .tc main_arg1) = W (Proc.devRef .tc main_arg1) := by
  simp only [seg, ops, List.drop_succ_cons, List.drop_zero, List.take_succ_cons, List.take_zero]
  refine ⟨?_, ?_, ?_, ?_, ?_, ?_⟩ <;> after_results_simp <;> (try simp only [ofBuf_toBuf]) <;> (try simp only [ofBuf_v67, ofBuf_v68, ofBuf_v69, ofBuf_c1v5, toBuf_v68, toBuf_c1v4, toBuf_v70]) <;> rfl

set_option maxRecDepth 8192 in
/-- The next fifteen (the log-softmax's body) leave the log-probabilities. -/
theorem stage7 (W : Valuation τ sig (Elt F)) :
    after (seg (F := F) 87 15) W (Proc.devRef .tc main_v68) = logSoftmax (W (Proc.devRef .tc main_v67))
    ∧ after (seg (F := F) 87 15) W (Proc.devRef .tc main_v11) = W (Proc.devRef .tc main_v11)
    ∧ after (seg (F := F) 87 15) W (Proc.devRef .tc main_v23) = W (Proc.devRef .tc main_v23)
    ∧ after (seg (F := F) 87 15) W (Proc.devRef .tc main_v33) = W (Proc.devRef .tc main_v33)
    ∧ after (seg (F := F) 87 15) W (Proc.devRef .tc main_v47) = W (Proc.devRef .tc main_v47)
    ∧ after (seg (F := F) 87 15) W (Proc.devRef .tc main_arg1) = W (Proc.devRef .tc main_arg1) := by
  simp only [seg, ops, List.drop_succ_cons, List.drop_zero, List.take_succ_cons, List.take_zero]
  refine ⟨?_, ?_, ?_, ?_, ?_, ?_⟩ <;> after_results_simp <;> (try simp only [ofBuf_toBuf]) <;> (try simp only [ofBuf_v67, ofBuf_v68, ofBuf_v69, ofBuf_c1v5, toBuf_v68, toBuf_c1v4, toBuf_v70]) <;> rfl

set_option maxRecDepth 8192 in
/-- The next eight leave the labels, a negative one moved up by the class count, as a column. -/
theorem stage8a (W : Valuation τ sig (Elt F)) :
    after (seg (F := F) 102 8) W (Proc.devRef .tc main_call1_v4) = selIdx (W (Proc.devRef .tc main_arg1))
    ∧ after (seg (F := F) 102 8) W (Proc.devRef .tc main_v11) = W (Proc.devRef .tc main_v11)
    ∧ after (seg (F := F) 102 8) W (Proc.devRef .tc main_v23) = W (Proc.devRef .tc main_v23)
    ∧ after (seg (F := F) 102 8) W (Proc.devRef .tc main_v33) = W (Proc.devRef .tc main_v33)
    ∧ after (seg (F := F) 102 8) W (Proc.devRef .tc main_v47) = W (Proc.devRef .tc main_v47)
    ∧ after (seg (F := F) 102 8) W (Proc.devRef .tc main_v68) = W (Proc.devRef .tc main_v68) := by
  simp only [seg, ops, List.drop_succ_cons, List.drop_zero, List.take_succ_cons, List.take_zero]
  refine ⟨?_, ?_, ?_, ?_, ?_, ?_⟩ <;> after_results_simp <;> (try simp only [ofBuf_toBuf]) <;> (try simp only [ofBuf_v67, ofBuf_v68, ofBuf_v69, ofBuf_c1v5, toBuf_v68, toBuf_c1v4, toBuf_v70]) <;> rfl

set_option maxRecDepth 8192 in
/-- The reshape lays that column out as the gather's indices. -/
theorem stage8b (W : Valuation τ sig (Elt F)) :
    after (seg (F := F) 110 1) W (Proc.devRef .tc main_call1_v5) = shapeCast S200000x1x1 (W (Proc.devRef .tc main_call1_v4)) shapeCasts_S200000x1_S200000x1x1
    ∧ after (seg (F := F) 110 1) W (Proc.devRef .tc main_v11) = W (Proc.devRef .tc main_v11)
    ∧ after (seg (F := F) 110 1) W (Proc.devRef .tc main_v23) = W (Proc.devRef .tc main_v23)
    ∧ after (seg (F := F) 110 1) W (Proc.devRef .tc main_v33) = W (Proc.devRef .tc main_v33)
    ∧ after (seg (F := F) 110 1) W (Proc.devRef .tc main_v47) = W (Proc.devRef .tc main_v47)
    ∧ after (seg (F := F) 110 1) W (Proc.devRef .tc main_v68) = W (Proc.devRef .tc main_v68) := by
  simp only [seg, ops, List.drop_succ_cons, List.drop_zero, List.take_succ_cons, List.take_zero]
  refine ⟨?_, ?_, ?_, ?_, ?_, ?_⟩ <;> after_results_simp
  funext i
  rfl

set_option maxRecDepth 8192 in
/-- The next fourteen leave each row's log-probability at its index (the fill where the index is out of range). -/
theorem stage8c (W : Valuation τ sig (Elt F)) :
    after (seg (F := F) 111 14) W (Proc.devRef .tc main_v70) = takeIdx (W (Proc.devRef .tc main_v68)) (W (Proc.devRef .tc main_call1_v5))
    ∧ after (seg (F := F) 111 14) W (Proc.devRef .tc main_v11) = W (Proc.devRef .tc main_v11)
    ∧ after (seg (F := F) 111 14) W (Proc.devRef .tc main_v23) = W (Proc.devRef .tc main_v23)
    ∧ after (seg (F := F) 111 14) W (Proc.devRef .tc main_v33) = W (Proc.devRef .tc main_v33)
    ∧ after (seg (F := F) 111 14) W (Proc.devRef .tc main_v47) = W (Proc.devRef .tc main_v47) := by
  simp only [seg, ops, List.drop_succ_cons, List.drop_zero, List.take_succ_cons, List.take_zero]
  refine ⟨?_, ?_, ?_, ?_, ?_⟩ <;> after_results_simp <;> (try simp only [ofBuf_toBuf]) <;> (try simp only [ofBuf_v67, ofBuf_v68, ofBuf_v69, ofBuf_c1v5, toBuf_v68, toBuf_c1v4, toBuf_v70]) <;> rfl

set_option maxRecDepth 8192 in
/-- The last five leave minus the mean. -/
theorem stage9 (W : Valuation τ sig (Elt F)) :
    after (seg (F := F) 125 5) W (Proc.devRef .tc main_v73) = meanNeg (W (Proc.devRef .tc main_v70))
    ∧ after (seg (F := F) 125 5) W (Proc.devRef .tc main_v11) = W (Proc.devRef .tc main_v11)
    ∧ after (seg (F := F) 125 5) W (Proc.devRef .tc main_v23) = W (Proc.devRef .tc main_v23)
    ∧ after (seg (F := F) 125 5) W (Proc.devRef .tc main_v33) = W (Proc.devRef .tc main_v33)
    ∧ after (seg (F := F) 125 5) W (Proc.devRef .tc main_v47) = W (Proc.devRef .tc main_v47) := by
  simp only [seg, ops, List.drop_succ_cons, List.drop_zero, List.take_succ_cons, List.take_zero]
  refine ⟨?_, ?_, ?_, ?_, ?_⟩ <;> after_results_simp <;> (try simp only [ofBuf_toBuf]) <;> (try simp only [ofBuf_v67, ofBuf_v68, ofBuf_v69, ofBuf_c1v5, toBuf_v68, toBuf_c1v4, toBuf_v70]) <;> rfl

/-! ## The five values, read through the stretches -/

/-- The source class means, as the whole list leaves them. -/
theorem read_v11 (V : Valuation τ sig (Elt F)) :
    after (ops (F := F)) V (Proc.devRef .tc main_v11) = (protoOf (scatS (V (Proc.devRef .tc main_arg0)) (V (Proc.devRef .tc main_arg1))) (scatC (V (Proc.devRef .tc main_arg1)))) := by
  rw [ops_split]; simp only [after_app]
  rw [(stage9 _).2.1,
    (stage8c _).2.1,
    (stage8b _).2.1,
    (stage8a _).2.1,
    (stage7 _).2.1,
    (stage6 _).2.1,
    (stage5 _).2.1,
    (stage4 _).2.1,
    (stage3 _).2.1,
    (stage2 _).2.1,
    (stage1 _).1]

/-- The target class means. -/
theorem read_v23 (V : Valuation τ sig (Elt F)) :
    after (ops (F := F)) V (Proc.devRef .tc main_v23) = (protoOf (scatS (V (Proc.devRef .tc main_arg2)) (V (Proc.devRef .tc main_arg3))) (scatC (V (Proc.devRef .tc main_arg3)))) := by
  rw [ops_split]; simp only [after_app]
  rw [(stage9 _).2.2.1,
    (stage8c _).2.2.1,
    (stage8b _).2.2.1,
    (stage8a _).2.2.1,
    (stage7 _).2.2.1,
    (stage6 _).2.2.1,
    (stage5 _).2.2.1,
    (stage4 _).2.2.1,
    (stage3 _).2.2.1,
    (stage2 _).1,
    (stage1 _).2.2.2.1,
    (stage1 _).2.2.2.2]

/-- The source classes' cosine matrix. -/
theorem read_v33 (V : Valuation τ sig (Elt F)) :
    after (ops (F := F)) V (Proc.devRef .tc main_v33) = structOf (protoOf (scatS (V (Proc.devRef .tc main_arg0)) (V (Proc.devRef .tc main_arg1))) (scatC (V (Proc.devRef .tc main_arg1)))) := by
  rw [ops_split]; simp only [after_app]
  rw [(stage9 _).2.2.2.1,
    (stage8c _).2.2.2.1,
    (stage8b _).2.2.2.1,
    (stage8a _).2.2.2.1,
    (stage7 _).2.2.2.1,
    (stage6 _).2.2.2.1,
    (stage5 _).2.2.2.1,
    (stage4 _).2.2.2.1,
    (stage3 _).1,
    (stage2 _).2.1,
    (stage1 _).1]

/-- The structure loss. -/
theorem read_v47 (V : Valuation τ sig (Elt F)) :
    after (ops (F := F)) V (Proc.devRef .tc main_v47) = structLoss (protoOf (scatS (V (Proc.devRef .tc main_arg0)) (V (Proc.devRef .tc main_arg1))) (scatC (V (Proc.devRef .tc main_arg1)))) (protoOf (scatS (V (Proc.devRef .tc main_arg2)) (V (Proc.devRef .tc main_arg3))) (scatC (V (Proc.devRef .tc main_arg3)))) := by
  rw [ops_split]; simp only [after_app]
  rw [(stage9 _).2.2.2.2,
    (stage8c _).2.2.2.2,
    (stage8b _).2.2.2.2.1,
    (stage8a _).2.2.2.2.1,
    (stage7 _).2.2.2.2.1,
    (stage6 _).2.2.2.2.1,
    (stage5 _).1,
    (stage4 _).2.2.2.1,
    (stage4 _).1,
    (stage3 _).1,
    (stage3 _).2.2.1,
    (stage2 _).2.1,
    (stage2 _).1,
    (stage1 _).1,
    (stage1 _).2.2.2.1,
    (stage1 _).2.2.2.2]
  exact (structLoss_eq_sqLoss _ _).symm

/-- The contrastive loss. -/
theorem read_v73 (V : Valuation τ sig (Elt F)) :
    after (ops (F := F)) V (Proc.devRef .tc main_v73) = refLossOf (V (Proc.devRef .tc main_arg0)) (V (Proc.devRef .tc main_arg1)) (protoOf (scatS (V (Proc.devRef .tc main_arg0)) (V (Proc.devRef .tc main_arg1))) (scatC (V (Proc.devRef .tc main_arg1)))) := by
  rw [ops_split]; simp only [after_app]
  rw [(stage9 _).1,
    (stage8c _).1,
    (stage8b _).1,
    (stage8b _).2.2.2.2.2,
    (stage8a _).1,
    (stage8a _).2.2.2.2.2,
    (stage7 _).1,
    (stage7 _).2.2.2.2.2,
    (stage6 _).1,
    (stage6 _).2.2.2.2.2,
    (stage5 _).2.2.2.2.1,
    (stage5 _).2.1,
    (stage5 _).2.2.2.2.2,
    (stage4 _).2.2.2.2.1,
    (stage4 _).2.1,
    (stage4 _).2.2.2.2.2,
    (stage3 _).2.2.2.1,
    (stage3 _).2.1,
    (stage3 _).2.2.2.2,
    (stage2 _).2.2.1,
    (stage2 _).2.1,
    (stage2 _).2.2.2,
    (stage1 _).2.1,
    (stage1 _).1,
    (stage1 _).2.2.1]
  exact (refLossOf_eq _ _ _).symm

end RefRead

open RefRead

/-! ## The same, at a device's launch contents -/

variable (m : (ℓ : Loc nD τ sig) → Buf (Elt F) ℓ) (c : Dev nD)

/-- After the reference's run the source class means' buffer holds the class means of the source pair. -/
theorem ref_v11 : StableHlo.after (ops (F := F)) (fun b => m (c, b)) (Proc.devRef .tc main_v11) = (protoOf (scatS (m ((c.tc : Thread nD τ).loc main_arg0)) (m ((c.tc : Thread nD τ).loc main_arg1))) (scatC (m ((c.tc : Thread nD τ).loc main_arg1)))) :=
  read_v11 (fun b => m (c, b))

/-- The target class means' buffer holds the class means of the target pair. -/
theorem ref_v23 : StableHlo.after (ops (F := F)) (fun b => m (c, b)) (Proc.devRef .tc main_v23) = (protoOf (scatS (m ((c.tc : Thread nD τ).loc main_arg2)) (m ((c.tc : Thread nD τ).loc main_arg3))) (scatC (m ((c.tc : Thread nD τ).loc main_arg3)))) :=
  read_v23 (fun b => m (c, b))

/-- The structure matrix's buffer holds the source class means' cosine matrix. -/
theorem ref_v33 : StableHlo.after (ops (F := F)) (fun b => m (c, b)) (Proc.devRef .tc main_v33) = structOf (protoOf (scatS (m ((c.tc : Thread nD τ).loc main_arg0)) (m ((c.tc : Thread nD τ).loc main_arg1))) (scatC (m ((c.tc : Thread nD τ).loc main_arg1)))) :=
  read_v33 (fun b => m (c, b))

/-- The structure loss's buffer holds the mean squared difference of the two pairs' cosine matrices. -/
theorem ref_v47 : StableHlo.after (ops (F := F)) (fun b => m (c, b)) (Proc.devRef .tc main_v47) = structLoss (protoOf (scatS (m ((c.tc : Thread nD τ).loc main_arg0)) (m ((c.tc : Thread nD τ).loc main_arg1))) (scatC (m ((c.tc : Thread nD τ).loc main_arg1)))) (protoOf (scatS (m ((c.tc : Thread nD τ).loc main_arg2)) (m ((c.tc : Thread nD τ).loc main_arg3))) (scatC (m ((c.tc : Thread nD τ).loc main_arg3)))) :=
  read_v47 (fun b => m (c, b))

/-- The contrastive loss's buffer holds minus the mean labelled log-probability of the source rows against the source class means. -/
theorem ref_v73 : StableHlo.after (ops (F := F)) (fun b => m (c, b)) (Proc.devRef .tc main_v73) = refLossOf (m ((c.tc : Thread nD τ).loc main_arg0)) (m ((c.tc : Thread nD τ).loc main_arg1)) (protoOf (scatS (m ((c.tc : Thread nD τ).loc main_arg0)) (m ((c.tc : Thread nD τ).loc main_arg1))) (scatC (m ((c.tc : Thread nD τ).loc main_arg1)))) :=
  read_v73 (fun b => m (c, b))

end Cert.ReferenceIdeal.ValueR
end
-- ==== Proof.ConRow.lean ====
/-
  One row of the contrastive loss, over the extended reals.

  A block of 2000 feature rows x and the 1024 class rows Pn (rows 0 … 999 the unit class rows, 24 padded rows after
  them) give, at (r, k), the masked logit: row r over its floored length, dotted with class row k, times the
  reciprocal temperature, for k < 1000; and ⊥ for the 24 padded lanes. From the masked logits come the row's
  log-sum-exp  M + log Σ_k exp (l_k − M),  M the greatest of them, and the label-selected logits. This file reads each
  of the three at an index and shows that a row's log-sum-exp minus the sum of its label-selected logits is the row
  loss of the 1000 class logits: the padded lanes change neither the maximum nor the sum of exponentials, and a label
  in 0 … 999 never selects one of them.
-/
import proofs.«413966_j50491635532083_2_alg».proof.Proof.KDefs
import proofs.«413966_j50491635532083_2_alg».proof.Proof.Spec
import Idealize.ShloMosaic.PureOps.Ideal.Laws
import Idealize.ShloMosaic.PureOps.IdealRules
import Idealize.ShloMosaic.Lib.ValueIdx
import Idealize.ShloMosaic.Lib.Pipeline.Value
import Idealize.ShloMosaic.Lib.ValueLayout

noncomputable section

namespace Cert.KernelIdeal.ValueK

open Cert.KernelIdeal Cert.KernelIdeal.Gen Idealize.ShloMosaic Idealize.ShloMosaic.ValueIdx

namespace ConRow

/-! ## Reductions along the lanes and the column layouts, read at an index -/
/-- The sum over a row's 256 lanes, read at the row. -/
theorem laneSum256_apply (v : FVec Ideal S2000x256 .f32) (r : Fin 2000) :
    multiReduction (F := Ideal) .add [1] S2000 v 0x00000000#32 reduces_S2000x256_S2000 (.inl rfl) rfl (ix1 r)
      = ∑ e : Fin 256, v (ix2 r e) := by
  refine (Ideal.multiReduction_add_single v 0x00000000#32 reduces_S2000x256_S2000 (.inl rfl) rfl (ix1 r)).trans ?_
  refine Finset.sum_congr rfl fun e _ => ?_
  exact congrArg v (funext fun a => Fin.ext (by match a with | ⟨0, _⟩ => rfl | ⟨1, _⟩ => rfl))

/-- The sum over a row's 1024 lanes, read at the row. -/
theorem laneSum1024_apply (v : FVec Ideal S2000x1024 .f32) (r : Fin 2000) :
    multiReduction (F := Ideal) .add [1] S2000 v 0x00000000#32 reduces_S2000x1024_S2000 (.inl rfl) rfl (ix1 r)
      = ∑ k : Fin 1024, v (ix2 r k) := by
  refine (Ideal.multiReduction_add_single v 0x00000000#32 reduces_S2000x1024_S2000 (.inl rfl) rfl (ix1 r)).trans ?_
  refine Finset.sum_congr rfl fun e _ => ?_
  exact congrArg v (funext fun a => Fin.ext (by match a with | ⟨0, _⟩ => rfl | ⟨1, _⟩ => rfl))

/-- The greatest of a row's 1024 lanes, read at the row: the supremum of the lanes. -/
theorem laneMax1024_apply (v : FVec Ideal S2000x1024 .f32) (r : Fin 2000) :
    multiReduction (F := Ideal) .maximumf [1] S2000 v 0xFF800000#32 reduces_S2000x1024_S2000 (.inl rfl) rfl (ix1 r)
      = Finset.univ.sup fun k : Fin 1024 => v (ix2 r k) := by
  refine (Ideal.multiReduction_maximumf_single v 0xFF800000#32 reduces_S2000x1024_S2000 (.inl rfl) rfl (ix1 r)).trans ?_
  have hb : (FloatOps.ofBits (F := Ideal) .f32 0xFF800000#32 : EReal) = ⊥ := by
    simp [Ideal.ofBits, Ideal.ieee]
  rw [hb]
  have hf : (v ∘ reduces_S2000x1024_S2000.lift (ix1 r)) = fun k : Fin 1024 => v (ix2 r k) := by
    funext k
    exact congrArg v (funext fun a => Fin.ext (by match a with | ⟨0, _⟩ => rfl | ⟨1, _⟩ => rfl))
  rw [hf]
  rfl

/-- A vector cast to a column reads, at row r, the vector's entry r. -/
theorem colCast_apply {α : Type} (v : S2000.Idx → α) (r : Fin 2000) (u : Fin 1) :
    shapeCast S2000x1 v shapeCasts_S2000_S2000x1 (ix2 r u) = v (ix1 r) :=
  shapeCast_apply v _ _ _ (by
    have hu : u.val = 0 := by omega
    rw [Shape.rowMajor_val_two, Shape.rowMajor_val_one]
    show r.val = r.val * 1 + u.val
    omega)

/-- A column laid along 256 lanes reads, at (r, e), the column's entry r. -/
theorem colBcast256_apply {α : Type} (v : S2000x1.Idx → α) (r : Fin 2000) (e : Fin 256) :
    broadcastTo S2000x256 v broadcasts_S2000x1_S2000x256 (ix2 r e) = v (ix2 r (0 : Fin 1)) :=
  broadcastTo_apply v _ _ _ fun a => by
    match a with
    | ⟨0, _⟩ => rfl
    | ⟨1, _⟩ => rfl

/-- A column laid along 1024 lanes reads, at (r, k), the column's entry r. -/
theorem colBcast1024_apply {α : Type} (v : S2000x1.Idx → α) (r : Fin 2000) (k : Fin 1024) :
    broadcastTo S2000x1024 v broadcasts_S2000x1_S2000x1024 (ix2 r k) = v (ix2 r (0 : Fin 1)) :=
  broadcastTo_apply v _ _ _ fun a => by
    match a with
    | ⟨0, _⟩ => rfl
    | ⟨1, _⟩ => rfl

/-! ## The row times class-row product, read at an index -/

/-- The row operand's index at output (r, k) and feature e: its row is r … -/
theorem lhs_con_0 (i : S2000x1024.Idx) (q : dot_S2000x256_S1024x256_S2000x1024_1_1_0_0_n_n.contr.Idx) :
    (dot_S2000x256_S1024x256_S2000x1024_1_1_0_0_n_n.lhsIdx i q 0).val = (i 0).val := by
  unfold DotDims.lhsIdx
  rw [dif_neg (show ¬(0 : Fin S2000x256.rank) ∈ dot_S2000x256_S1024x256_S2000x1024_1_1_0_0_n_n.lhsBatch by decide), dif_pos (show (0 : Fin S2000x256.rank) ∈ dot_S2000x256_S1024x256_S2000x1024_1_1_0_0_n_n.lhsNonContracting by decide)]
  rfl
/-- … and its lane is e. -/
theorem lhs_con_1 (i : S2000x1024.Idx) (q : dot_S2000x256_S1024x256_S2000x1024_1_1_0_0_n_n.contr.Idx) :
    (dot_S2000x256_S1024x256_S2000x1024_1_1_0_0_n_n.lhsIdx i q 1).val = (q ⟨0, by decide⟩).val :=
  dot_S2000x256_S1024x256_S2000x1024_1_1_0_0_n_n.lhsIdx_val_of_single rfl i q
/-- The class operand's index at output (r, k) and feature e: its row is k … -/
theorem rhs_con_0 (i : S2000x1024.Idx) (q : dot_S2000x256_S1024x256_S2000x1024_1_1_0_0_n_n.contr.Idx) :
    (dot_S2000x256_S1024x256_S2000x1024_1_1_0_0_n_n.rhsIdx i q 0).val = (i 1).val := by
  unfold DotDims.rhsIdx
  rw [dif_neg (show ¬(0 : Fin S1024x256.rank) ∈ dot_S2000x256_S1024x256_S2000x1024_1_1_0_0_n_n.rhsBatch by decide), dif_pos (show (0 : Fin S1024x256.rank) ∈ dot_S2000x256_S1024x256_S2000x1024_1_1_0_0_n_n.rhsNonContracting by decide)]
  rfl
/-- … and its lane is e. -/
theorem rhs_con_1 (i : S2000x1024.Idx) (q : dot_S2000x256_S1024x256_S2000x1024_1_1_0_0_n_n.contr.Idx) :
    (dot_S2000x256_S1024x256_S2000x1024_1_1_0_0_n_n.rhsIdx i q 1).val = (q ⟨0, by decide⟩).val :=
  dot_S2000x256_S1024x256_S2000x1024_1_1_0_0_n_n.rhsIdx_val_of_single rfl i q

/-- The product of the rows with the class rows, contracting the 256 features of both, into a zero
    accumulator: entry (r, k) is the sum over the features of row r's entry times class row k's entry. -/
theorem rowsDot_apply {φ₁ φ₂ : FTy} (A : FVec Ideal S2000x256 φ₁) (B : FVec Ideal S1024x256 φ₂) (r : Fin 2000) (k : Fin 1024) :
    matmul dot_S2000x256_S1024x256_S2000x1024_1_1_0_0_n_n none A B (constant (F := Ideal) S2000x1024 .f32 0x00000000#32) (ix2 r k)
      = ∑ e : Fin 256, A (ix2 r e) * B (ix2 k e) := by
  simp only [matmul]
  rw [Ideal.matmul_constant_zero_apply, ← Equiv.sum_comp (ValueIdx.contrEquiv1 dot_S2000x256_S1024x256_S2000x1024_1_1_0_0_n_n 256 rfl rfl).symm]
  refine Finset.sum_congr rfl fun e _ => ?_
  have he := ValueIdx.contrEquiv1_symm_val dot_S2000x256_S1024x256_S2000x1024_1_1_0_0_n_n 256 rfl rfl e
  have el : dot_S2000x256_S1024x256_S2000x1024_1_1_0_0_n_n.lhsIdx (ix2 r k) ((ValueIdx.contrEquiv1 dot_S2000x256_S1024x256_S2000x1024_1_1_0_0_n_n 256 rfl rfl).symm e) = ix2 r e := funext fun a => Fin.ext (by
    match a with
    | ⟨0, _⟩ => exact lhs_con_0 _ _
    | ⟨1, _⟩ => exact (lhs_con_1 _ _).trans he)
  have er : dot_S2000x256_S1024x256_S2000x1024_1_1_0_0_n_n.rhsIdx (ix2 r k) ((ValueIdx.contrEquiv1 dot_S2000x256_S1024x256_S2000x1024_1_1_0_0_n_n 256 rfl rfl).symm e) = ix2 k e := funext fun a => Fin.ext (by
    match a with
    | ⟨0, _⟩ => exact rhs_con_0 _ _
    | ⟨1, _⟩ => exact (rhs_con_1 _ _).trans he)
  rw [el, er]

/-! ## The two named constants -/

/-- The reciprocal temperature is the rational the table gives it. -/
theorem invT_named : Named.named (F := Ideal) Cert.KernelIdeal.κ "inv_temperature" (φ := .f32) 0x41649249#32 = Cert.Spec.invT :=
  IdealRules.named_const.ideal_named_scalar _ _ _ _ rfl

/-- The fill of the padded lanes is the least extended real. -/
theorem negFill_named : Named.named (F := Ideal) Cert.KernelIdeal.κ "neg_fill" (φ := .f32) 0xFF333332#32 = (⊥ : EReal) :=
  IdealRules.named_const.ideal_named_scalar _ _ _ _ rfl

/-! ## A row over its floored length -/

/-- The kernel's row normalisation, read at (r, e): row r's entry e over the row's floored length. -/
theorem rowUnit_apply (x : Vec Ideal S2000x256 .f32) (r : Fin 2000) (e : Fin 256) :
    divf x (broadcastTo S2000x256
        (maximumf (sqrt (shapeCast S2000x1 (multiReduction (F := Ideal) .add [1] S2000 (mulf x x) 0x00000000#32 reduces_S2000x256_S2000 (.inl rfl) rfl) shapeCasts_S2000_S2000x1))
          (broadcast S2000x1 (Scalar.ofBits (F := Ideal) .f32 0x2B8CBCCC#32)))
        broadcasts_S2000x1_S2000x256) (ix2 r e)
      = Cert.Spec.unit (fun d => x (ix2 r d)) e := by
  rw [divf_apply, colBcast256_apply, maximumf_apply]
  show Ideal.div (x (ix2 r e)) (max (Ideal.sqrt (shapeCast S2000x1 _ shapeCasts_S2000_S2000x1 (ix2 r (0 : Fin 1)))) _) = _
  rw [colCast_apply]
  refine congrArg (fun s => Ideal.div (x (ix2 r e)) (max (Ideal.sqrt s) _)) ?_
  exact laneSum256_apply (mulf x x) r

/-! ## 1024 lanes of which the last 24 are idle -/

/-- A sum over 1024 lanes that are zero from lane 1000 on is the sum over the first 1000. -/
theorem sum_lanes (f : Fin 1024 → EReal) (hf : ∀ k : Fin 1024, 1000 ≤ k.val → f k = 0) :
    ∑ k : Fin 1024, f k = ∑ k : Fin 1000, f (Fin.castLE (by decide) k) := by
  have h := Fin.sum_univ_add (M := EReal) (a := 1000) (b := 24) (f := (f : Fin (1000 + 24) → EReal))
  have h2 : ∑ i : Fin 24, f (Fin.natAdd 1000 i) = 0 :=
    Finset.sum_eq_zero fun i _ => hf _ (by show 1000 ≤ 1000 + i.val; omega)
  rw [h2, add_zero] at h
  exact h.trans (Finset.sum_congr rfl fun k _ => rfl)

/-- A supremum over 1024 lanes that hold ⊥ from lane 1000 on is the supremum over the first 1000. -/
theorem sup_lanes (f : Fin 1024 → EReal) (hf : ∀ k : Fin 1024, 1000 ≤ k.val → f k = ⊥) :
    Finset.univ.sup f = Finset.univ.sup fun k : Fin 1000 => f (Fin.castLE (by decide) k) := by
  apply le_antisymm
  · refine Finset.sup_le fun k _ => ?_
    by_cases hk : k.val < 1000
    · exact Finset.le_sup (f := fun k : Fin 1000 => f (Fin.castLE (by decide) k)) (Finset.mem_univ (⟨k.val, hk⟩ : Fin 1000))
    · rw [hf k (by omega)]; exact bot_le
  · exact Finset.sup_le fun k _ => Finset.le_sup (Finset.mem_univ _)

/-- A lane number, as a 32-bit word read signed, is itself. -/
theorem toInt_lane (n : ℕ) (hn : n < 1024) : (BitVec.ofNat 32 n).toInt = (n : ℤ) := by
  rw [BitVec.toInt_eq_toNat_cond, BitVec.toNat_ofNat]
  have : n % 2 ^ 32 = n := Nat.mod_eq_of_lt (by omega)
  rw [this, if_pos (by omega)]

/-- The lane number read at (r, k) is k. -/
theorem laneIota_apply (r : Fin 2000) (k : Fin 1024) :
    iota .tc S2000x1024 32 [1] iota_S2000x1024_d1_w32 (ix2 r k) = BitVec.ofNat 32 k.val :=
  iota_single_apply .tc S2000x1024 32 1 iota_S2000x1024_d1_w32 (ix2 r k)

end ConRow

open ConRow

/-! ## The masked logits -/

/-- The masked logits at (r, k): on a class lane k < 1000, the cosine of row r of x with class row k times the
    reciprocal temperature; on the 24 padded lanes, the least extended real. -/
theorem k2_logit (x : Vec Ideal S2000x256 .f32) (Pn : Vec Ideal S1024x256 .f32) (P : Fin 1000 → Fin 256 → EReal)
    (hPn : ∀ (k : Fin 1000) (d : Fin 256), Pn (ix2 (Fin.castLE (by decide : 1000 ≤ 1024) k) d) = Cert.Spec.unit (P k) d) (r : Fin 2000) (k : Fin 1024) :
    k2_pay3 (F := Ideal) x Pn (ix2 r k) = if h : k.val < 1000 then Cert.Spec.logitsK (fun e => x (ix2 r e)) P ⟨k.val, h⟩ else ⊥ := by
  unfold k2_pay3
  simp only [select_apply, mulf_apply, broadcast_apply]
  have hc : cmpi .slt (iota .tc S2000x1024 32 [1] iota_S2000x1024_d1_w32) (broadcast S2000x1024 1000#32) (ix2 r k)
      = IntOp.cmpi .slt (BitVec.ofNat 32 k.val) 1000#32 := by
    show IntOp.cmpi .slt (iota .tc S2000x1024 32 [1] iota_S2000x1024_d1_w32 (ix2 r k)) 1000#32 = _
    rw [laneIota_apply]
  have h1000 : (1000#32 : BitVec 32).toInt = 1000 := by decide
  rw [hc, rowsDot_apply, invT_named, negFill_named]
  by_cases h : k.val < 1000
  · have h1 : IntOp.cmpi .slt (BitVec.ofNat 32 k.val) 1000#32 = 1#1 :=
      IntOp.cmpi_slt.2 (by rw [toInt_lane _ k.isLt, h1000]; exact_mod_cast h)
    rw [h1, select_one, dif_pos h]
    simp only [truncf_apply]
    unfold Cert.Spec.logitsK Cert.Spec.cosine
    refine congrArg (· * Cert.Spec.invT) (Finset.sum_congr rfl fun e _ => ?_)
    rw [shapeCast_self]
    exact congrArg₂ (· * ·) (rowUnit_apply x r e) (hPn ⟨k.val, h⟩ e)
  · have h0 : IntOp.cmpi .slt (BitVec.ofNat 32 k.val) 1000#32 = 0#1 :=
      eq_zero_of_ne_one fun h1 => h (by
        have := IntOp.cmpi_slt.1 h1
        rw [toInt_lane _ k.isLt, h1000] at this
        exact_mod_cast this)
    rw [h0, select_zero, dif_neg h]

namespace ConRow

/-! ## The log-sum-exp and the labelled lane, read at a row -/

/-- The logarithm of a vector, read at an index. -/
theorem vlog_apply {s : Shape} {φ : FTy} (a : FVec Ideal s φ) (i : s.Idx) : log a i = Ideal.log (a i) := rfl
/-- The exponential of a vector, read at an index. -/
theorem vexp_apply {s : Shape} {φ : FTy} (a : FVec Ideal s φ) (i : s.Idx) : exp a i = Ideal.exp (a i) := rfl

/-- The log-sum-exp column at row r: the row's greatest masked logit plus the logarithm of the sum, over the 1024
    lanes, of the exponentials of the masked logits below it. -/
theorem k2_lse_apply (x : Vec Ideal S2000x256 .f32) (Pn : Vec Ideal S1024x256 .f32) (r : Fin 2000) :
    k2_pay4 (F := Ideal) x Pn (ix2 r (0 : Fin 1))
      = (Finset.univ.sup fun k : Fin 1024 => k2_pay3 (F := Ideal) x Pn (ix2 r k))
        + Ideal.log (∑ k : Fin 1024, Ideal.exp (k2_pay3 (F := Ideal) x Pn (ix2 r k)
            - Finset.univ.sup fun k : Fin 1024 => k2_pay3 (F := Ideal) x Pn (ix2 r k))) := by
  unfold k2_pay4
  generalize k2_pay3 (F := Ideal) x Pn = v
  rw [addf_apply, vlog_apply, colCast_apply, colCast_apply, laneMax1024_apply, laneSum1024_apply]
  refine congrArg (fun s => _ + Ideal.log s) (Finset.sum_congr rfl fun k _ => ?_)
  rw [vexp_apply, subf_apply, colBcast1024_apply, colCast_apply, laneMax1024_apply]

/-- The label-selected logits at (r, k): the masked logit where lane k is the row's label, zero elsewhere. -/
theorem k2_sel_apply (x : Vec Ideal S2000x256 .f32) (Pn : Vec Ideal S1024x256 .f32) (lab : Vec Ideal S2000x1 .i32)
    (r : Fin 2000) (k : Fin 1024) :
    k2_pay5 (F := Ideal) x Pn lab (ix2 r k)
      = Scalar.select (IntOp.cmpi .eq (BitVec.ofNat 32 k.val) (lab (ix2 r (0 : Fin 1)))) (k2_pay3 (F := Ideal) x Pn (ix2 r k)) 0 := by
  unfold k2_pay5
  generalize k2_pay3 (F := Ideal) x Pn = v
  rw [select_apply, broadcast_apply]
  have hc : cmpi .eq (iota .tc S2000x1024 32 [1] iota_S2000x1024_d1_w32)
      (broadcastTo S2000x1024 (shapeCast S2000x1 lab shapeCasts_S2000x1_S2000x1) broadcasts_S2000x1_S2000x1024) (ix2 r k)
      = IntOp.cmpi .eq (BitVec.ofNat 32 k.val) (lab (ix2 r (0 : Fin 1))) := by
    show IntOp.cmpi .eq (iota .tc S2000x1024 32 [1] iota_S2000x1024_d1_w32 (ix2 r k))
      (broadcastTo S2000x1024 (shapeCast S2000x1 lab shapeCasts_S2000x1_S2000x1) broadcasts_S2000x1_S2000x1024 (ix2 r k)) = _
    rw [laneIota_apply, colBcast1024_apply, shapeCast_self]
  rw [hc]
  exact congrArg (Scalar.select _ _) Ideal.ofBits_zero_f32

end ConRow

/-! ## One row's loss -/

/-- One row's loss: the log-sum-exp of the row's masked logits over the 1024 lanes, minus the sum over the lanes of
    the label-selected logits, is the log-sum-exp of the 1000 class logits minus the labelled one. The padded lanes
    hold ⊥: they leave the greatest logit alone, add exp ⊥ = 0 to the sum of exponentials, and are never the label. -/
theorem k2_row (x : Vec Ideal S2000x256 .f32) (Pn : Vec Ideal S1024x256 .f32) (lab : Vec Ideal S2000x1 .i32) (P : Fin 1000 → Fin 256 → EReal)
    (hPn : ∀ (k : Fin 1000) (d : Fin 256), Pn (ix2 (Fin.castLE (by decide : 1000 ≤ 1024) k) d) = Cert.Spec.unit (P k) d)
    (hlab : ∀ r : Fin 2000, 0 ≤ (lab (ix2 r (0 : Fin 1))).toInt ∧ (lab (ix2 r (0 : Fin 1))).toInt < 1000) (r : Fin 2000) :
    k2_pay4 (F := Ideal) x Pn (ix2 r (0 : Fin 1)) - ∑ k : Fin 1024, k2_pay5 (F := Ideal) x Pn lab (ix2 r k)
      = Cert.Spec.rowLossK (Cert.Spec.logitsK (fun e => x (ix2 r e)) P) (lab (ix2 r (0 : Fin 1))) := by
  have hrow := k2_logit x Pn P hPn r
  generalize Cert.Spec.logitsK (fun e => x (ix2 r e)) P = l at hrow ⊢
  have hlo : ∀ k : Fin 1000, k2_pay3 (F := Ideal) x Pn (ix2 r (Fin.castLE (by decide : 1000 ≤ 1024) k)) = l k := fun k => by
    rw [hrow, dif_pos (show (Fin.castLE (by decide : 1000 ≤ 1024) k).val < 1000 from k.isLt)]
    rfl
  have hhi : ∀ k : Fin 1024, 1000 ≤ k.val → k2_pay3 (F := Ideal) x Pn (ix2 r k) = ⊥ := fun k hk => by
    rw [hrow, dif_neg (by omega)]
  have htop : (Finset.univ.sup fun k : Fin 1024 => k2_pay3 (F := Ideal) x Pn (ix2 r k)) = Cert.Spec.top l := by
    rw [sup_lanes _ hhi]
    exact congrArg (Finset.univ.sup) (funext hlo)
  have hsum : ∑ k : Fin 1024, Ideal.exp (k2_pay3 (F := Ideal) x Pn (ix2 r k) - Cert.Spec.top l) = Cert.Spec.sumExp l := by
    rw [sum_lanes _ (fun k hk => by rw [hhi k hk, EReal.bot_sub, Ideal.exp_bot])]
    exact Finset.sum_congr rfl fun k _ => by rw [hlo]
  have hpick : ∑ k : Fin 1024, k2_pay5 (F := Ideal) x Pn lab (ix2 r k) = Cert.Spec.pick l (lab (ix2 r (0 : Fin 1))) := by
    obtain ⟨hb0, hb1⟩ := hlab r
    rw [Finset.sum_congr rfl fun k _ => k2_sel_apply x Pn lab r k]
    generalize lab (ix2 r (0 : Fin 1)) = b at hb0 hb1 ⊢
    have hz : ∀ k : Fin 1024, 1000 ≤ k.val →
        Scalar.select (IntOp.cmpi .eq (BitVec.ofNat 32 k.val) b) (k2_pay3 (F := Ideal) x Pn (ix2 r k)) 0 = 0 := fun k hk => by
      have hne : IntOp.cmpi .eq (BitVec.ofNat 32 k.val) b = 0#1 := eq_zero_of_ne_one fun h1 => by
        have hb := IntOp.cmpi_eq.1 h1
        rw [← hb, toInt_lane _ k.isLt] at hb1
        omega
      rw [hne, select_zero]
    rw [sum_lanes _ hz]
    unfold Cert.Spec.pick
    refine Finset.sum_congr rfl fun k _ => ?_
    rw [hlo]
    by_cases hbk : b.toInt = (k.val : ℤ)
    · have h1 : IntOp.cmpi .eq (BitVec.ofNat 32 (Fin.castLE (by decide : 1000 ≤ 1024) k).val) b = 1#1 :=
        IntOp.cmpi_eq.2 (BitVec.eq_of_toInt_eq (by
          rw [toInt_lane _ (Fin.castLE (by decide : 1000 ≤ 1024) k).isLt]; exact hbk.symm))
      rw [h1, select_one, if_pos hbk]
    · have h0 : IntOp.cmpi .eq (BitVec.ofNat 32 (Fin.castLE (by decide : 1000 ≤ 1024) k).val) b = 0#1 :=
        eq_zero_of_ne_one fun h1 => hbk (by
          have hb := IntOp.cmpi_eq.1 h1
          rw [← hb, toInt_lane _ (Fin.castLE (by decide : 1000 ≤ 1024) k).isLt]; rfl)
      rw [h0, select_zero, if_neg hbk]
  rw [k2_lse_apply, htop, hsum, hpick]
  rfl

end Cert.KernelIdeal.ValueK

end
-- ==== Proof.ConSum.lean ====
/-
  From the contrastive region's accumulated loss blocks to the mean row loss, and the padded class rows normalized.

  * The block a grid point stores is the block before it plus, over the 2000 rows of the point's row block, the
    row's log-sum-exp less the sum over the 1024 lanes of the row's labelled-logit vector; the first point of a
    core starts from zero. So after row blocks b, …, b + j a core's block holds the sum of those blocks' row losses.
  * The host adds the two cores' blocks and divides by the number of rows; the 2 × 50 × 2000 rows (core, block,
    row of the block) are the 200000 rows, each once, so the result is the mean row loss.
  * A class row below the 24 zero rows of padding, divided on the host by its length floored at eps, is the row
    over its floored length.
-/
import proofs.«413966_j50491635532083_2_alg».proof.Proof.KDefs
import proofs.«413966_j50491635532083_2_alg».proof.Proof.Spec
import proofs.«413966_j50491635532083_2_alg».proof.Proof.ConRow
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost

noncomputable section

namespace Cert.KernelIdeal.ValueK

open Cert.KernelIdeal Cert.KernelIdeal.Gen Idealize.ShloMosaic Idealize.ShloMosaic.ValueIdx
open scoped BigOperators

/-! ## Sums over unit axes, the casts between a column and its neighbours, a lane sum -/

namespace ConSum

/-- A sum over the indices of a [1, n, 1] array is the sum over its middle coordinate. -/
theorem sum_idx3_1n1 {M : Type*} [AddCommMonoid M] {n : ℕ} (f : (⟨3, ![1, n, 1]⟩ : Shape).Idx → M) :
    ∑ i, f i = ∑ r : Fin n, f (ix3 (0 : Fin 1) r (0 : Fin 1)) := by
  refine Fintype.sum_equiv
    { toFun := fun i => (⟨(i 1).val, (i 1).isLt⟩ : Fin n)
      invFun := fun r => ix3 (0 : Fin 1) r (0 : Fin 1)
      left_inv := fun i => by
        funext a
        match a with
        | ⟨0, _⟩ => exact Fin.ext (by have h : (i 0).val < 1 := (i 0).isLt; show 0 = (i 0).val; omega)
        | ⟨1, _⟩ => rfl
        | ⟨2, _⟩ => exact Fin.ext (by have h : (i 2).val < 1 := (i 2).isLt; show 0 = (i 2).val; omega)
      right_inv := fun r => rfl } _ _ (fun i => ?_)
  congr 1
  funext a
  match a with
  | ⟨0, _⟩ => exact Fin.ext (by have h : (i 0).val < 1 := (i 0).isLt; show (i 0).val = 0; omega)
  | ⟨1, _⟩ => rfl
  | ⟨2, _⟩ => exact Fin.ext (by have h : (i 2).val < 1 := (i 2).isLt; show (i 2).val = 0; omega)

section Casts
variable {α : Type}

/-- A [1, 1] array cast to [1, 1, 1] reads its one entry. -/
theorem shapeCast_11_111_apply (x : (⟨2, ![1, 1]⟩ : Shape).Idx → α) (h : (⟨2, ![1, 1]⟩ : Shape).ShapeCasts ⟨3, ![1, 1, 1]⟩)
    (a b c : Fin 1) : shapeCast ⟨3, ![1, 1, 1]⟩ x h (ix3 a b c) = x (ix2 (0 : Fin 1) (0 : Fin 1)) :=
  shapeCast_apply x h _ _ (by
    rw [Shape.rowMajor_val_three, Shape.rowMajor_val_two]
    show 0 * 1 + 0 = (a.val * 1 + b.val) * 1 + c.val
    omega)

/-- A [1, 1, 1] array cast to [1, 1] reads its one entry. -/
theorem shapeCast_111_11_apply (x : (⟨3, ![1, 1, 1]⟩ : Shape).Idx → α) (h : (⟨3, ![1, 1, 1]⟩ : Shape).ShapeCasts ⟨2, ![1, 1]⟩)
    (a b : Fin 1) : shapeCast ⟨2, ![1, 1]⟩ x h (ix2 a b) = x (ix3 (0 : Fin 1) (0 : Fin 1) (0 : Fin 1)) :=
  shapeCast_apply x h _ _ (by
    rw [Shape.rowMajor_val_three, Shape.rowMajor_val_two]
    show (0 * 1 + 0) * 1 + 0 = a.val * 1 + b.val
    omega)

/-- A [1] array cast to [1, 1, 1] reads its one entry. -/
theorem shapeCast_1_111_apply (x : (⟨1, ![1]⟩ : Shape).Idx → α) (h : (⟨1, ![1]⟩ : Shape).ShapeCasts ⟨3, ![1, 1, 1]⟩)
    (a b c : Fin 1) : shapeCast ⟨3, ![1, 1, 1]⟩ x h (ix3 a b c) = x (ix1 (0 : Fin 1)) :=
  shapeCast_apply x h _ _ (by
    rw [Shape.rowMajor_val_three, Shape.rowMajor_val_one]
    show 0 = (a.val * 1 + b.val) * 1 + c.val
    omega)

/-- An [n, 1] column cast to [1, n, 1] reads, at (0, r, 0), the column's entry r. -/
theorem shapeCast_n1_1n1_apply {n : ℕ} (x : (⟨2, ![n, 1]⟩ : Shape).Idx → α) (h : (⟨2, ![n, 1]⟩ : Shape).ShapeCasts ⟨3, ![1, n, 1]⟩)
    (a : Fin 1) (r : Fin n) (c : Fin 1) : shapeCast ⟨3, ![1, n, 1]⟩ x h (ix3 a r c) = x (ix2 r (0 : Fin 1)) :=
  shapeCast_apply x h _ _ (by
    rw [Shape.rowMajor_val_three, Shape.rowMajor_val_two]
    show r.val * 1 + 0 = (a.val * n + r.val) * 1 + c.val
    have ha : a.val = 0 := by omega
    have hc : c.val = 0 := by omega
    rw [ha, hc, Nat.zero_mul, Nat.zero_add])

/-- A vector of n entries cast to an [n, 1] column reads, at (r, 0), entry r. -/
theorem shapeCast_n_n1_apply {n : ℕ} (x : (⟨1, ![n]⟩ : Shape).Idx → α) (h : (⟨1, ![n]⟩ : Shape).ShapeCasts ⟨2, ![n, 1]⟩)
    (r : Fin n) (c : Fin 1) : shapeCast ⟨2, ![n, 1]⟩ x h (ix2 r c) = x (ix1 r) :=
  shapeCast_apply x h _ _ (by
    rw [Shape.rowMajor_val_two, Shape.rowMajor_val_one]
    show r.val = r.val * 1 + c.val
    omega)

end Casts

/-- A sum over the lanes of a [2000, 1024] array, read at row r. -/
theorem laneSum_apply (v : FVec Ideal S2000x1024 .f32) (r : Fin 2000) :
    multiReduction (F := Ideal) .add [1] S2000 v 0x00000000#32 reduces_S2000x1024_S2000 (.inl rfl) rfl (ix1 r)
      = ∑ k : Fin 1024, v (ix2 r k) := by
  refine (Ideal.multiReduction_add_single v _ reduces_S2000x1024_S2000 _ _ (ix1 r)).trans ?_
  show ∑ k : Fin 1024, v (reduces_S2000x1024_S2000.lift (ix1 r) k) = _
  refine Finset.sum_congr rfl fun k _ => congrArg v ?_
  funext c
  match c with
  | ⟨0, _⟩ => rfl
  | ⟨1, _⟩ => rfl

end ConSum

open ConSum

/-! ## The stored blocks -/

/-- The zero the first grid point stores reads zero. -/
theorem k2_pay2_apply (i : S1x1x1.Idx) : k2_pay2 (F := Ideal) i = 0 := by
  show Ideal.ofBits .f32 0x00000000#32 = 0
  exact Ideal.ofBits_zero_f32

/-- The stored loss sum: the sum before, plus over the block's rows the row's log-sum-exp less the sum over
    the lanes of the row's labelled-logit vector. -/
theorem k2_pay1_apply (v32 : FVec Ideal S2000x1 .f32) (v38 : FVec Ideal S2000x1024 .f32) (prev : Vec Ideal S1x1x1 .f32) :
    k2_pay1 (F := Ideal) v32 v38 prev (ix3 (0 : Fin 1) (0 : Fin 1) (0 : Fin 1))
      = prev (ix3 (0 : Fin 1) (0 : Fin 1) (0 : Fin 1)) + ∑ r : Fin 2000, (v32 (ix2 r (0 : Fin 1)) - ∑ k : Fin 1024, v38 (ix2 r k)) := by
  unfold k2_pay1
  rw [shapeCast_11_111_apply, addf_apply, shapeCast_111_11_apply, broadcast_apply]
  congr 1
  show shapeCast S1x1x1 _ shapeCasts_S1_S1x1x1 (ix3 (0 : Fin 1) (0 : Fin 1) (0 : Fin 1)) = _
  rw [shapeCast_1_111_apply]
  refine (Ideal.multiReduction_add_total _ _ reduces_S1x2000x1_S1 (fun b => by match b with | ⟨0, _⟩ => rfl) _ _ _).trans ?_
  rw [sum_idx3_1n1]
  refine Finset.sum_congr rfl fun r _ => ?_
  rw [shapeCast_n1_1n1_apply, subf_apply, shapeCast_n_n1_apply, laneSum_apply]

/-! ## A core's accumulated block -/

/-- The loss sum after row blocks b, …, b + j: the sum, over those blocks and each block's rows, of the row's
    loss against the class rows the padded array holds normalized. -/
theorem conAcc_apply (xs : ℕ → Vec Ideal S2000x256 .f32) (ls : ℕ → Vec Ideal S2000x1 .i32) (Pn : Vec Ideal S1024x256 .f32)
    (P : Fin 1000 → Fin 256 → EReal)
    (hPn : ∀ (k : Fin 1000) (d : Fin 256), Pn (ix2 (Fin.castLE (by decide : 1000 ≤ 1024) k) d) = Cert.Spec.unit (P k) d)
    (b : ℕ)
    (hlab : ∀ (i : ℕ) (r : Fin 2000), 0 ≤ (ls (b + i) (ix2 r (0 : Fin 1))).toInt ∧ (ls (b + i) (ix2 r (0 : Fin 1))).toInt < 1000)
    (j : ℕ) :
    conAcc (F := Ideal) xs ls Pn b j (ix3 (0 : Fin 1) (0 : Fin 1) (0 : Fin 1))
      = ∑ i ∈ Finset.range (j + 1), ∑ r : Fin 2000,
          Cert.Spec.rowLossK (Cert.Spec.logitsK (fun e => xs (b + i) (ix2 r e)) P) (ls (b + i) (ix2 r (0 : Fin 1))) := by
  induction j with
  | zero =>
    show k2_pay1 (F := Ideal) (k2_pay4 (xs b) Pn) (k2_pay5 (xs b) Pn (ls b)) (k2_pay2 (F := Ideal)) _ = _
    rw [k2_pay1_apply, k2_pay2_apply, zero_add, Finset.sum_range_one]
    refine Finset.sum_congr rfl fun r _ => ?_
    exact k2_row (xs b) Pn (ls b) P hPn (hlab 0) r
  | succ j ih =>
    show k2_pay1 (F := Ideal) (k2_pay4 (xs (b + (j + 1))) Pn) (k2_pay5 (xs (b + (j + 1))) Pn (ls (b + (j + 1))))
      (conAcc xs ls Pn b j) _ = _
    rw [k2_pay1_apply, ih, Finset.sum_range_succ _ (j + 1)]
    refine congrArg (HAdd.hAdd _) ?_
    refine Finset.sum_congr rfl fun r _ => ?_
    exact k2_row (xs (b + (j + 1))) Pn (ls (b + (j + 1))) P hPn (hlab (j + 1)) r

/-! ## The mean row loss -/

namespace ConSum

/-- A sum over the indices of an [n, 1, 1] array is the sum over its first coordinate. -/
theorem sum_idx3_n11 {M : Type*} [AddCommMonoid M] {n : ℕ} (f : (⟨3, ![n, 1, 1]⟩ : Shape).Idx → M) :
    ∑ i, f i = ∑ q : Fin n, f (ix3 q (0 : Fin 1) (0 : Fin 1)) := by
  refine Fintype.sum_equiv
    { toFun := fun i => (⟨(i 0).val, (i 0).isLt⟩ : Fin n)
      invFun := fun q => ix3 q (0 : Fin 1) (0 : Fin 1)
      left_inv := fun i => by
        funext a
        match a with
        | ⟨0, _⟩ => rfl
        | ⟨1, _⟩ => exact Fin.ext (by have h : (i 1).val < 1 := (i 1).isLt; show 0 = (i 1).val; omega)
        | ⟨2, _⟩ => exact Fin.ext (by have h : (i 2).val < 1 := (i 2).isLt; show 0 = (i 2).val; omega)
      right_inv := fun q => rfl } _ _ (fun i => ?_)
  congr 1
  funext a
  match a with
  | ⟨0, _⟩ => rfl
  | ⟨1, _⟩ => exact Fin.ext (by have h : (i 1).val < 1 := (i 1).isLt; show (i 1).val = 0; omega)
  | ⟨2, _⟩ => exact Fin.ext (by have h : (i 2).val < 1 := (i 2).isLt; show (i 2).val = 0; omega)

/-- The 200000 rows as (core, block of the core, row of the block): row 2000 (50 q + i) + r. -/
def rowEquiv : (Fin 2 × Fin 50) × Fin 2000 ≃ Fin 200000 where
  toFun p := ⟨2000 * (50 * p.1.1.val + p.1.2.val) + p.2.val, by
    have h1 := p.1.1.isLt; have h2 := p.1.2.isLt; have h3 := p.2.isLt; omega⟩
  invFun n := ((⟨n.val / 100000, by have h := n.isLt; omega⟩, ⟨n.val / 2000 % 50, by omega⟩), ⟨n.val % 2000, by omega⟩)
  left_inv p := by
    obtain ⟨⟨q, i⟩, r⟩ := p
    have h1 := q.isLt; have h2 := i.isLt; have h3 := r.isLt
    refine Prod.ext (Prod.ext (Fin.ext ?_) (Fin.ext ?_)) (Fin.ext ?_)
    · show (2000 * (50 * q.val + i.val) + r.val) / 100000 = q.val
      omega
    · show (2000 * (50 * q.val + i.val) + r.val) / 2000 % 50 = i.val
      omega
    · show (2000 * (50 * q.val + i.val) + r.val) % 2000 = r.val
      omega
  right_inv n := Fin.ext (by
    have h := n.isLt
    show 2000 * (50 * (n.val / 100000) + n.val / 2000 % 50) + n.val % 2000 = n.val
    omega)

/-- The label column's row block, read through the reshape of the label vector. -/
theorem rows2L_apply (L1 : IVec S200000 32) (n : ℕ) (r : Fin 2000) :
    rows2L (F := Ideal) (shapeCast S200000x1 L1 shapeCasts_S200000_S200000x1) n (ix2 r (0 : Fin 1))
      = L1 (ix1 (⟨2000 * (n % 100) + r.val, by
          have h0 := r.isLt
          have := Nat.mod_lt n (by decide : 0 < 100); omega⟩ : Fin 200000)) :=
  shapeCast_n_n1_apply L1 _ _ _

end ConSum

/-- The mean row loss: the two cores' loss sums added and divided by the number of rows are the sum of every
    row's loss over that number. -/
theorem lossOf_eq (A : FVec Ideal S2x1x1 .f32) (X : FVec Ideal S200000x256 .f32) (L1 : IVec S200000 32) (Pn : FVec Ideal S1024x256 .f32) (P : Fin 1000 → Fin 256 → EReal)
    (hA : ∀ q : Fin 2, A (ix3 q (0 : Fin 1) (0 : Fin 1))
        = conAcc (F := Ideal) (rows2X X) (rows2L (shapeCast S200000x1 L1 shapeCasts_S200000_S200000x1)) Pn (50 * q.val) 49 (ix3 (0 : Fin 1) (0 : Fin 1) (0 : Fin 1)))
    (hPn : ∀ (k : Fin 1000) (d : Fin 256), Pn (ix2 (Fin.castLE (by decide : 1000 ≤ 1024) k) d) = Cert.Spec.unit (P k) d)
    (hlab : ∀ n : Fin 200000, 0 ≤ (L1 (ix1 n)).toInt ∧ (L1 (ix1 n)).toInt < 1000) :
    lossOf A ix0 = Cert.Spec.lossK (fun n e => X (ix2 n e)) (fun n => L1 (ix1 n)) P := by
  unfold lossOf Cert.Spec.lossK
  rw [hostDivf_apply, constant_apply, hostReduceAdd_apply, constant_apply, Ideal.ofBits_zero_f32]
  show Ideal.div _ Cert.Spec.rowsF = _
  refine congrArg (fun z => Ideal.div z Cert.Spec.rowsF) ?_
  rw [Ideal.hostReduceAdd_total _ (fun b => b.elim0), zero_add, sum_idx3_n11]
  -- each core's sum, in closed form
  have hq : ∀ q : Fin 2, A (ix3 q (0 : Fin 1) (0 : Fin 1))
      = ∑ i : Fin 50, ∑ r : Fin 2000,
          (fun n : Fin 200000 => Cert.Spec.rowLossK (Cert.Spec.logitsK (fun e => X (ix2 n e)) P) (L1 (ix1 n)))
            (rowEquiv ((q, i), r)) := by
    intro q
    rw [hA q, conAcc_apply (rows2X X) (rows2L (shapeCast S200000x1 L1 shapeCasts_S200000_S200000x1)) Pn P hPn (50 * q.val)
      (fun i r => by rw [rows2L_apply]; exact hlab _) 49, Finset.sum_range]
    refine Finset.sum_congr rfl fun i _ => Finset.sum_congr rfl fun r _ => ?_
    rw [rows2L_apply]
    have hq2 := q.isLt; have hi := i.isLt
    have hn : (⟨2000 * ((50 * q.val + i.val) % 100) + r.val, by
        have h0 := r.isLt
        have := Nat.mod_lt (50 * q.val + i.val) (by decide : 0 < 100); omega⟩ : Fin 200000) = rowEquiv ((q, i), r) :=
      Fin.ext (by
        show 2000 * ((50 * q.val + i.val) % 100) + r.val = 2000 * (50 * q.val + i.val) + r.val
        omega)
    exact congrArg (fun n : Fin 200000 => Cert.Spec.rowLossK (Cert.Spec.logitsK (fun e => X (ix2 n e)) P) (L1 (ix1 n))) hn
  rw [Finset.sum_congr rfl fun q _ => hq q, ← Equiv.sum_comp rowEquiv, Fintype.sum_prod_type, Fintype.sum_prod_type]

/-! ## The padded class rows, normalized -/

/-- A class row below the padding, normalized on the host: the row over its floored length. -/
theorem unitRowsPad_apply (p : FVec Ideal S1000x256 .f32) (k : Fin 1000) (d : Fin 256) :
    unitRowsPad (F := Ideal) (padOf p) (ix2 (Fin.castLE (by decide : 1000 ≤ 1024) k) d) = Cert.Spec.unit (fun e => p (ix2 k e)) d := by
  have hpad : ∀ e : Fin 256, padOf p (ix2 (Fin.castLE (by decide : 1000 ≤ 1024) k) e) = p (ix2 k e) := fun e =>
    pad_apply_of_inside _ _ _ p _ pads_S1000x256_S1024x256_0240_000 h_S_ _ (ix2 k e) (fun a => by
      match a with
      | ⟨0, _⟩ => show k.val = 0 + k.val * (0 + 1); omega
      | ⟨1, _⟩ => show e.val = 0 + e.val * (0 + 1); omega)
  unfold unitRowsPad Cert.Spec.unit Cert.Spec.len
  rw [hostDivf_apply, hpad]
  refine congrArg (Ideal.div (p (ix2 k d))) ?_
  rw [broadcastInDim_apply _ _ _ _ (ix2 (Fin.castLE (by decide : 1000 ≤ 1024) k) (0 : Fin 1)) (fun a => by
      match a with
      | ⟨0, _⟩ => rfl
      | ⟨1, _⟩ => rfl)]
  rw [maximumf_apply]
  show max (Ideal.sqrt _) _ = _
  refine congrArg₂ max (congrArg Ideal.sqrt ?_) ?_
  · rw [broadcastInDim_apply _ _ _ _ (ix1 (Fin.castLE (by decide : 1000 ≤ 1024) k)) (fun a => by
        match a with
        | ⟨0, _⟩ => rfl)]
    rw [hostReduceAdd_apply, constant_apply, Ideal.ofBits_zero_f32,
      Ideal.hostReduceAdd_single _ (by decide : S1024x256.Reduces [1] S1024), zero_add]
    show ∑ e : Fin 256, _ = _
    refine Finset.sum_congr rfl fun e _ => ?_
    rw [mulf_apply]
    have hl : (by decide : S1024x256.Reduces [1] S1024).lift (ix1 (Fin.castLE (by decide : 1000 ≤ 1024) k)) e
        = ix2 (Fin.castLE (by decide : 1000 ≤ 1024) k) e := by
      funext c
      match c with
      | ⟨0, _⟩ => rfl
      | ⟨1, _⟩ => rfl
    rw [hl, hpad]
  · rw [broadcastInDim_scalar_apply, constant_apply]
    rfl

end Cert.KernelIdeal.ValueK

end
-- ==== Proof.ConRefLogits.lean ====
/-
  The reference's rows over their lengths and its logits, entry by entry, over the extended reals.

  A row over its length: the row's sum of squares (a sum from zero), its root, floored at eps, and the row's entries
  divided by that. Entry (n, d) of the result is entry d of row n over the floored length of row n. The same reading
  serves the 200000 feature rows and the 1000 class rows, so it is stated once for an a × b array.

  The logits: the unit feature rows times the transposed unit class rows, every entry over the temperature. Entry
  (n, k) sums, over the 256 features, the products of the two unit rows' entries, which is the cosine of row n with
  class row k, and divides it by the temperature.
-/
import proofs.«413966_j50491635532083_2_alg».proof.Proof.RefDefs
import proofs.«413966_j50491635532083_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.ValueR

open Cert.ReferenceIdeal Cert.ReferenceIdeal.Gen Idealize.ShloMosaic ValueIdx

namespace ConRefLogits

/-- A column repeated along the rows: entry (n, d) of the result is entry (n, 0) of the column. -/
theorem bcast_a1_ab_apply {α : Type} {a b : ℕ} (v : (⟨2, ![a, 1]⟩ : Shape).Idx → α)
    (h : (⟨2, ![a, 1]⟩ : Shape).BroadcastsInDim ⟨2, ![a, b]⟩ ![0, 1]) (n : Fin a) (d : Fin b) :
    broadcastInDim ⟨2, ![a, b]⟩ ![0, 1] h v (ix2 n d) = v (ix2 n (0 : Fin 1)) :=
  broadcastInDim_apply _ h v _ _ fun ax => match ax with
    | ⟨0, _⟩ => by
      show n.val = if a = 1 then 0 else n.val
      split
      · have := n.isLt; omega
      · rfl
    | ⟨1, _⟩ => by
      show (0 : ℕ) = if (1 : ℕ) = 1 then 0 else d.val
      rw [if_pos rfl]

/-- A vector laid out as a column: entry (n, 0) of the column is entry n of the vector. -/
theorem bcast_a_a1_apply {α : Type} {a : ℕ} (v : (⟨1, ![a]⟩ : Shape).Idx → α)
    (h : (⟨1, ![a]⟩ : Shape).BroadcastsInDim ⟨2, ![a, 1]⟩ ![0]) (n : Fin a) (u : Fin 1) :
    broadcastInDim ⟨2, ![a, 1]⟩ ![0] h v (ix2 n u) = v (ix1 n) :=
  broadcastInDim_apply _ h v _ _ fun ax => match ax with
    | ⟨0, _⟩ => by
      show n.val = if a = 1 then 0 else n.val
      split
      · have := n.isLt; omega
      · rfl

/-- A scalar repeated over a shape reads the scalar everywhere. -/
theorem bcast_scalar_apply {α : Type} {t : Shape} (v : S_.Idx → α) (h : S_.BroadcastsInDim t ![]) (j : t.Idx) :
    broadcastInDim t ![] h v j = v ix0 :=
  broadcastInDim_apply _ h v j ix0 fun ax => ax.elim0

/-- A sum along the rows from zero: entry n of the result adds entry (n, e) over the columns e. -/
theorem rowSum_apply {a b : ℕ} (Y : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hS : 0 < S_.numel) (n : Fin a) :
    Host.reduceAdd (F := Ideal) Y (constant (F := Ideal) S_ .f32 0x00000000#32) h' hS (ix1 n) = ∑ e : Fin b, Y (ix2 n e) := by
  simp only [Host.reduceAdd, Ideal.hostReduceAdd_def]
  rw [Ideal.hostReduceAdd_single h' h]
  show Ideal.ofBits .f32 0x00000000#32 + _ = _
  rw [Ideal.ofBits_zero_f32, zero_add]
  refine Finset.sum_congr rfl fun e _ => congrArg Y ?_
  funext ax
  match ax with
  | ⟨0, _⟩ => rfl
  | ⟨1, _⟩ => rfl

/-- Each row over its length, the length floored at eps: entry (n, d) is the row's entry d over the floored root of
    the row's sum of squares. -/
theorem unitOf_apply {a b : ℕ} (X : FVec Ideal ⟨2, ![a, b]⟩ .f32)
    (hb : (⟨2, ![a, 1]⟩ : Shape).BroadcastsInDim ⟨2, ![a, b]⟩ ![0, 1])
    (hc : (⟨1, ![a]⟩ : Shape).BroadcastsInDim ⟨2, ![a, 1]⟩ ![0])
    (he : S_.BroadcastsInDim ⟨2, ![a, 1]⟩ ![])
    (hr' : (⟨2, ![a, b]⟩ : Shape).ReducesTo [1] ⟨1, ![a]⟩) (hr : (⟨2, ![a, b]⟩ : Shape).Reduces [1] ⟨1, ![a]⟩)
    (hS : 0 < S_.numel) (n : Fin a) (d : Fin b) :
    Host.divf (F := Ideal) X (broadcastInDim ⟨2, ![a, b]⟩ ![0, 1] hb
      (maximumf (Host.sqrt (broadcastInDim ⟨2, ![a, 1]⟩ ![0] hc
          (Host.reduceAdd (F := Ideal) (mulf X X) (constant (F := Ideal) S_ .f32 0x00000000#32) hr' hS)))
        (broadcastInDim ⟨2, ![a, 1]⟩ ![] he (constant (F := Ideal) S_ .f32 0x2B8CBCCC#32)))) (ix2 n d)
      = Cert.Spec.unit (fun e => X (ix2 n e)) d := by
  show Ideal.div (X (ix2 n d)) (broadcastInDim (s := ⟨2, ![a, 1]⟩) ⟨2, ![a, b]⟩ ![0, 1] hb _ (ix2 n d)) = _
  rw [bcast_a1_ab_apply]
  show Ideal.div (X (ix2 n d)) (max (Ideal.sqrt (broadcastInDim (s := ⟨1, ![a]⟩) ⟨2, ![a, 1]⟩ ![0] hc _ (ix2 n (0 : Fin 1))))
    (broadcastInDim (s := S_) ⟨2, ![a, 1]⟩ ![] he _ (ix2 n (0 : Fin 1)))) = _
  rw [bcast_a_a1_apply, bcast_scalar_apply, rowSum_apply _ hr' hr hS]
  rfl

/-- Left operand of the row-against-class product, row axis: the result's row coordinate. -/
theorem lhs_logit_0 (i : S200000x1000.Idx) (q : dot_S200000x256_S256x1000_S200000x1000_1_0_0_1_n_n.contr.Idx) :
    (dot_S200000x256_S256x1000_S200000x1000_1_0_0_1_n_n.lhsIdx i q 0).val = (i 0).val := by
  unfold DotDims.lhsIdx
  rw [dif_neg (show ¬(0 : Fin S200000x256.rank) ∈ dot_S200000x256_S256x1000_S200000x1000_1_0_0_1_n_n.lhsBatch by decide), dif_pos (show (0 : Fin S200000x256.rank) ∈ dot_S200000x256_S256x1000_S200000x1000_1_0_0_1_n_n.lhsNonContracting by decide)]
  rfl
/-- Left operand, feature axis: the contraction coordinate. -/
theorem lhs_logit_1 (i : S200000x1000.Idx) (q : dot_S200000x256_S256x1000_S200000x1000_1_0_0_1_n_n.contr.Idx) :
    (dot_S200000x256_S256x1000_S200000x1000_1_0_0_1_n_n.lhsIdx i q 1).val = (q ⟨0, by decide⟩).val :=
  dot_S200000x256_S256x1000_S200000x1000_1_0_0_1_n_n.lhsIdx_val_of_single rfl i q
/-- Right operand, feature axis: the contraction coordinate. -/
theorem rhs_logit_0 (i : S200000x1000.Idx) (q : dot_S200000x256_S256x1000_S200000x1000_1_0_0_1_n_n.contr.Idx) :
    (dot_S200000x256_S256x1000_S200000x1000_1_0_0_1_n_n.rhsIdx i q 0).val = (q ⟨0, by decide⟩).val :=
  dot_S200000x256_S256x1000_S200000x1000_1_0_0_1_n_n.rhsIdx_val_of_single rfl i q
/-- Right operand, class axis: the result's class coordinate. -/
theorem rhs_logit_1 (i : S200000x1000.Idx) (q : dot_S200000x256_S256x1000_S200000x1000_1_0_0_1_n_n.contr.Idx) :
    (dot_S200000x256_S256x1000_S200000x1000_1_0_0_1_n_n.rhsIdx i q 1).val = (i 1).val := by
  unfold DotDims.rhsIdx
  rw [dif_neg (show ¬(1 : Fin S256x1000.rank) ∈ dot_S200000x256_S256x1000_S200000x1000_1_0_0_1_n_n.rhsBatch by decide), dif_pos (show (1 : Fin S256x1000.rank) ∈ dot_S200000x256_S256x1000_S200000x1000_1_0_0_1_n_n.rhsNonContracting by decide)]
  rfl

/-- The product of a 200000 × 256 array with a 256 × 1000 array: entry (n, k) adds, over the features e, the first
    array's entry (n, e) times the second's entry (e, k). -/
theorem logitDot_apply (A : FVec Ideal S200000x256 .f32) (B : FVec Ideal S256x1000 .f32) (n : Fin 200000) (k : Fin 1000) :
    Host.dotGeneral (F := Ideal) dot_S200000x256_S256x1000_S200000x1000_1_0_0_1_n_n none A B (ix2 n k)
      = ∑ e : Fin 256, A (ix2 n e) * B (ix2 e k) := by
  simp only [Host.dotGeneral]
  rw [Ideal.dotGeneral_apply, ← Equiv.sum_comp (contrEquiv1 dot_S200000x256_S256x1000_S200000x1000_1_0_0_1_n_n 256 rfl rfl).symm]
  refine Finset.sum_congr rfl fun e _ => ?_
  have he := contrEquiv1_symm_val dot_S200000x256_S256x1000_S200000x1000_1_0_0_1_n_n 256 rfl rfl e
  have el : dot_S200000x256_S256x1000_S200000x1000_1_0_0_1_n_n.lhsIdx (ix2 n k) ((contrEquiv1 dot_S200000x256_S256x1000_S200000x1000_1_0_0_1_n_n 256 rfl rfl).symm e) = ix2 n e := funext fun a => Fin.ext (by
    match a with
    | ⟨0, _⟩ => exact lhs_logit_0 _ _
    | ⟨1, _⟩ => exact (lhs_logit_1 _ _).trans he)
  have er : dot_S200000x256_S256x1000_S200000x1000_1_0_0_1_n_n.rhsIdx (ix2 n k) ((contrEquiv1 dot_S200000x256_S256x1000_S200000x1000_1_0_0_1_n_n 256 rfl rfl).symm e) = ix2 e k := funext fun a => Fin.ext (by
    match a with
    | ⟨0, _⟩ => exact (rhs_logit_0 _ _).trans he
    | ⟨1, _⟩ => exact rhs_logit_1 _ _)
  rw [el, er]

end ConRefLogits

open ConRefLogits

/-- Entry (n, d) of the features over their lengths is row n of the features, over its floored length, at d. -/
theorem unitFeats_apply (X : FVec Ideal S200000x256 .f32) (n : Fin 200000) (d : Fin 256) :
    unitFeats (F := Ideal) X (ix2 n d) = Cert.Spec.unit (fun e => X (ix2 n e)) d := by
  unfold unitFeats
  exact unitOf_apply X _ _ _ _ (by decide) _ n d

/-- Entry (k, d) of the class rows over their lengths is class row k, over its floored length, at d. -/
theorem unitRows_apply (p : FVec Ideal S1000x256 .f32) (k : Fin 1000) (d : Fin 256) :
    unitRows (F := Ideal) p (ix2 k d) = Cert.Spec.unit (fun e => p (ix2 k e)) d := by
  unfold unitRows
  exact unitOf_apply p _ _ _ _ (by decide) _ k d

/-- Entry (n, k) of the logits is the cosine of row n of the features with class row k, over the temperature. -/
theorem logitsOf_apply (X : FVec Ideal S200000x256 .f32) (p : FVec Ideal S1000x256 .f32) (n : Fin 200000) (k : Fin 1000) :
    logitsOf (F := Ideal) X p (ix2 n k) = Cert.Spec.logitsR (fun e => X (ix2 n e)) (fun k e => p (ix2 k e)) k := by
  unfold logitsOf
  show Ideal.div (Host.dotGeneral (F := Ideal) dot_S200000x256_S256x1000_S200000x1000_1_0_0_1_n_n none (unitFeats X)
      (transpose S256x1000 [1, 0] (unitRows p) transposes_S1000x256_S256x1000_1_0) (ix2 n k))
    (broadcastInDim (s := S_) S200000x1000 ![] bcast_S_S200000x1000 (constant (F := Ideal) S_ .f32 0x3D8F5C29#32) (ix2 n k)) = _
  rw [logitDot_apply, bcast_scalar_apply]
  show _ = Ideal.div (∑ d : Fin 256, Cert.Spec.unit (fun e => X (ix2 n e)) d * Cert.Spec.unit (fun e => p (ix2 k e)) d)
    (Ideal.ofBits .f32 0x3D8F5C29#32)
  refine congrArg₂ Ideal.div (Finset.sum_congr rfl fun e _ => ?_) rfl
  rw [transpose_ix2_apply, unitFeats_apply, unitRows_apply]

end Cert.ReferenceIdeal.ValueR
-- ==== Proof.ConRef.lean ====
/-
  The reference's log-softmax and its gather at the labels, read at an index.

  * The log-softmax of an array of logits, entry (n, k): the logit minus the greatest logit of row n, minus the logarithm of
    the sum over the row of the exponentials of the logits below that greatest one. The row's greatest logit is a fold of
    the maximum from minus infinity, which is the supremum over the row.
  * The entry taken along the row at the label: with the label in 0 … 999 the label is not moved up by the class count, the
    range test passes, the gather reads the row at the label itself, and that entry is the sum over the classes of the
    entries whose class the label names.
-/
import proofs.«413966_j50491635532083_2_alg».proof.Proof.RefDefs
import proofs.«413966_j50491635532083_2_alg».proof.Proof.Spec
import Idealize.ShloMosaic.PureOps.Ideal.Laws
import Idealize.ShloMosaic.Lib.ValueIdx
import Idealize.ShloMosaic.Lib.IdealHost
import Idealize.ShloMosaic.Lib.Pipeline.Value
import Idealize.ShloMosaic.Lib.Affine

noncomputable section

namespace Cert.ReferenceIdeal.ValueR

open Cert.ReferenceIdeal Cert.ReferenceIdeal.Gen Idealize.ShloMosaic Idealize.ShloMosaic.ValueIdx
open scoped BigOperators

namespace ConRef

/-! ## Layout operations read at an index -/

section Layout
variable {α : Type}

/-- A scalar broadcast reads the scalar. -/
theorem bc0 {T : Shape} (h : S_.BroadcastsInDim T ![]) (x : S_.Idx → α) (j : T.Idx) :
    broadcastInDim T ![] h x j = x ix0 := broadcastInDim_scalar_apply h x j

/-- A vector of 200000 entries laid out as a column reads the vector at the row. -/
theorem bcCol (y : S200000.Idx → α) (n : Fin 200000) (z : Fin 1) :
    broadcastInDim S200000x1 ![0] bcast_S200000_S200000x1_0 y (ix2 n z) = y (ix1 n) :=
  broadcastInDim_apply _ bcast_S200000_S200000x1_0 y _ (ix1 n) (fun a => match a with
    | ⟨0, _⟩ => by show n.val = if (200000 : Nat) = 1 then 0 else n.val; rw [if_neg (by decide)])

/-- A column of 200000 entries repeated along 1000 lanes reads the column at the row. -/
theorem bcRow1000 (y : S200000x1.Idx → α) (n : Fin 200000) (k : Fin 1000) :
    broadcastInDim S200000x1000 ![0, 1] bcast_S200000x1_S200000x1000_0_1 y (ix2 n k) = y (ix2 n (0 : Fin 1)) :=
  broadcastInDim_apply _ bcast_S200000x1_S200000x1000_0_1 y _ (ix2 n (0 : Fin 1)) (fun a => match a with
    | ⟨0, _⟩ => by show n.val = if (200000 : Nat) = 1 then 0 else n.val; rw [if_neg (by decide)]
    | ⟨1, _⟩ => by show 0 = if (1 : Nat) = 1 then 0 else k.val; rw [if_pos rfl])

end Layout

/-- The sum along a row of 1000 entries, from zero. -/
theorem rowSum1000 (y : FVec Ideal S200000x1000 .f32) (n : Fin 200000) :
    Host.reduceAdd y (constant (F := Ideal) S_ .f32 0x00000000#32) reducesTo_S200000x1000_S200000_d1 h_S_ (ix1 n)
      = ∑ k : Fin 1000, y (ix2 n k) := by
  rw [hostReduceAdd_apply, Ideal.hostReduceAdd_single reducesTo_S200000x1000_S200000_d1 (by decide)]
  rw [constant_apply, Ideal.ofBits_zero_f32, zero_add]
  refine Finset.sum_congr rfl fun j _ => ?_
  exact congrArg y (funext fun a => Fin.ext (by match a with | ⟨0, _⟩ => rfl | ⟨1, _⟩ => rfl))

/-! ## The row maximum and the log-softmax -/

/-- The logarithm of an array, read at an index. -/
theorem hostLog_apply {s : Shape} (v : FVec Ideal s .f32) (i : s.Idx) : Host.log v i = Ideal.log (v i) := rfl
/-- The exponential of an array, read at an index. -/
theorem hostExp_apply {s : Shape} (v : FVec Ideal s .f32) (i : s.Idx) : Host.exp v i = Ideal.exp (v i) := rfl

/-- The word of minus infinity is the bottom of the extended reals. -/
theorem negInf_eq : Ideal.ofBits .f32 0xFF800000#32 = (⊥ : EReal) := by simp [Ideal.ofBits, Ideal.ieee]

/-- A fold of the maximum from the bottom is the supremum. -/
theorem fold_max_bot (g : Fin 1000 → EReal) : Finset.univ.fold max ⊥ g = Finset.univ.sup g :=
  eq_of_forall_ge_iff fun c => by rw [Finset.fold_max_le, Finset.sup_le_iff]; simp

/-- The index of a row of logits with the lane put back. -/
theorem lift1000 (h : S200000x1000.Reduces [1] S200000) (n : Fin 200000) (k : Fin (S200000x1000.size 1)) :
    h.lift (ix1 n) k = ix2 n (⟨k.val, k.isLt⟩ : Fin 1000) := by
  funext c; apply Fin.ext
  fin_cases c <;> rfl

/-- The row maximum is the greatest logit of the row. -/
theorem rowMax_apply (l : FVec Ideal S200000x1000 .f32) (n : Fin 200000) :
    rowMax (F := Ideal) l (ix1 n) = Cert.Spec.top (fun j => l (ix2 n j)) := by
  have hr : S200000x1000.Reduces [1] S200000 := by decide
  unfold rowMax
  rw [maximumf_apply, bc0, constant_apply, negInf_eq,
    Host.reduce_eq_fold_single FloatOps.maximumf l _ reducesTo_S200000x1000_S200000_d1 hr h_S_,
    constant_apply, negInf_eq, max_bot_left]
  unfold Cert.Spec.top
  rw [← fold_max_bot]
  have hf : (l ∘ hr.lift (ix1 n)) = fun k : Fin 1000 => l (ix2 n k) := funext fun k => congrArg l (lift1000 hr n k)
  exact congrArg (fun f => Finset.fold max (⊥ : EReal) f (Finset.univ : Finset (Fin 1000))) hf

/-- The shifted logits: each logit minus its row's greatest. -/
theorem shifted_apply (l : FVec Ideal S200000x1000 .f32) (n : Fin 200000) (k : Fin 1000) :
    shifted (F := Ideal) l (ix2 n k) = l (ix2 n k) - Cert.Spec.top (fun j => l (ix2 n j)) := by
  unfold shifted
  rw [subf_apply, bcRow1000, bcCol, rowMax_apply]

/-! ## The gather at the labels -/

section Gather
variable {α : Type}

/-- The gather reads, in row n, the entry whose lane is the start index there, read signed and clamped into 0 … 999. -/
theorem gather_apply (lp : S200000x1000.Idx → α) (idx : IVec S200000x1x1 32) (n : Fin 200000) (z : Fin 1) :
    Host.gather gather_S200000x1000_S200000x1x1_S200000x1_n_1_0_0_1_2_11 lp idx (ix2 n z)
      = lp (ix2 n (⟨min (idx (ix3 n z (0 : Fin 1))).toInt.toNat 999, by omega⟩ : Fin 1000)) := by
  unfold Host.gather
  refine congrArg lp (funext fun a => Fin.ext ?_)
  match a with
  | ⟨0, _⟩ =>
    show gather_S200000x1000_S200000x1x1_S200000x1_n_1_0_0_1_2_11.start (ix2 n z) idx 0
        + gather_S200000x1000_S200000x1x1_S200000x1_n_1_0_0_1_2_11.batchCoord (ix2 n z) 0
        + gather_S200000x1000_S200000x1x1_S200000x1_n_1_0_0_1_2_11.offCoord (ix2 n z) 0 = n.val
    rw [GatherDims.start_batching _ _ idx 0 (by decide), GatherDims.offCoord_eq_zero _ _ 0 (by decide), Nat.zero_add]
    simp only [Nat.add_zero]
    rfl
  | ⟨1, _⟩ =>
    show gather_S200000x1000_S200000x1x1_S200000x1_n_1_0_0_1_2_11.start (ix2 n z) idx 1
        + gather_S200000x1000_S200000x1x1_S200000x1_n_1_0_0_1_2_11.batchCoord (ix2 n z) 1
        + gather_S200000x1000_S200000x1x1_S200000x1_n_1_0_0_1_2_11.offCoord (ix2 n z) 1 = min (idx (ix3 n z (0 : Fin 1))).toInt.toNat 999
    rw [GatherDims.batchCoord_eq_zero _ _ 1 (by decide), GatherDims.offCoord_eq_zero _ _ 1 (by decide)]
    simp only [Nat.add_zero]
    unfold GatherDims.start
    rw [dif_pos (by decide)]
    have hsi : gather_S200000x1000_S200000x1x1_S200000x1_n_1_0_0_1_2_11.siIdx (ix2 n z)
        ⟨List.idxOf (1 : Fin S200000x1000.rank) gather_S200000x1000_S200000x1x1_S200000x1_n_1_0_0_1_2_11.startIndexMap,
          List.idxOf_lt_length_iff.2 (by decide)⟩ = ix3 n z (0 : Fin 1) := by
      funext b; refine Fin.ext ?_
      match b with
      | ⟨0, _⟩ => rfl
      | ⟨1, _⟩ => rfl
      | ⟨2, _⟩ => rfl
    rw [hsi]
    rfl

end Gather

/-- The label column reads the label. -/
theorem labCol_apply (L1 : IVec S200000 32) (n : Fin 200000) (z : Fin 1) : labCol L1 (ix2 n z) = L1 (ix1 n) := by
  unfold labCol; exact bcCol L1 n z

/-- The gather index at a row is the row's label when that is not negative. -/
theorem gatherIdx_apply (L1 : IVec S200000 32) (n : Fin 200000) (h0 : 0 ≤ (L1 (ix1 n)).toInt) :
    gatherIdx L1 (ix3 n (0 : Fin 1) (0 : Fin 1)) = L1 (ix1 n) := by
  unfold gatherIdx
  rw [shapeCast_apply _ shapeCasts_S200000x1_S200000x1x1 (ix3 n (0 : Fin 1) (0 : Fin 1)) (ix2 n (0 : Fin 1)) (by
    rw [Shape.rowMajor_val_two, Shape.rowMajor_val_three]
    show n.val * 1 + 0 = (n.val * 1 + 0) * 1 + 0
    omega)]
  rw [select_apply]
  have hc : cmpi .slt (labCol L1) (broadcastInDim S200000x1 ![] bcast_S_S200000x1 (constantI S_ 32 0#32)) (ix2 n (0 : Fin 1)) = 0#1 := by
    change IntOp.cmpi .slt (labCol L1 (ix2 n (0 : Fin 1))) 0#32 = 0#1
    rw [labCol_apply]
    refine eq_zero_of_ne_one fun hh => ?_
    rw [IntOp.cmpi_slt] at hh
    have : (0#32 : BitVec 32).toInt = 0 := by decide
    omega
  rw [hc, select_zero, labCol_apply]

/-- A fold of ones by the conjunction from one is one. -/
theorem fold_andi_one {ι : Type} [DecidableEq ι] (s : Finset ι) :
    Finset.fold IntOp.andi (1#1 : BitVec 1) (fun _ : ι => (1#1 : BitVec 1)) s = 1#1 := by
  induction s using Finset.induction_on with
  | empty => rfl
  | insert a s ha ih => rw [Finset.fold_insert ha, ih]; rfl

/-- With the label in range the range test passes. -/
theorem gatherOk_apply (L1 : IVec S200000 32) (n : Fin 200000)
    (h : 0 ≤ (L1 (ix1 n)).toInt ∧ (L1 (ix1 n)).toInt < 1000) : gatherOk L1 (ix2 n (0 : Fin 1)) = 1#1 := by
  have hr : S200000x1x1.Reduces [2] S200000x1 := by decide
  unfold gatherOk
  rw [Host.reduce_eq_fold_single IntOp.andi _ _ reducesTo_S200000x1x1_S200000x1_d2 hr h_S_]
  have hl : ∀ k : Fin (S200000x1x1.size 2), hr.lift (ix2 n (0 : Fin 1)) k = ix3 n (0 : Fin 1) (0 : Fin 1) := fun k => by
    funext c; refine Fin.ext ?_
    match c with
    | ⟨0, _⟩ => rfl
    | ⟨1, _⟩ => rfl
    | ⟨2, _⟩ =>
      have hk : k.val < 1 := k.isLt
      show k.val = 0
      omega
  have hf : ((andi (cmpi .sge (gatherIdx L1) (broadcastInDim S200000x1x1 ![] bcast_S_S200000x1x1 (constantI S_ 32 0#32)))
      (cmpi .sle (gatherIdx L1) (broadcastInDim S200000x1x1 ![0, 1, 2] bcast_S1x1x1_S200000x1x1_0_1_2
        (broadcastInDim S1x1x1 ![2] bcast_S1_S1x1x1_2 (constantI S1 32 999#32))))) ∘ hr.lift (ix2 n (0 : Fin 1)))
      = fun _ => (1#1 : BitVec 1) := by
    funext k
    rw [Function.comp_apply, hl k]
    change IntOp.andi (IntOp.cmpi .sge (gatherIdx L1 (ix3 n (0 : Fin 1) (0 : Fin 1))) 0#32)
      (IntOp.cmpi .sle (gatherIdx L1 (ix3 n (0 : Fin 1) (0 : Fin 1))) 999#32) = 1#1
    rw [gatherIdx_apply L1 n h.1]
    have h0 : (0#32 : BitVec 32).toInt = 0 := by decide
    have h9 : (999#32 : BitVec 32).toInt = 999 := by decide
    rw [IntOp.cmpi_sge.2 (by omega), IntOp.cmpi_sle.2 (by omega)]
    rfl
  rw [hf]
  exact fold_andi_one _

/-- A sum over the classes that keeps the class the label names is the entry at the label. -/
theorem sum_label (g : Fin 1000 → EReal) (b : BitVec 32) (hb : 0 ≤ b.toInt ∧ b.toInt < 1000) :
    (∑ k : Fin 1000, if b.toInt = (k.val : ℤ) then g k else 0) = g (⟨b.toInt.toNat, by omega⟩ : Fin 1000) := by
  rw [Finset.sum_eq_single (⟨b.toInt.toNat, by omega⟩ : Fin 1000)]
  · rw [if_pos]
    show b.toInt = ((b.toInt.toNat : ℕ) : ℤ)
    omega
  · intro k _ hk
    rw [if_neg]
    intro e
    exact hk (Fin.ext (by show k.val = b.toInt.toNat; omega))
  · intro hh; exact absurd (Finset.mem_univ _) hh

end ConRef

open ConRef
/-- The log-softmax entry by entry: the logit minus the row's greatest, minus the log of the sum of the exponentials of the
    row's logits below their greatest. -/
theorem logSoftmax_apply (l : FVec Ideal S200000x1000 .f32) (n : Fin 200000) (k : Fin 1000) :
    logSoftmax (F := Ideal) l (ix2 n k)
      = (l (ix2 n k) - Cert.Spec.top (fun j => l (ix2 n j))) - Ideal.log (Cert.Spec.sumExp (fun j => l (ix2 n j))) := by
  have h1 : broadcastInDim S200000x1 ![0] bcast_S200000_S200000x1_0
      (Host.reduceAdd (Host.exp (shifted (F := Ideal) l)) (constant (F := Ideal) S_ .f32 0x00000000#32) reducesTo_S200000x1000_S200000_d1 h_S_)
      (ix2 n (0 : Fin 1)) = Cert.Spec.sumExp (fun j => l (ix2 n j)) := by
    rw [bcCol, rowSum1000]
    unfold Cert.Spec.sumExp
    refine Finset.sum_congr rfl fun j _ => ?_
    rw [hostExp_apply, shifted_apply]
  unfold logSoftmax
  rw [subf_apply, shifted_apply, bcRow1000, hostLog_apply, h1]

/-- With the label in range, the entry taken in row n is the row's entry at the label. -/
theorem takeAlong_apply (lp : FVec Ideal S200000x1000 .f32) (L1 : IVec S200000 32) (n : Fin 200000)
    (h : 0 ≤ (L1 (ix1 n)).toInt ∧ (L1 (ix1 n)).toInt < 1000) :
    takeAlong (F := Ideal) lp L1 (ix2 n (0 : Fin 1)) = ∑ k : Fin 1000, if (L1 (ix1 n)).toInt = (k.val : ℤ) then lp (ix2 n k) else 0 := by
  unfold takeAlong
  rw [select_apply, gatherOk_apply L1 n h, select_one, gather_apply, sum_label (fun k => lp (ix2 n k)) _ h]
  refine congrArg (fun k : Fin 1000 => lp (ix2 n k)) (Fin.ext ?_)
  show min (gatherIdx L1 (ix3 n (0 : Fin 1) (0 : Fin 1))).toInt.toNat 999 = (L1 (ix1 n)).toInt.toNat
  rw [gatherIdx_apply L1 n h.1]
  omega

end Cert.ReferenceIdeal.ValueR

end
-- ==== Proof.ConRefSum.lean ====
/-
  The reference's contrastive loss as minus the mean labelled log-probability.

  The loss is the negated quotient, by the number of rows, of the sum over the rows of the entry the gather takes from the
  log-softmax of the logits. With every label in 0 … 999 that entry is the log-softmax at the label: the labelled logit
  minus the row's greatest logit, minus the logarithm of the sum of the exponentials of the row's logits below their
  greatest — the row's labelled log-probability.
-/
import proofs.«413966_j50491635532083_2_alg».proof.Proof.ConRefLogits
import proofs.«413966_j50491635532083_2_alg».proof.Proof.ConRef
import Idealize.ShloMosaic.PureOps.Ideal.Laws
import Idealize.ShloMosaic.Lib.ValueIdx
import Idealize.ShloMosaic.Lib.IdealHost

noncomputable section

namespace Cert.ReferenceIdeal.ValueR

open Cert.ReferenceIdeal Cert.ReferenceIdeal.Gen Idealize.ShloMosaic Idealize.ShloMosaic.ValueIdx
open scoped BigOperators

namespace ConRefSum

/-- The negation of an array, read at an index. -/
theorem hostNegf_apply {s : Shape} (v : FVec Ideal s .f32) (i : s.Idx) : Host.negf v i = -(v i) := rfl

end ConRefSum

open ConRefSum ConRef
/-- The reference's contrastive loss is minus the mean, over the rows, of the labelled log-probability of the row's logits. -/
theorem refLossOf_eq (X : FVec Ideal S200000x256 .f32) (L1 : IVec S200000 32) (p : FVec Ideal S1000x256 .f32)
    (hlab : ∀ n : Fin 200000, 0 ≤ (L1 (ix1 n)).toInt ∧ (L1 (ix1 n)).toInt < 1000) :
    refLossOf (F := Ideal) X L1 p ix0
      = Cert.Spec.lossR (fun n e => X (ix2 n e)) (fun n => L1 (ix1 n)) (fun k e => p (ix2 k e)) := by
  unfold refLossOf Cert.Spec.lossR Cert.Spec.rowsF
  rw [hostNegf_apply, hostDivf_apply, hostReduceAdd_apply,
    Ideal.hostReduceAdd_total reducesTo_S200000x1_S_d0_1 (fun b => b.elim0)]
  simp only [constant_apply]
  rw [Ideal.ofBits_zero_f32, zero_add, sum_idx2]
  refine congrArg (fun s => -(Ideal.div s (Ideal.ofBits .f32 0x48435000#32))) (Finset.sum_congr rfl fun n _ => ?_)
  rw [Fin.sum_univ_one, takeAlong_apply _ L1 n (hlab n)]
  have hl : (fun j => logitsOf (F := Ideal) X p (ix2 n j))
      = Cert.Spec.logitsR (fun e => X (ix2 n e)) (fun k e => p (ix2 k e)) := funext fun j => logitsOf_apply X p n j
  have e1 : ∀ k : Fin 1000, logSoftmax (F := Ideal) (logitsOf (F := Ideal) X p) (ix2 n k)
      = (Cert.Spec.logitsR (fun e => X (ix2 n e)) (fun k e => p (ix2 k e)) k
          - Cert.Spec.top (Cert.Spec.logitsR (fun e => X (ix2 n e)) (fun k e => p (ix2 k e))))
        - Ideal.log (Cert.Spec.sumExp (Cert.Spec.logitsR (fun e => X (ix2 n e)) (fun k e => p (ix2 k e)))) := fun k => by
    rw [logSoftmax_apply, hl, logitsOf_apply]
  rw [Finset.sum_congr rfl (fun k _ => by rw [e1 k])]
  rw [sum_label (fun k => (Cert.Spec.logitsR (fun e => X (ix2 n e)) (fun k e => p (ix2 k e)) k
          - Cert.Spec.top (Cert.Spec.logitsR (fun e => X (ix2 n e)) (fun k e => p (ix2 k e))))
        - Ideal.log (Cert.Spec.sumExp (Cert.Spec.logitsR (fun e => X (ix2 n e)) (fun k e => p (ix2 k e))))) _ (hlab n)]
  unfold Cert.Spec.rowLogpR Cert.Spec.pick
  rw [sum_label (Cert.Spec.logitsR (fun e => X (ix2 n e)) (fun k e => p (ix2 k e))) _ (hlab n)]

end Cert.ReferenceIdeal.ValueR

end
-- ==== Proof.ConAlg.lean ====
/-
  The algebra over the extended reals behind the mean row loss.

  * The float words the programs spell denote the reals 9395241 / 2^27 (the temperature), 200000, 1 and a positive
    floor for a row's length.
  * Dividing by the temperature is multiplying by its reciprocal, so the two spellings of a row's logits agree.
  * On finite data every quantity is a real: a row over its floored length, the cosine, the logits, the class sums
    and counts, a quotient by a count floored at one.
  * For a row of real logits, log-sum-exp minus the labelled logit is minus the labelled log-probability; so the two
    spellings of the mean row loss agree on finite data.
-/
import proofs.«413966_j50491635532083_2_alg».proof.Proof.Spec
import Mathlib.Data.EReal.Basic
import Mathlib.Data.EReal.Operations
import Mathlib.Data.EReal.Inv
import Mathlib.Analysis.SpecialFunctions.Log.Basic
import Mathlib.Analysis.SpecialFunctions.Exp
import Mathlib.Analysis.SpecialFunctions.Sqrt
import Mathlib.Algebra.BigOperators.Group.Finset.Basic
import Mathlib.Algebra.Order.BigOperators.Group.Finset
import Mathlib.Data.Finset.Lattice.Fold

noncomputable section

namespace Cert.Spec

open Idealize.ShloMosaic

/-! ### The constants -/

/-- The temperature's word denotes the real 9395241 / 2^27. -/
theorem tempT_eq : tempT = ((9395241 / 134217728 : ℝ) : EReal) := by
  simp [tempT, Ideal.ofBits, Ideal.ieee, -EReal.coe_mul]; norm_num

/-- The floor of a row's length is a positive real. -/
theorem eps_pos : ∃ e : ℝ, 0 < e ∧ eps = (e : EReal) := by
  refine ⟨9223372 / 9223372036854775808, by norm_num, ?_⟩
  simp [eps, Ideal.ofBits, Ideal.ieee, -EReal.coe_mul]; norm_num

/-- The row count's word denotes the real 200000. -/
theorem rowsF_eq : rowsF = ((200000 : ℝ) : EReal) := by
  simp [rowsF, Ideal.ofBits, Ideal.ieee, -EReal.coe_mul]; norm_num

/-- The word for one denotes the real 1. -/
theorem oneF_eq : oneF = ((1 : ℝ) : EReal) := by
  simp [oneF, Ideal.ofBits, Ideal.ieee, -EReal.coe_mul]; norm_num

/-! ### Finite extended reals -/

/-- A real is finite. -/
theorem fin_coe (r : ℝ) : Fin' (r : EReal) := ⟨EReal.coe_ne_top r, EReal.coe_ne_bot r⟩

/-- Zero is finite. -/
theorem fin_zero : Fin' (0 : EReal) := fin_coe 0

/-- One is finite. -/
theorem fin_one : Fin' (1 : EReal) := fin_coe 1

/-- The greater of two reals, taken among the extended reals, is the greater real. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- A finite sum of reals, taken among the extended reals, is the real sum. -/
theorem coe_sum {ι : Type*} (s : Finset ι) (f : ι → ℝ) :
    ((∑ i ∈ s, f i : ℝ) : EReal) = ∑ i ∈ s, (f i : EReal) :=
  Finset.sum_hom_rel (r := fun (u : ℝ) (v : EReal) => (u : EReal) = v) rfl
    (fun a u v h => by rw [EReal.coe_add, h])

/-- A finite sum of finite extended reals is finite. -/
theorem fin_sum {ι : Type*} (s : Finset ι) (f : ι → EReal) (h : ∀ i ∈ s, Fin' (f i)) : Fin' (∑ i ∈ s, f i) := by
  have e : ∑ i ∈ s, f i = ((∑ i ∈ s, (f i).toReal : ℝ) : EReal) := by
    rw [coe_sum]
    exact Finset.sum_congr rfl (fun i hi => (EReal.coe_toReal (h i hi).1 (h i hi).2).symm)
  rw [e]; exact fin_coe _

/-- A product of two finite extended reals is finite. -/
theorem fin_mul {a b : EReal} (ha : Fin' a) (hb : Fin' b) : Fin' (a * b) := by
  lift a to ℝ using ha
  lift b to ℝ using hb
  rw [← EReal.coe_mul]; exact fin_coe _

/-- A finite extended real over a positive real is finite. -/
theorem fin_div_pos {a : EReal} (ha : Fin' a) {L : ℝ} (hL : 0 < L) : Fin' (Ideal.div a (L : EReal)) := by
  rw [Ideal.div_coe hL.ne']; exact fin_mul ha (fin_coe _)

/-! ### The two spellings of the logits -/

/-- The cosine times the reciprocal temperature is the cosine over the temperature: the temperature is a nonzero
    real, and dividing by it is multiplying by its reciprocal, at every extended real. -/
theorem logitsK_eq_logitsR (x : Fin 256 → EReal) (P : Fin 1000 → Fin 256 → EReal) (k : Fin 1000) :
    logitsK x P k = logitsR x P k := by
  have h : (1 / (9395241 / 134217728) : ℝ) = 134217728 / 9395241 := by norm_num
  rw [logitsK, logitsR, tempT_eq, Ideal.div_coe (by norm_num), invT, h]

/-! ### Finiteness -/

/-- The floored length of a finite row is a positive real. -/
theorem len_eq {n : ℕ} (x : Fin n → EReal) (hx : ∀ d, Fin' (x d)) : ∃ L : ℝ, 0 < L ∧ len x = (L : EReal) := by
  obtain ⟨e, he, hee⟩ := eps_pos
  lift x to Fin n → ℝ using hx
  have hs : ∑ i, ((x i : EReal) * (x i : EReal)) = ((∑ i, x i * x i : ℝ) : EReal) := by
    rw [coe_sum]; exact Finset.sum_congr rfl (fun i _ => (EReal.coe_mul _ _).symm)
  have h0 : ¬ (∑ i, x i * x i) < 0 := not_lt.mpr (Finset.sum_nonneg (fun i _ => mul_self_nonneg _))
  refine ⟨max (Real.sqrt (∑ i, x i * x i)) e, lt_max_of_lt_right he, ?_⟩
  rw [len, hs, Ideal.sqrt_coe, if_neg h0, hee, coe_max]

/-- Every entry of a finite row over its floored length is finite: the length is a real no less than the positive
    floor. -/
theorem unit_fin {n : ℕ} (x : Fin n → EReal) (hx : ∀ d, Fin' (x d)) (d : Fin n) : Fin' (unit x d) := by
  obtain ⟨L, hL, hLe⟩ := len_eq x hx
  rw [unit, hLe]; exact fin_div_pos (hx d) hL

/-- The cosine of two finite rows is finite. -/
theorem cosine_fin (x p : Fin 256 → EReal) (hx : ∀ d, Fin' (x d)) (hp : ∀ d, Fin' (p d)) : Fin' (cosine x p) := by
  unfold cosine
  exact fin_sum _ _ (fun d _ => fin_mul (unit_fin x hx d) (unit_fin p hp d))

/-- The logits of a finite row against finite class rows are finite. -/
theorem logitsK_fin (x : Fin 256 → EReal) (P : Fin 1000 → Fin 256 → EReal) (hx : ∀ d, Fin' (x d))
    (hP : ∀ k d, Fin' (P k d)) (k : Fin 1000) : Fin' (logitsK x P k) := by
  unfold logitsK invT
  exact fin_mul (cosine_fin x (P k) hx (hP k)) (fin_coe _)

/-- Class sums of finite features are finite. -/
theorem segSum_fin (x : Fin 200000 → Fin 256 → EReal) (lab : Fin 200000 → BitVec 32) (hx : ∀ n d, Fin' (x n d))
    (k : Fin 1000) (d : Fin 256) : Fin' (segSum x lab k d) := by
  unfold segSum
  refine fin_sum _ _ (fun n _ => ?_)
  split_ifs
  exacts [hx n d, fin_zero]

/-- A class count is finite and not negative. -/
theorem segCnt_fin (lab : Fin 200000 → BitVec 32) (k : Fin 1000) : Fin' (segCnt lab k) ∧ 0 ≤ segCnt lab k := by
  unfold segCnt
  refine ⟨fin_sum _ _ (fun n _ => ?_), Finset.sum_nonneg (fun n _ => ?_)⟩
  · split_ifs
    exacts [fin_one, fin_zero]
  · split_ifs
    exacts [zero_le_one, le_rfl]

/-- A finite extended real over a finite one floored at one is finite: the divisor is a real no less than one. -/
theorem div_max_fin (a c : EReal) (ha : Fin' a) (hc : Fin' c) : Fin' (Ideal.div a (max c oneF)) := by
  lift c to ℝ using hc
  rw [oneF_eq, ← coe_max]
  exact fin_div_pos ha (lt_of_lt_of_le one_pos (le_max_right _ _))

/-! ### One row's loss -/

/-- For a row of real logits, log-sum-exp minus the labelled logit is minus the labelled log-probability, and it is
    a real: the greatest logit is one of them, the exponentials below it add up to a positive real whose logarithm
    is a real, the labelled logit is a real, and the rest is arithmetic of reals. -/
theorem row_eq (l : Fin 1000 → EReal) (hl : ∀ k, Fin' (l k)) (b : BitVec 32) :
    rowLossK l b = -(rowLogpR l b) ∧ Fin' (rowLossK l b) := by
  lift l to Fin 1000 → ℝ using hl
  have hne : (Finset.univ : Finset (Fin 1000)).Nonempty := ⟨⟨0, by norm_num⟩, Finset.mem_univ _⟩
  obtain ⟨k0, -, hk0⟩ := Finset.exists_mem_eq_sup Finset.univ hne (fun k => (l k : EReal))
  have htop : top (fun k => (l k : EReal)) = ((l k0 : ℝ) : EReal) := hk0
  have hsum : sumExp (fun k => (l k : EReal)) = ((∑ k, Real.exp (l k - l k0) : ℝ) : EReal) := by
    rw [sumExp, htop, coe_sum]
    exact Finset.sum_congr rfl (fun k _ => by rw [← EReal.coe_sub, Ideal.exp_coe])
  have hpos : ¬ (∑ k, Real.exp (l k - l k0)) ≤ 0 :=
    not_le.mpr (Finset.sum_pos (fun k _ => Real.exp_pos _) hne)
  have hpick : pick (fun k => (l k : EReal)) b
      = ((∑ k : Fin 1000, if b.toInt = (k.val : ℤ) then l k else 0 : ℝ) : EReal) := by
    rw [pick, coe_sum]
    exact Finset.sum_congr rfl (fun k _ => by split_ifs <;> rfl)
  rw [rowLossK, rowLogpR, htop, hsum, hpick, Ideal.log_coe, if_neg hpos]
  rw [← EReal.coe_add, ← EReal.coe_sub, ← EReal.coe_sub, ← EReal.coe_sub, ← EReal.coe_neg]
  exact ⟨EReal.coe_eq_coe_iff.mpr (by ring), fin_coe _⟩

/-! ### The mean row loss -/

/-- On finite data the two spellings of the mean row loss agree: row by row the logits agree and the row losses are
    real negatives of each other; a sum of reals is real; and minus a real over 200000 is the negated real over
    200000. -/
theorem lossK_eq_lossR (x : Fin 200000 → Fin 256 → EReal) (lab : Fin 200000 → BitVec 32)
    (P : Fin 1000 → Fin 256 → EReal) (hx : ∀ n d, Fin' (x n d)) (hP : ∀ k d, Fin' (P k d)) :
    lossK x lab P = lossR x lab P := by
  have hrow : ∀ n, ∃ t : ℝ, rowLossK (logitsK (x n) P) (lab n) = (t : EReal)
      ∧ rowLogpR (logitsR (x n) P) (lab n) = ((-t : ℝ) : EReal) := by
    intro n
    have hKR : logitsR (x n) P = logitsK (x n) P := funext (fun k => (logitsK_eq_logitsR (x n) P k).symm)
    obtain ⟨he, hf⟩ := row_eq (logitsK (x n) P) (fun k => logitsK_fin (x n) P (hx n) hP k) (lab n)
    refine ⟨(rowLossK (logitsK (x n) P) (lab n)).toReal, (EReal.coe_toReal hf.1 hf.2).symm, ?_⟩
    rw [hKR, EReal.coe_neg, EReal.coe_toReal hf.1 hf.2, he, neg_neg]
  choose t ht1 ht2 using hrow
  have h1 : ∑ n, rowLossK (logitsK (x n) P) (lab n) = ((∑ n, t n : ℝ) : EReal) := by
    rw [coe_sum]; exact Finset.sum_congr rfl (fun n _ => ht1 n)
  have h2 : ∑ n, rowLogpR (logitsR (x n) P) (lab n) = ((∑ n, -(t n) : ℝ) : EReal) := by
    rw [coe_sum]; exact Finset.sum_congr rfl (fun n _ => ht2 n)
  rw [lossK, lossR, h1, h2, rowsF_eq, Ideal.div_coe (by norm_num), Ideal.div_coe (by norm_num),
    ← EReal.coe_mul, ← EReal.coe_mul, ← EReal.coe_neg, Finset.sum_neg_distrib]
  exact EReal.coe_eq_coe_iff.mpr (by ring)

end Cert.Spec

end
-- ==== Proof.PreDecode.lean ====
/-
  The precondition read back. It states four facts at once, each "for every entry": the absolute value of every
  entry of the two feature arrays is below plus infinity, and every entry of the first label array, read signed,
  is at least 0 and below 1000. An extended real whose absolute value max(x, -x) is below plus infinity is neither
  infinity: it is a real. A word that tests at least 0 and below 1000 under the signed comparisons has its signed
  value in that range.
-/
import proofs.«413966_j50491635532083_2_alg».proof.Pre_finite_inputs
import proofs.«413966_j50491635532083_2_alg».proof.Proof.Gen.Pre_finite_inputs
import proofs.«413966_j50491635532083_2_alg».proof.Proof.Spec
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic ValueIdx

/-- A shape with no axes has one index. -/
instance : Subsingleton Cert.Pre_finite_inputs.S_.Idx := ⟨fun a b => funext fun d => d.elim0⟩

/-- The f32 word 0x7F800000 is plus infinity. -/
theorem inf_word : Ideal.ofBits .f32 0x7F800000#32 = (⊤ : EReal) := by
  simp [Ideal.ofBits, Ideal.ieee]

/-- An extended real with max(x, -x) below plus infinity is a real: x = ⊤ would make the maximum ⊤, and x = ⊥ would
    make -x = ⊤. -/
theorem fin_of_abs_lt (x : EReal)
    (h : FloatOps.cmpf (F := Ideal) (φ := .f32) .olt (FloatOps.hostAbsf (F := Ideal) (φ := .f32) x) (Ideal.ofBits .f32 0x7F800000#32) = 1#1) :
    Cert.Spec.Fin' x := by
  rw [inf_word] at h
  change Ideal.cmp .olt (max x (-x)) ⊤ = 1#1 at h
  unfold Ideal.cmp at h
  rw [StableHlo.Predicate.ofBool_eq_one_iff, decide_eq_true_eq, max_lt_iff] at h
  refine ⟨ne_of_lt h.1, ?_⟩
  rintro rfl
  exact absurd h.2 (by simp)

/-- A word that tests at least 0 and below 1000, signed, has its signed value in that range. -/
theorem range_of_cmp (w : BitVec 32) (h0 : IntOp.cmpi .sge w 0#32 = 1#1) (h1 : IntOp.cmpi .slt w 1000#32 = 1#1) :
    0 ≤ w.toInt ∧ w.toInt < 1000 := by
  rw [IntOp.cmpi_sge] at h0
  rw [IntOp.cmpi_slt] at h1
  rw [show (0#32 : BitVec 32).toInt = 0 from by decide] at h0
  rw [show (1000#32 : BitVec 32).toInt = 1000 from by decide] at h1
  exact ⟨h0, h1⟩

/-- The precondition, read back: every entry of both feature arrays is a real, and every label of the first label
    array, read signed, lies in 0 … 999. -/
theorem pre_decode [Cert.Pre_finite_inputs.Facts] (x0 : FVec Ideal Cert.Pre_finite_inputs.S200000x256 .f32) (l0 : IVec Cert.Pre_finite_inputs.S200000 32)
    (x1 : FVec Ideal Cert.Pre_finite_inputs.S200000x256 .f32) (l1 : IVec Cert.Pre_finite_inputs.S200000 32)
    (h : Cert.Pre_finite_inputs.fn (F := Ideal) x0 l0 x1 l1 = (fun _ => 1#1)) :
    (∀ i, Cert.Spec.Fin' (x0 i)) ∧ (∀ i, Cert.Spec.Fin' (x1 i)) ∧ (∀ n : Fin 200000, 0 ≤ (l0 (ix1 n)).toInt ∧ (l0 (ix1 n)).toInt < 1000) := by
  have e := congrFun h ix0
  dsimp only [Cert.Pre_finite_inputs.fn, Cert.Pre_finite_inputs.fn_part1] at e
  simp only [andi] at e
  rw [IntOp.andi_eq_one, IntOp.andi_eq_one, IntOp.andi_eq_one] at e
  obtain ⟨⟨⟨ha, hb⟩, hc⟩, hd⟩ := e
  refine ⟨fun i => fin_of_abs_lt (x0 i) (Host.reduce_andi_all _ _ _ _ _ ha i),
    fun i => fin_of_abs_lt (x1 i) (Host.reduce_andi_all _ _ _ _ _ hb i),
    fun n => range_of_cmp (l0 (ix1 n)) (Host.reduce_andi_all _ _ _ _ _ hc (ix1 n)) (Host.reduce_andi_all _ _ _ _ _ hd (ix1 n))⟩

end Cert.PreDecode

end
-- ==== Proof.lean ====
/-
  The certificate's proof. The kernel program computes the per-class feature sums and counts by a one-hot matrix
  product accumulated block by block on two cores, the class means and their structure loss on the host, and the
  contrastive loss as a running sum of row losses (log-sum-exp of the logits minus the labelled logit) over row
  blocks on two cores; the reference computes the same by scatter-adds, a log-softmax and a gather.

  Over the extended reals, for finite features and labels 0 … 999:
  * a row block's one-hot product adds feature d of each row labelled k to entry (k, d) — the compensating second
    product is of x − x = 0 —, so the two cores' accumulated blocks add up to the scattered class sums, and the
    column sums of the one-hot mask to the scattered counts; the class means, the structure matrix and the
    structure loss are then one chain of host operations applied to equal arrays;
  * the 24 padded class lanes hold −∞: they leave the row maximum and the sum of exponentials unchanged, and a
    label in range never selects one; the cosine times the reciprocal temperature is the cosine over the
    temperature; and (M + log Σ exp(l − M)) − l_label = −((l_label − M) − log Σ exp(l − M)) on finite logits, so the
    mean of the one is minus the mean of the other.
-/
import proofs.«413966_j50491635532083_2_alg».proof.Defs
import proofs.«413966_j50491635532083_2_alg».proof.Proof.Gen.Kernel
import proofs.«413966_j50491635532083_2_alg».proof.Proof.Gen.Kernel.Frame
import proofs.«413966_j50491635532083_2_alg».proof.Proof.Gen.KernelIdeal
import proofs.«413966_j50491635532083_2_alg».proof.Proof.Gen.KernelIdeal.Frame
import proofs.«413966_j50491635532083_2_alg».proof.Proof.Gen.ReferenceIdeal
import proofs.«413966_j50491635532083_2_alg».proof.Proof.Gen.Pre_finite_inputs
import proofs.«413966_j50491635532083_2_alg».proof.Proof.Spec
import proofs.«413966_j50491635532083_2_alg».proof.Proof.KDefs
import proofs.«413966_j50491635532083_2_alg».proof.Proof.RefDefs
import proofs.«413966_j50491635532083_2_alg».proof.Proof.KRun
import proofs.«413966_j50491635532083_2_alg».proof.Proof.RunP
import proofs.«413966_j50491635532083_2_alg».proof.Proof.Chain
import proofs.«413966_j50491635532083_2_alg».proof.Proof.SegFrame0
import proofs.«413966_j50491635532083_2_alg».proof.Proof.SegFrame1
import proofs.«413966_j50491635532083_2_alg».proof.Proof.ConFrame
import proofs.«413966_j50491635532083_2_alg».proof.Proof.KRead
import proofs.«413966_j50491635532083_2_alg».proof.Proof.SegSum
import proofs.«413966_j50491635532083_2_alg».proof.Proof.RefSeg
import proofs.«413966_j50491635532083_2_alg».proof.Proof.RefRead
import proofs.«413966_j50491635532083_2_alg».proof.Proof.ConSum
import proofs.«413966_j50491635532083_2_alg».proof.Proof.ConRefSum
import proofs.«413966_j50491635532083_2_alg».proof.Proof.ConAlg
import proofs.«413966_j50491635532083_2_alg».proof.Proof.PreDecode
import Idealize.ShloMosaic.PureOps.IdealRules
import Idealize.ShloMosaic.Lib.ValueIdx
import Idealize.ShloMosaic.Adequacy
import Idealize.ShloMosaic.Init

noncomputable section

/-! ## The pieces put together -/

namespace Cert.Proof

open Idealize.ShloMosaic Idealize.SL.Sem ValueIdx

section Kernel

open Cert.KernelIdeal Cert.KernelIdeal.Gen Cert.KernelIdeal.ValueK

variable (m : (ℓ : Loc nD τ sig) → Buf (Elt Ideal) ℓ) (ρ : Dev nD → PrngReg) (c : Dev nD)

/-- The argument arrays on core `c`. -/
abbrev x0 : FVec Ideal S200000x256 .f32 := m ((c.tc : Thread nD τ).loc main_arg0)
abbrev l0 : IVec S200000 32 := m ((c.tc : Thread nD τ).loc main_arg1)
abbrev x1 : FVec Ideal S200000x256 .f32 := m ((c.tc : Thread nD τ).loc main_arg2)
abbrev l1 : IVec S200000 32 := m ((c.tc : Thread nD τ).loc main_arg3)

/-- The class means as the reference writes them: the scattered sums over the scattered counts. -/
abbrev pS : FVec Ideal S1000x256 .f32 :=
  Cert.ReferenceIdeal.ValueR.protoOf (Cert.ReferenceIdeal.ValueR.scatS (x0 m c) (l0 m c)) (Cert.ReferenceIdeal.ValueR.scatC (l0 m c))
abbrev pT : FVec Ideal S1000x256 .f32 :=
  Cert.ReferenceIdeal.ValueR.protoOf (Cert.ReferenceIdeal.ValueR.scatS (x1 m c) (l1 m c)) (Cert.ReferenceIdeal.ValueR.scatC (l1 m c))

/-- Region 0 leaves, added over the two cores and cut to the thousand classes, the scattered class sums. -/
theorem sums0 (hx : ∀ i, Cert.Spec.Fin' (x0 m c i)) :
    sumsOf (A02 m ρ c) = Cert.ReferenceIdeal.ValueR.scatS (x0 m c) (l0 m c) := by
  funext i
  rw [eq_ix2 i]
  refine (sumsOf_eq (A02 m ρ c) (x0 m c) (l0 m c) (fun q k d => ?_) hx (i 0) (i 1)).trans
    (Cert.ReferenceIdeal.ValueR.scatS_eq (x0 m c) (l0 m c) (i 0) (i 1)).symm
  have h := arr0_2_apply (V1 m ρ) c q k d
  rw [V1_arg0, V1_v0] at h
  exact h

theorem cnts0 : cntsOf (A03 m ρ c) = Cert.ReferenceIdeal.ValueR.scatC (l0 m c) := by
  funext i
  rw [eq_ix1 i]
  refine (cntsOf_eq (A03 m ρ c) (l0 m c) (x0 m c) (fun q k => ?_) (i 0)).trans
    (Cert.ReferenceIdeal.ValueR.scatC_eq (l0 m c) (i 0)).symm
  have h := arr0_3_apply (V1 m ρ) c q k
  rw [V1_arg0, V1_v0] at h
  exact h

theorem sums1 (hx : ∀ i, Cert.Spec.Fin' (x1 m c i)) :
    sumsOf (A12 m ρ c) = Cert.ReferenceIdeal.ValueR.scatS (x1 m c) (l1 m c) := by
  funext i
  rw [eq_ix2 i]
  refine (sumsOf_eq (A12 m ρ c) (x1 m c) (l1 m c) (fun q k d => ?_) hx (i 0) (i 1)).trans
    (Cert.ReferenceIdeal.ValueR.scatS_eq (x1 m c) (l1 m c) (i 0) (i 1)).symm
  have h := arr1_2_apply (V3 m ρ) c q k d
  rw [V3_arg2, V3_v1] at h
  exact h

theorem cnts1 : cntsOf (A13 m ρ c) = Cert.ReferenceIdeal.ValueR.scatC (l1 m c) := by
  funext i
  rw [eq_ix1 i]
  refine (cntsOf_eq (A13 m ρ c) (l1 m c) (x1 m c) (fun q k => ?_) (i 0)).trans
    (Cert.ReferenceIdeal.ValueR.scatC_eq (l1 m c) (i 0)).symm
  have h := arr1_3_apply (V3 m ρ) c q k
  rw [V3_arg2, V3_v1] at h
  exact h

/-- The kernel program's class means are the reference's. -/
theorem protoS (hx : ∀ i, Cert.Spec.Fin' (x0 m c i)) :
    protoOf (sumsOf (A02 m ρ c)) (cntsOf (A03 m ρ c)) = pS m c := by
  rw [sums0 m ρ c hx, cnts0 m ρ c, Cert.Chain.protoOf_eq]
theorem protoT (hx : ∀ i, Cert.Spec.Fin' (x1 m c i)) :
    protoOf (sumsOf (A12 m ρ c)) (cntsOf (A13 m ρ c)) = pT m c := by
  rw [sums1 m ρ c hx, cnts1 m ρ c, Cert.Chain.protoOf_eq]

/-- The class means are finite: a finite sum over a count floored at one. -/
theorem pS_fin (hx : ∀ i, Cert.Spec.Fin' (x0 m c i)) (k : Fin 1000) (d : Fin 256) : Cert.Spec.Fin' (pS m c (ix2 k d)) := by
  show Cert.Spec.Fin' (Cert.ReferenceIdeal.ValueR.protoOf (F := Ideal) _ _ (ix2 k d))
  rw [Cert.ReferenceIdeal.ValueR.protoOf_apply, Cert.ReferenceIdeal.ValueR.scatS_eq, Cert.ReferenceIdeal.ValueR.scatC_eq]
  exact Cert.Spec.div_max_fin _ _ (Cert.Spec.segSum_fin _ _ (fun n e => hx _) k d) (Cert.Spec.segCnt_fin _ k).1

/-- The kernel program's mean row loss is the reference's, under finite features and labels in range. -/
theorem loss_eq (hx : ∀ i, Cert.Spec.Fin' (x0 m c i))
    (hlab : ∀ n : Fin 200000, 0 ≤ (l0 m c (ix1 n)).toInt ∧ (l0 m c (ix1 n)).toInt < 1000) :
    lossOf (A23 m ρ c) = Cert.ReferenceIdeal.ValueR.refLossOf (x0 m c) (l0 m c) (pS m c) := by
  funext i
  rw [eq_ix0 i]
  refine (lossOf_eq (A23 m ρ c) (x0 m c) (l0 m c) (unitRowsPad (padOf (pS m c))) (fun k e => pS m c (ix2 k e)) (fun q => ?_)
    (fun k d => unitRowsPad_apply (pS m c) k d) hlab).trans ?_
  · have h := arr2_3_apply (V7 m ρ) c q
    rw [V7_arg0, V7_v0, V7_v56, protoS m ρ c hx] at h
    exact h
  · rw [Cert.Spec.lossK_eq_lossR _ _ _ (fun n e => hx _) (fun k d => pS_fin m c hx k d)]
    exact (Cert.ReferenceIdeal.ValueR.refLossOf_eq (x0 m c) (l0 m c) (pS m c) hlab).symm

end Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The four rewrites of the idealization: two format round trips dropped, two constants named. -/
theorem preserves : Cert.preserves_Kernel_KernelIdeal :=
  ⟨IdealRules.truncf_extf.statement _ _ _, IdealRules.truncf_extf.statement _ _ _,
   IdealRules.named_const.statement Cert.KernelIdeal.κ "inv_temperature" .f32 0x41649249#32 ((134217728 / 9395241 : ℝ) : EReal) rfl,
   IdealRules.named_const.statement Cert.KernelIdeal.κ "neg_fill" .f32 0xFF333332#32 ⊥ rfl⟩

/-- Both idealized programs end with the same four results: the structure loss and the structure matrix are one
    chain of host operations applied to equal class means; the contrastive loss is one mean row loss in two
    spellings. -/
theorem algebraic : Cert.algebraic_KernelIdeal_ReferenceIdeal := by
  intro m ρ m' ρ' hpre hagree
  have hdec := fun c => Cert.PreDecode.pre_decode _ _ _ _ (hpre c)
  refine ⟨fun c => Cert.ReferenceIdeal.ValueR.structLoss (pS m c) (pT m c),
    fun c => Cert.ReferenceIdeal.ValueR.refLossOf (x0 m c) (l0 m c) (pS m c),
    fun c => pS m c, fun c => Cert.ReferenceIdeal.ValueR.structOf (pS m c), ?_, ?_⟩
  · refine (θ_run Cert.KernelIdeal.defs _ _).mono (fun r h c => ?_) (Cert.KernelIdeal.ValueK.run_named (F := Ideal) m ρ)
    obtain ⟨h47, h59, h18, h41, ha⟩ := h c
    obtain ⟨hx0, hx1, hl0⟩ := hdec c
    refine ⟨h47.trans ?_, h59.trans ?_, h18.trans ?_, h41.trans ?_, ha⟩
    · rw [Cert.KernelIdeal.ValueK.W9_v47, protoS m ρ c hx0, protoT m ρ c hx1, Cert.Chain.structLoss_eq]
    · rw [Cert.KernelIdeal.ValueK.W9_v59]; exact loss_eq m ρ c hx0 hl0
    · rw [Cert.KernelIdeal.ValueK.W9_v18]; exact protoS m ρ c hx0
    · rw [Cert.KernelIdeal.ValueK.W9_v41, protoS m ρ c hx0, Cert.Chain.structOf_eq]
  · refine (θ_run Cert.ReferenceIdeal.defs _ _).mono (fun r h c => ?_) (Cert.ReferenceIdeal.ValueP.run (F := Ideal) m' ρ')
    obtain ⟨hb, ha⟩ := h c
    obtain ⟨e0, e1, e2, e3⟩ := hagree c
    refine ⟨(hb _).trans ?_, (hb _).trans ?_, (hb _).trans ?_, (hb _).trans ?_, ha⟩
    · rw [Cert.ReferenceIdeal.ValueR.ref_v47, e0, e1, e2, e3]
    · rw [Cert.ReferenceIdeal.ValueR.ref_v73, e0, e1]
    · rw [Cert.ReferenceIdeal.ValueR.ref_v11, e0, e1]
    · rw [Cert.ReferenceIdeal.ValueR.ref_v33, e0, e1]

end Cert.Proof

namespace Cert.Proof

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
